-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S128x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S1024x1024 .f32) (main_arg2 : FVec F S1024x1024 .f32) (main_arg3 : FVec F S1024x1024 .f32) (main_arg4 : FVec F S1024x1024 .f32) (main_arg5 : FVec F S1024 .f32) (main_arg6 : FVec F S1024 .f32) (main_arg7 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S3072x1024 : Shape := ⟨2, ![3072, 1024]⟩
abbrev S512x1024 : Shape := ⟨2, ![512, 1024]⟩
abbrev S512x3072 : Shape := ⟨2, ![512, 3072]⟩
abbrev S1x1024 : Shape := ⟨2, ![1, 1024]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 27
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S4096x1024, .bf16⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S3072x1024, .f32⟩
  | .hbm, ⟨13, _⟩ => ⟨S3072x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S1024x1024, .bf16⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S4096x1024, .bf16⟩
  | .local _ .vmem, ⟨18, _⟩ => ⟨S4096x1024, .bf16⟩
  | .local _ .vmem, ⟨19, _⟩ => ⟨S4096x1024, .bf16⟩
  | .local _ .vmem, ⟨20, _⟩ => ⟨S128x1024, .f32⟩
  | .local _ .vmem, ⟨21, _⟩ => ⟨S128x1024, .f32⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S128x1024, .f32⟩
  | .local _ .vmem, ⟨28, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem11_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bitsLt_bf16_f32 : FTy.bits .bf16 < FTy.bits .f32
  bcast_S_S1024x1024 : S_.BroadcastsInDim S1024x1024 (![] : Fin 0 → Fin S1024x1024.rank)
  concatenates_S1024x1024_S1024x1024_S1024x1024_S3072x1024_d0 : Shape.Concatenates [S1024x1024, S1024x1024, S1024x1024] S3072x1024 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  packedbf16_S512x1024_S512x1024_0_0 : (Rect.unit (s := S512x1024) ![0, 0] S512x1024.size inb_S512x1024_S512x1024_0_0).PackedRows (EltTy.packing .bf16)
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S128x4096_S128 : S128x4096.Reduces [1] S128
  shapeCasts_S128_S128x1 : S128.ShapeCasts S128x1
  broadcasts_S128x1_S128x4096 : S128x1.Broadcasts S128x4096
  broadcasts_S128x1_S128x1024 : S128x1.Broadcasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  reduces_S128x1024_S128 : S128x1024.Reduces [1] S128
  dot_S512x1024_S3072x1024_S512x3072_1_1_0_0_n_n_wf : DotDims.WF S512x1024 S3072x1024 S512x3072 [1] [1] [0] [0] [] []
  dot_S128x1024_S4096x1024_S128x4096_1_1_0_0_n_n_wf : DotDims.WF S128x1024 S4096x1024 S128x4096 [1] [1] [0] [0] [] []
  dot_S128x4096_S4096x1024_S128x1024_1_0_0_1_n_n_wf : DotDims.WF S128x4096 S4096x1024 S128x1024 [1] [0] [0] [1] [] []
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .bf16 = 32 ∨ (Rect.block (s := S4096x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .bf16 = 32 ∨ (Rect.block (s := S4096x1024) S128x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x1024.size a ≤ S4096x1024.size a
  hwx1_4 : ∀ i : grid1.Coords, EltTy.bits .bf16 = 32 ∨ (Rect.block (s := S4096x1024) S4096x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x1024.size a ≤ S4096x1024.size a
  hwx1_5 : ∀ i : grid1.Coords, EltTy.bits .f32 = 32 ∨ (Rect.block (s := S4096x1024) S128x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S1024x1024.size a
  hwx1_6 : ∀ i : grid1.Coords, EltTy.bits .bf16 = 32 ∨ (Rect.block (s := S1024x1024) S1024x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S1024x1024.size a
  hwx1_7 : ∀ i : grid1.Coords, EltTy.bits .bf16 = 32 ∨ (Rect.block (s := S1024x1024) S1024x1024.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1024.size a ≤ S1x1024.size a
  hwx1_10 : ∀ i : grid1.Coords, EltTy.bits .f32 = 32 ∨ (Rect.block (s := S1x1024) S1x1024.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S128x1024.size a ≤ S4096x1024.size a
  hwx1_11 : ∀ i : grid1.Coords, EltTy.bits .f32 = 32 ∨ (Rect.block (s := S4096x1024) S128x1024.size (cc1_transform_11 i) (hinb1_11 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_2) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_3) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_4) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5_2) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_3) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_4) S4096x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S128x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1024x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1024x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S1x1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v13) S128x1024.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .i32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S1x1024, .f32⟩
  | .hbm, ⟨82, _⟩ => ⟨S4096x1024, .f32⟩
  | .hbm, ⟨83, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S4096x1024_S4096_d1 : S4096x1024.ReducesTo [1] S4096
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  dot_S4096x1024_S1024x1024_S4096x1024_1_0_0_1_n_n_wf : DotDims.WF S4096x1024 S1024x1024 S4096x1024 [1] [0] [0] [1] [] []
  dot_S4096x1024_S4096x1024_S4096x4096_1_1_0_0_n_n_wf : DotDims.WF S4096x1024 S4096x1024 S4096x4096 [1] [1] [0] [0] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.BData.lean ====
/-
  What the two launches of the attention block hold, window by window and grid point by grid point, given the
  contents V of the buffers when a launch is entered.

  The first launch (8 points, 512 rows each) reads a block of the activations and the whole stacked weight, and
  leaves five blocks: q, the remainder q - q, k, the remainder k - k, and v, each a slice of one 512 x 3072 product.
  The second launch (32 points, 128 rows each) reads a block of k and of its remainder, all of q, of q's remainder
  and of v, a block of the residual, the output projection and its remainder, bias, scale and shift, and leaves one
  128 x 1024 block of the normalised output. Every load and store is of a whole staging buffer, so a buffer after
  the body holds the single stored value.
-/
import proofs.«400652_j32040456029043_3_alg».proof.Proof.Gen.Kernel.Launch
import proofs.«400652_j32040456029043_3_alg».proof.Proof.Gen.Kernel.Skeleton
import proofs.«400652_j32040456029043_3_alg».proof.Proof.Gen.Kernel.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents when a launch is entered
variable (V : (c : Dev nD) → (b : Ref sig .tc) → Buf (Elt F) ((c : Thread nD τ).loc b))

/-! # The first launch -/

/-- Window w's block at point t, read off its array as the launch finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole 512 x 1024 staging buffer, and the whole 3072 x 1024 one. -/
abbrev rA : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0

/-- The five output buffers after the body: the one stored value each, as a function of the two input blocks. -/
def out0_2 (x0 : Vec F S512x1024 .bf16) (x1 : Vec F S3072x1024 .bf16) : Vec F S512x1024 .bf16 :=
  View.canon [⟨rA, k0_pay4 (View.ld x0 rA) (View.ld x1 rW)⟩]
def out0_3 (x0 : Vec F S512x1024 .bf16) (x1 : Vec F S3072x1024 .bf16) : Vec F S512x1024 .bf16 :=
  View.canon [⟨rA, k0_pay5 (View.ld x0 rA) (View.ld x1 rW)⟩]
def out0_4 (x0 : Vec F S512x1024 .bf16) (x1 : Vec F S3072x1024 .bf16) : Vec F S512x1024 .bf16 :=
  View.canon [⟨rA, k0_pay6 (View.ld x0 rA) (View.ld x1 rW)⟩]
def out0_5 (x0 : Vec F S512x1024 .bf16) (x1 : Vec F S3072x1024 .bf16) : Vec F S512x1024 .bf16 :=
  View.canon [⟨rA, k0_pay7 (View.ld x0 rA) (View.ld x1 rW)⟩]
def out0_6 (x0 : Vec F S512x1024 .bf16) (x1 : Vec F S3072x1024 .bf16) : Vec F S512x1024 .bf16 :=
  View.canon [⟨rA, k0_pay8 (View.ld x0 rA) (View.ld x1 rW)⟩]

/-- One whole-buffer store covers the buffer. -/
theorem cover0 (p0 : Vec F S512x1024 .bf16) (y : S512x1024.Idx) :
    ∃ pc ∈ ([⟨rA, p0⟩] : List (View.Piece (Elt F) S512x1024 .bf16)), y ∈ pc.1.set :=
  View.cover_of_tiled [⟨rA, p0⟩] S512x1024.size (by rfl) y

/-- The first launch's proof data on core c: arrays as entered; after the body each input buffer at its block and
    each output buffer at its stored value; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) := by dsimp only [dat0]

/-! # The second launch -/

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole staging buffers of the second launch's four shapes. -/
abbrev rB : Rect S128x1024 := Rect.unit (s := S128x1024) ![0, 0] S128x1024.size inb_S128x1024_S128x1024_0_0
abbrev rQ : Rect S4096x1024 := Rect.unit (s := S4096x1024) ![0, 0] S4096x1024.size inb_S4096x1024_S4096x1024_0_0
abbrev rF : Rect S1024x1024 := Rect.unit (s := S1024x1024) ![0, 0] S1024x1024.size inb_S1024x1024_S1024x1024_0_0
abbrev rR : Rect S1x1024 := Rect.unit (s := S1x1024) ![0, 0] S1x1024.size inb_S1x1024_S1x1024_0_0

/-- The stored value of the second launch: the normalised block, from the eleven input blocks in window order
    (k, k's remainder, q, q's remainder, v, the residual, the projection, its remainder, bias, scale, shift). -/
def pay1 (x0 x1 : Vec F S128x1024 .bf16) (x2 x3 x4 : Vec F S4096x1024 .bf16) (x5 : Vec F S128x1024 .f32)
    (x6 x7 : Vec F S1024x1024 .bf16) (x8 x9 x10 : Vec F S1x1024 .f32) : FVec F S128x1024 .f32 :=
  k1_pay1 (k1_pay4 (View.ld x0 rB) (View.ld x1 rB) (View.ld x2 rQ) (View.ld x3 rQ) (View.ld x4 rQ))
    (k1_pay5 (View.ld x6 rF))
    (k1_pay6 (View.ld x0 rB) (View.ld x1 rB) (View.ld x2 rQ) (View.ld x3 rQ) (View.ld x4 rQ) (View.ld x6 rF) (View.ld x7 rF))
    (View.ld x8 rR) (View.ld x5 rB) (View.ld x9 rR) (View.ld x10 rR)

/-- The output buffer after the body. -/
def out1_11 (x0 x1 : Vec F S128x1024 .bf16) (x2 x3 x4 : Vec F S4096x1024 .bf16) (x5 : Vec F S128x1024 .f32)
    (x6 x7 : Vec F S1024x1024 .bf16) (x8 x9 x10 : Vec F S1x1024 .f32) : Vec F S128x1024 .f32 :=
  View.canon [⟨rB, pay1 x0 x1 x2 x3 x4 x5 x6 x7 x8 x9 x10⟩]

theorem cover1 (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t
    = out1_11 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) := by dsimp only [dat1]

end Cert.Kernel.Hand

end
-- ==== Proof.BFold.lean ====
/-
  The buffer contents at the four boundaries of the program: at launch, after the first stretch of host operations
  (the first launch's entry), after the first launch, after the second stretch (the second launch's entry), and
  after the second launch. A host stretch changes the buffers it writes; a launch changes its output arrays to what
  its write-backs leave and nothing else. No stretch and no launch writes an argument, so each argument's buffer
  reads back to the launch memory through all four steps.
-/
import proofs.«400652_j32040456029043_3_alg».proof.Proof.BData
import proofs.«400652_j32040456029043_3_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffers at launch. -/
abbrev W0 : Dev nD → Valuation τ sig (Elt F) := fun c b => m (c, b)
/-- After the first host stretch: the first launch's entry. -/
abbrev W1 : Dev nD → Valuation τ sig (Elt F) := fun c => StableHlo.after hostOps0 (W0 m c)
/-- The same read at the core's own references. -/
abbrev E1 : (c : Dev nD) → (b : Ref sig .tc) → Buf (Elt F) ((c : Thread nD τ).loc b) := fun c b => W1 m c b
/-- After the first launch: its arrays at what its write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch: the second launch's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-! ## A host stretch leaves what it does not write -/

theorem W1_of (c : Dev nD) (r : Ref sig .tc) (h : r ∉ Gen.hostOps0_W) :
    W1 m c (Proc.devRef .tc r) = W0 m c (Proc.devRef .tc r) :=
  StableHlo.after_of_writes_sub hostOps0 _ Gen.hostOps0_writes h
theorem W3_of (c : Dev nD) (r : Ref sig .tc) (h : r ∉ Gen.hostOps1_W) :
    W3 m c (Proc.devRef .tc r) = W2 m c (Proc.devRef .tc r) :=
  StableHlo.after_of_writes_sub hostOps1 _ Gen.hostOps1_writes h

/-! ## The arguments end as launched -/

/-- The activations are the second launch's residual window: an input array, which the launch leaves as entered. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) :=
        (W4_arr m c 5).trans (((dat1 (E3 m) c).arrAt_in 5 rfl _).trans (A_eq1 (E3 m) c 5))
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl

/-- A buffer neither launch has as an array and neither stretch writes reads back to the launch memory. -/
theorem W4_untouched (c : Dev nD) (r : Ref sig .tc) (h1 : ∀ w, Pipeline.arrRef spec1 w ≠ r) (h3 : r ∉ Gen.hostOps1_W)
    (h0 : ∀ w, Pipeline.arrRef spec0 w ≠ r) (h2 : r ∉ Gen.hostOps0_W) :
    W4 m c (Proc.devRef .tc r) = m ((c : Thread nD τ).loc r) :=
  (W4_of_ne m c r h1).trans <| (W3_of m c r h3).trans <| (W2_of_ne m c r h0).trans <| (W1_of m c r h2).trans rfl

theorem W4_main_arg1 (c : Dev nD) : W4 m c (Proc.devRef .tc main_arg1) = m ((c : Thread nD τ).loc main_arg1) :=
  W4_untouched m c main_arg1 (by decide) (by decide) (by decide) (by decide)
theorem W4_main_arg2 (c : Dev nD) : W4 m c (Proc.devRef .tc main_arg2) = m ((c : Thread nD τ).loc main_arg2) :=
  W4_untouched m c main_arg2 (by decide) (by decide) (by decide) (by decide)
theorem W4_main_arg3 (c : Dev nD) : W4 m c (Proc.devRef .tc main_arg3) = m ((c : Thread nD τ).loc main_arg3) :=
  W4_untouched m c main_arg3 (by decide) (by decide) (by decide) (by decide)
theorem W4_main_arg4 (c : Dev nD) : W4 m c (Proc.devRef .tc main_arg4) = m ((c : Thread nD τ).loc main_arg4) :=
  W4_untouched m c main_arg4 (by decide) (by decide) (by decide) (by decide)
theorem W4_main_arg5 (c : Dev nD) : W4 m c (Proc.devRef .tc main_arg5) = m ((c : Thread nD τ).loc main_arg5) :=
  W4_untouched m c main_arg5 (by decide) (by decide) (by decide) (by decide)
theorem W4_main_arg6 (c : Dev nD) : W4 m c (Proc.devRef .tc main_arg6) = m ((c : Thread nD τ).loc main_arg6) :=
  W4_untouched m c main_arg6 (by decide) (by decide) (by decide) (by decide)
theorem W4_main_arg7 (c : Dev nD) : W4 m c (Proc.devRef .tc main_arg7) = m ((c : Thread nD τ).loc main_arg7) :=
  W4_untouched m c main_arg7 (by decide) (by decide) (by decide) (by decide)

/-- The result buffer ends at what the second launch's write-backs leave in its output array. -/
theorem W4_main_v13 (c : Dev nD) : W4 m c (Proc.devRef .tc main_v13) = (dat1 (E3 m) c).arrAt 11 cfg1.N :=
  W4_arr m c 11

end Cert.Kernel.Hand

end
-- ==== Proof.BBody0.lean ====
/-
  The first launch's body at every grid point: with the two input buffers at their blocks and the five output
  buffers at anything, the body runs, leaves the inputs as they were and each output buffer at its one stored value.
-/
import proofs.«400652_j32040456029043_3_alg».proof.Proof.BData
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not: unfetched, the
    block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

set_option maxHeartbeats 1000000 in
/-- The body on whole staging buffers: inputs at x0, x1, outputs at anything, runs to the continuation holding the
    inputs as they were and each output at its stored value. -/
theorem sound_kernel0 (c : Dev nD) (E : Set ℕ) (i : grid0.Coords)
    (arg1 : Memref sig .tc .vmem S512x1024 .bf16) (harg1 : arg1.IsWhole)
    (arg2 : Memref sig .tc .vmem S3072x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (x0 : Vec F S512x1024 .bf16) (x1 : Vec F S3072x1024 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1) ∗ owns (c : Thread nD τ) arg6 fullShare (out0_5 x0 x1)
            ∗ owns (c : Thread nD τ) arg7 fullShare (out0_6 x0 x1)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BBody1.lean ====
/-
  The second launch's body at every grid point: with the eleven input buffers at their blocks and the output buffer
  at anything, the body runs, leaves the inputs as they were and the output buffer at its one stored value.
-/
import proofs.«400652_j32040456029043_3_alg».proof.Proof.BData
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not: unfetched, the
    block index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
      (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
      (fun t => by rw [after1_10]; unfold Dat.blockOf iblk1; rw [A_eq1]; try rfl) t d).trans
    (by unfold Dat.fetched Dat.blockOf iblk1; rw [A_eq1]; try rfl)

set_option maxHeartbeats 2000000 in
/-- The body on whole staging buffers: the eleven inputs at x0 … x10, the output at anything, runs to the
    continuation holding the inputs as they were and the output at its stored value. -/
theorem sound_kernel1 (c : Dev nD) (E : Set ℕ) (i : grid1.Coords)
    (arg1 : Memref sig .tc .vmem S128x1024 .bf16) (harg1 : arg1.IsWhole)
    (arg2 : Memref sig .tc .vmem S128x1024 .bf16) (harg2 : arg2.IsWhole)
    (arg3 : Memref sig .tc .vmem S4096x1024 .bf16) (harg3 : arg3.IsWhole)
    (arg4 : Memref sig .tc .vmem S4096x1024 .bf16) (harg4 : arg4.IsWhole)
    (arg5 : Memref sig .tc .vmem S4096x1024 .bf16) (harg5 : arg5.IsWhole)
    (arg6 : Memref sig .tc .vmem S128x1024 .f32) (harg6 : arg6.IsWhole)
    (arg7 : Memref sig .tc .vmem S1024x1024 .bf16) (harg7 : arg7.IsWhole)
    (arg8 : Memref sig .tc .vmem S1024x1024 .bf16) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S128x1024 .f32) (harg12 : arg12.IsWhole)
    (x0 x1 : Vec F S128x1024 .bf16) (x2 x3 x4 : Vec F S4096x1024 .bf16) (x5 : Vec F S128x1024 .f32)
    (x6 x7 : Vec F S1024x1024 .bf16) (x8 x9 x10 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10
        ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out1_11 x0 x1 x2 x3 x4 x5 x6 x7 x8 x9 x10)) -∗ K ⟨⟩))
      ⊢ wp frame (wpE (defs₀ (F := F)) Variants.none c none) E
          (cc1__attn_fc_ln_kernel i arg1 harg1 arg2 harg2 arg3 harg3 arg4 harg4 arg5 harg5 arg6 harg6 arg7 harg7
            arg8 harg8 arg9 harg9 arg10 harg10 arg11 harg11 arg12 harg12) K := by
  simp only [cc1__attn_fc_ln_kernel_eq_skeleton]; unfold cc1__attn_fc_ln_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1 _)

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8,
    before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10,
    after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/-
  The program's run: @main is a host stretch, the first launch, a host stretch, the second launch. Each host stretch
  is run over the buffers it reads and writes; each launch is entered with every buffer at the boundary's contents,
  its arrays are split out and handed to the pipeline, whose body obligation is the launch's body module, and put
  back at what the write-backs leave. The random-number register and the core's debts ride along unchanged. At the
  end every buffer holds the last boundary's contents.
-/
import proofs.«400652_j32040456029043_3_alg».proof.Proof.BFold
import proofs.«400652_j32040456029043_3_alg».proof.Proof.BBody0
import proofs.«400652_j32040456029043_3_alg».proof.Proof.BBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev admT : (p : Fin 2) → (pcfgs (F := F) p).Adm := fun p => (cfgs p).toPCfg_adm

/-- Both pipelines' proof data, each at its launch's entry contents. -/
def pdats : (p : Fin 2) → (c : Dev nD) → Dat τ (Elt F) Unit ℕ (UR sig nD τ) ℕ (Pipeline.pin (pcfgs (F := F)) admT p) c
  | ⟨0, _⟩ => fun c => dat0 (E1 m) c
  | ⟨1, _⟩ => fun c => dat1 (E3 m) c

abbrev 𝒱₀ : Variants := Variants.none
abbrev LL : GSem nD τ sig → Finset Unit := fun _ => ∅
abbrev lv : GSem nD τ sig → Unit → ℕ := fun _ _ => 0

/-- What rides beside the buffers: the random-number register at some state, and the core owing nothing. -/
abbrev R (c : Dev nD) : sProp 𝕄 := iprop((∃ r, prngReg c r) ∗ ∃ W, owes (c : Thread nD τ) (0 : CellTallies nD τ sig Unit) W)

/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LL lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state less the debts: every buffer at the last boundary's contents, the register at some state. -/
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
def reg0 : Pipeline.RegionSeg (pcfgs (F := F)) admT (pdats m) () defs₀ 𝒱₀ LL lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LL lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admT (pdats m) () defs₀ 𝒱₀ LL lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LL lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segL : List (Pipeline.Seg (pcfgs (F := F)) admT (pdats m) () defs₀ 𝒱₀ LL lv) :=
  [ .host (hseg hostOps0 hostOps0_sub Gen.hostOps0_fresh (W0 m)),
    .region (reg0 m),
    .host (hseg hostOps1 hostOps1_sub Gen.hostOps1_fresh (W2 m)),
    .region (reg1 m) ]

theorem main_run (c : Dev nD) : main (F := F) c = Pipeline.Seg.run (segL m) := (main_chain c).trans (by chain_rfl)

set_option backward.isDefEq.respectTransparency.types false in
/-- Every weakly fair execution of @main from memory m with zero counters terminates, and in every final state each
    buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admT (pdats m) () cellOf_inj emb₁ defs₀ 𝒱₀ LL lv m ρ main (segL m)
    (fun c Q => by rw [main_run m c])
    (by simp only [segL, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach LL lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KData.lean ====
/-
  What the two launches of the attention block hold, window by window and grid point by grid point, given the
  contents V of the buffers when a launch is entered.

  The first launch (8 points, 512 rows each) reads a block of the activations and the whole stacked weight, and
  leaves five blocks: q, the remainder q - q, k, the remainder k - k, and v, each a slice of one 512 x 3072 product.
  The second launch (32 points, 128 rows each) reads a block of k and of its remainder, all of q, of q's remainder
  and of v, a block of the residual, the output projection and its remainder, bias, scale and shift, and leaves one
  128 x 1024 block of the normalised output. Every load and store is of a whole staging buffer, so a buffer after
  the body holds the single stored value.
-/
import proofs.«400652_j32040456029043_3_alg».proof.Proof.Gen.KernelIdeal.Launch
import proofs.«400652_j32040456029043_3_alg».proof.Proof.Gen.KernelIdeal.Skeleton
import proofs.«400652_j32040456029043_3_alg».proof.Proof.Gen.KernelIdeal.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents when a launch is entered
variable (V : (c : Dev nD) → (b : Ref sig .tc) → Buf (Elt F) ((c : Thread nD τ).loc b))

/-! # The first launch -/

/-- Window w's block at point t, read off its array as the launch finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole 512 x 1024 staging buffer, and the whole 3072 x 1024 one. -/
abbrev rA : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0

/-- The five output buffers after the body: the one stored value each, as a function of the two input blocks. -/
def out0_2 (x0 : Vec F S512x1024 .bf16) (x1 : Vec F S3072x1024 .bf16) : Vec F S512x1024 .bf16 :=
  View.canon [⟨rA, k0_pay4 (View.ld x0 rA) (View.ld x1 rW)⟩]
def out0_3 (x0 : Vec F S512x1024 .bf16) (x1 : Vec F S3072x1024 .bf16) : Vec F S512x1024 .bf16 :=
  View.canon [⟨rA, k0_pay5 (View.ld x0 rA) (View.ld x1 rW)⟩]
def out0_4 (x0 : Vec F S512x1024 .bf16) (x1 : Vec F S3072x1024 .bf16) : Vec F S512x1024 .bf16 :=
  View.canon [⟨rA, k0_pay6 (View.ld x0 rA) (View.ld x1 rW)⟩]
def out0_5 (x0 : Vec F S512x1024 .bf16) (x1 : Vec F S3072x1024 .bf16) : Vec F S512x1024 .bf16 :=
  View.canon [⟨rA, k0_pay7 (View.ld x0 rA) (View.ld x1 rW)⟩]
def out0_6 (x0 : Vec F S512x1024 .bf16) (x1 : Vec F S3072x1024 .bf16) : Vec F S512x1024 .bf16 :=
  View.canon [⟨rA, k0_pay8 (View.ld x0 rA) (View.ld x1 rW)⟩]

/-- One whole-buffer store covers the buffer. -/
theorem cover0 (p0 : Vec F S512x1024 .bf16) (y : S512x1024.Idx) :
    ∃ pc ∈ ([⟨rA, p0⟩] : List (View.Piece (Elt F) S512x1024 .bf16)), y ∈ pc.1.set :=
  View.cover_of_tiled [⟨rA, p0⟩] S512x1024.size (by rfl) y

/-- The first launch's proof data on core c: arrays as entered; after the body each input buffer at its block and
    each output buffer at its stored value; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) := by dsimp only [dat0]

/-! # The second launch -/

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole staging buffers of the second launch's four shapes. -/
abbrev rB : Rect S128x1024 := Rect.unit (s := S128x1024) ![0, 0] S128x1024.size inb_S128x1024_S128x1024_0_0
abbrev rQ : Rect S4096x1024 := Rect.unit (s := S4096x1024) ![0, 0] S4096x1024.size inb_S4096x1024_S4096x1024_0_0
abbrev rF : Rect S1024x1024 := Rect.unit (s := S1024x1024) ![0, 0] S1024x1024.size inb_S1024x1024_S1024x1024_0_0
abbrev rR : Rect S1x1024 := Rect.unit (s := S1x1024) ![0, 0] S1x1024.size inb_S1x1024_S1x1024_0_0

/-- The stored value of the second launch: the normalised block, from the eleven input blocks in window order
    (k, k's remainder, q, q's remainder, v, the residual, the projection, its remainder, bias, scale, shift). -/
def pay1 (x0 x1 : Vec F S128x1024 .bf16) (x2 x3 x4 : Vec F S4096x1024 .bf16) (x5 : Vec F S128x1024 .f32)
    (x6 x7 : Vec F S1024x1024 .bf16) (x8 x9 x10 : Vec F S1x1024 .f32) : FVec F S128x1024 .f32 :=
  k1_pay1 (k1_pay3 (View.ld x0 rB) (View.ld x1 rB) (View.ld x2 rQ) (View.ld x3 rQ) (View.ld x4 rQ))
    (k1_pay4 (View.ld x6 rF))
    (k1_pay5 (View.ld x0 rB) (View.ld x1 rB) (View.ld x2 rQ) (View.ld x3 rQ) (View.ld x4 rQ) (View.ld x6 rF) (View.ld x7 rF))
    (View.ld x8 rR) (View.ld x5 rB) (View.ld x9 rR) (View.ld x10 rR)

/-- The output buffer after the body. -/
def out1_11 (x0 x1 : Vec F S128x1024 .bf16) (x2 x3 x4 : Vec F S4096x1024 .bf16) (x5 : Vec F S128x1024 .f32)
    (x6 x7 : Vec F S1024x1024 .bf16) (x8 x9 x10 : Vec F S1x1024 .f32) : Vec F S128x1024 .f32 :=
  View.canon [⟨rB, pay1 x0 x1 x2 x3 x4 x5 x6 x7 x8 x9 x10⟩]

theorem cover1 (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t
    = out1_11 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) := by dsimp only [dat1]

end Cert.KernelIdeal.Hand

end
-- ==== Proof.KFold.lean ====
/-
  The buffer contents at the four boundaries of the program: at launch, after the first stretch of host operations
  (the first launch's entry), after the first launch, after the second stretch (the second launch's entry), and
  after the second launch. A host stretch changes the buffers it writes; a launch changes its output arrays to what
  its write-backs leave and nothing else. No stretch and no launch writes an argument, so each argument's buffer
  reads back to the launch memory through all four steps.
-/
import proofs.«400652_j32040456029043_3_alg».proof.Proof.KData
import proofs.«400652_j32040456029043_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffers at launch. -/
abbrev W0 : Dev nD → Valuation τ sig (Elt F) := fun c b => m (c, b)
/-- After the first host stretch: the first launch's entry. -/
abbrev W1 : Dev nD → Valuation τ sig (Elt F) := fun c => StableHlo.after hostOps0 (W0 m c)
/-- The same read at the core's own references. -/
abbrev E1 : (c : Dev nD) → (b : Ref sig .tc) → Buf (Elt F) ((c : Thread nD τ).loc b) := fun c b => W1 m c b
/-- After the first launch: its arrays at what its write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch: the second launch's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-! ## A host stretch leaves what it does not write -/

theorem W1_of (c : Dev nD) (r : Ref sig .tc) (h : r ∉ Gen.hostOps0_W) :
    W1 m c (Proc.devRef .tc r) = W0 m c (Proc.devRef .tc r) :=
  StableHlo.after_of_writes_sub hostOps0 _ Gen.hostOps0_writes h
theorem W3_of (c : Dev nD) (r : Ref sig .tc) (h : r ∉ Gen.hostOps1_W) :
    W3 m c (Proc.devRef .tc r) = W2 m c (Proc.devRef .tc r) :=
  StableHlo.after_of_writes_sub hostOps1 _ Gen.hostOps1_writes h

/-! ## The arguments end as launched -/

/-- The activations are the second launch's residual window: an input array, which the launch leaves as entered. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) :=
        (W4_arr m c 5).trans (((dat1 (E3 m) c).arrAt_in 5 rfl _).trans (A_eq1 (E3 m) c 5))
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl

/-- A buffer neither launch has as an array and neither stretch writes reads back to the launch memory. -/
theorem W4_untouched (c : Dev nD) (r : Ref sig .tc) (h1 : ∀ w, Pipeline.arrRef spec1 w ≠ r) (h3 : r ∉ Gen.hostOps1_W)
    (h0 : ∀ w, Pipeline.arrRef spec0 w ≠ r) (h2 : r ∉ Gen.hostOps0_W) :
    W4 m c (Proc.devRef .tc r) = m ((c : Thread nD τ).loc r) :=
  (W4_of_ne m c r h1).trans <| (W3_of m c r h3).trans <| (W2_of_ne m c r h0).trans <| (W1_of m c r h2).trans rfl

theorem W4_main_arg1 (c : Dev nD) : W4 m c (Proc.devRef .tc main_arg1) = m ((c : Thread nD τ).loc main_arg1) :=
  W4_untouched m c main_arg1 (by decide) (by decide) (by decide) (by decide)
theorem W4_main_arg2 (c : Dev nD) : W4 m c (Proc.devRef .tc main_arg2) = m ((c : Thread nD τ).loc main_arg2) :=
  W4_untouched m c main_arg2 (by decide) (by decide) (by decide) (by decide)
theorem W4_main_arg3 (c : Dev nD) : W4 m c (Proc.devRef .tc main_arg3) = m ((c : Thread nD τ).loc main_arg3) :=
  W4_untouched m c main_arg3 (by decide) (by decide) (by decide) (by decide)
theorem W4_main_arg4 (c : Dev nD) : W4 m c (Proc.devRef .tc main_arg4) = m ((c : Thread nD τ).loc main_arg4) :=
  W4_untouched m c main_arg4 (by decide) (by decide) (by decide) (by decide)
theorem W4_main_arg5 (c : Dev nD) : W4 m c (Proc.devRef .tc main_arg5) = m ((c : Thread nD τ).loc main_arg5) :=
  W4_untouched m c main_arg5 (by decide) (by decide) (by decide) (by decide)
theorem W4_main_arg6 (c : Dev nD) : W4 m c (Proc.devRef .tc main_arg6) = m ((c : Thread nD τ).loc main_arg6) :=
  W4_untouched m c main_arg6 (by decide) (by decide) (by decide) (by decide)
theorem W4_main_arg7 (c : Dev nD) : W4 m c (Proc.devRef .tc main_arg7) = m ((c : Thread nD τ).loc main_arg7) :=
  W4_untouched m c main_arg7 (by decide) (by decide) (by decide) (by decide)

/-- The result buffer ends at what the second launch's write-backs leave in its output array. -/
theorem W4_main_v13 (c : Dev nD) : W4 m c (Proc.devRef .tc main_v13) = (dat1 (E3 m) c).arrAt 11 cfg1.N :=
  W4_arr m c 11

end Cert.KernelIdeal.Hand

end
-- ==== Proof.KBody0.lean ====
/-
  The first launch's body at every grid point: with the two input buffers at their blocks and the five output
  buffers at anything, the body runs, leaves the inputs as they were and each output buffer at its one stored value.
-/
import proofs.«400652_j32040456029043_3_alg».proof.Proof.KData
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not: unfetched, the
    block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

set_option maxHeartbeats 1000000 in
/-- The body on whole staging buffers: inputs at x0, x1, outputs at anything, runs to the continuation holding the
    inputs as they were and each output at its stored value. -/
theorem sound_kernel0 (c : Dev nD) (E : Set ℕ) (i : grid0.Coords)
    (arg1 : Memref sig .tc .vmem S512x1024 .bf16) (harg1 : arg1.IsWhole)
    (arg2 : Memref sig .tc .vmem S3072x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (x0 : Vec F S512x1024 .bf16) (x1 : Vec F S3072x1024 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1) ∗ owns (c : Thread nD τ) arg6 fullShare (out0_5 x0 x1)
            ∗ owns (c : Thread nD τ) arg7 fullShare (out0_6 x0 x1)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KBody1.lean ====
/-
  The second launch's body at every grid point: with the eleven input buffers at their blocks and the output buffer
  at anything, the body runs, leaves the inputs as they were and the output buffer at its one stored value.
-/
import proofs.«400652_j32040456029043_3_alg».proof.Proof.KData
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not: unfetched, the
    block index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
      (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
      (fun t => by rw [after1_10]; unfold Dat.blockOf iblk1; rw [A_eq1]; try rfl) t d).trans
    (by unfold Dat.fetched Dat.blockOf iblk1; rw [A_eq1]; try rfl)

set_option maxHeartbeats 2000000 in
/-- The body on whole staging buffers: the eleven inputs at x0 … x10, the output at anything, runs to the
    continuation holding the inputs as they were and the output at its stored value. -/
theorem sound_kernel1 (c : Dev nD) (E : Set ℕ) (i : grid1.Coords)
    (arg1 : Memref sig .tc .vmem S128x1024 .bf16) (harg1 : arg1.IsWhole)
    (arg2 : Memref sig .tc .vmem S128x1024 .bf16) (harg2 : arg2.IsWhole)
    (arg3 : Memref sig .tc .vmem S4096x1024 .bf16) (harg3 : arg3.IsWhole)
    (arg4 : Memref sig .tc .vmem S4096x1024 .bf16) (harg4 : arg4.IsWhole)
    (arg5 : Memref sig .tc .vmem S4096x1024 .bf16) (harg5 : arg5.IsWhole)
    (arg6 : Memref sig .tc .vmem S128x1024 .f32) (harg6 : arg6.IsWhole)
    (arg7 : Memref sig .tc .vmem S1024x1024 .bf16) (harg7 : arg7.IsWhole)
    (arg8 : Memref sig .tc .vmem S1024x1024 .bf16) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S128x1024 .f32) (harg12 : arg12.IsWhole)
    (x0 x1 : Vec F S128x1024 .bf16) (x2 x3 x4 : Vec F S4096x1024 .bf16) (x5 : Vec F S128x1024 .f32)
    (x6 x7 : Vec F S1024x1024 .bf16) (x8 x9 x10 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10
        ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out1_11 x0 x1 x2 x3 x4 x5 x6 x7 x8 x9 x10)) -∗ K ⟨⟩))
      ⊢ wp frame (wpE (defs₀ (F := F)) Variants.none c none) E
          (cc1__attn_fc_ln_kernel i arg1 harg1 arg2 harg2 arg3 harg3 arg4 harg4 arg5 harg5 arg6 harg6 arg7 harg7
            arg8 harg8 arg9 harg9 arg10 harg10 arg11 harg11 arg12 harg12) K := by
  simp only [cc1__attn_fc_ln_kernel_eq_skeleton]; unfold cc1__attn_fc_ln_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1 _)

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8,
    before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10,
    after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The program's run: @main is a host stretch, the first launch, a host stretch, the second launch. Each host stretch
  is run over the buffers it reads and writes; each launch is entered with every buffer at the boundary's contents,
  its arrays are split out and handed to the pipeline, whose body obligation is the launch's body module, and put
  back at what the write-backs leave. The random-number register and the core's debts ride along unchanged. At the
  end every buffer holds the last boundary's contents.
-/
import proofs.«400652_j32040456029043_3_alg».proof.Proof.KFold
import proofs.«400652_j32040456029043_3_alg».proof.Proof.KBody0
import proofs.«400652_j32040456029043_3_alg».proof.Proof.KBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev admT : (p : Fin 2) → (pcfgs (F := F) p).Adm := fun p => (cfgs p).toPCfg_adm

/-- Both pipelines' proof data, each at its launch's entry contents. -/
def pdats : (p : Fin 2) → (c : Dev nD) → Dat τ (Elt F) Unit ℕ (UR sig nD τ) ℕ (Pipeline.pin (pcfgs (F := F)) admT p) c
  | ⟨0, _⟩ => fun c => dat0 (E1 m) c
  | ⟨1, _⟩ => fun c => dat1 (E3 m) c

abbrev 𝒱₀ : Variants := Variants.none
abbrev LL : GSem nD τ sig → Finset Unit := fun _ => ∅
abbrev lv : GSem nD τ sig → Unit → ℕ := fun _ _ => 0

/-- What rides beside the buffers: the random-number register at some state, and the core owing nothing. -/
abbrev R (c : Dev nD) : sProp 𝕄 := iprop((∃ r, prngReg c r) ∗ ∃ W, owes (c : Thread nD τ) (0 : CellTallies nD τ sig Unit) W)

/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LL lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state less the debts: every buffer at the last boundary's contents, the register at some state. -/
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
def reg0 : Pipeline.RegionSeg (pcfgs (F := F)) admT (pdats m) () defs₀ 𝒱₀ LL lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LL lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admT (pdats m) () defs₀ 𝒱₀ LL lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LL lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segL : List (Pipeline.Seg (pcfgs (F := F)) admT (pdats m) () defs₀ 𝒱₀ LL lv) :=
  [ .host (hseg hostOps0 hostOps0_sub Gen.hostOps0_fresh (W0 m)),
    .region (reg0 m),
    .host (hseg hostOps1 hostOps1_sub Gen.hostOps1_fresh (W2 m)),
    .region (reg1 m) ]

theorem main_run (c : Dev nD) : main (F := F) c = Pipeline.Seg.run (segL m) := (main_chain c).trans (by chain_rfl)

set_option backward.isDefEq.respectTransparency.types false in
/-- Every weakly fair execution of @main from memory m with zero counters terminates, and in every final state each
    buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admT (pdats m) () cellOf_inj emb₁ defs₀ 𝒱₀ LL lv m ρ main (segL m)
    (fun c Q => by rw [main_run m c])
    (by simp only [segL, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach LL lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.RefTerm.lean ====
/-
  The reference program's result as one term of its arguments, stage by stage: the three projections x · wᵀ, the
  scores k · qᵀ divided by sqrt 1024, the row softmax (largest entry, exponentials, denominator, quotient), the
  weighted average of v's rows, the output projection with bias and residual, and the row normalisation (mean,
  centred rows, variance with its divisor 1024 - 0 guarded by a comparison, inverse square root, scale, shift).
  Each stage applies the host operations in the order the program runs them.
-/
import proofs.«400652_j32040456029043_3_alg».proof.Proof.Gen.ReferenceIdeal

noncomputable section

namespace Cert.RefTerm

open Cert.ReferenceIdeal Cert.ReferenceIdeal.Gen Idealize.ShloMosaic

variable {F : FTy → Type} [FloatOps F]

/-- x · wᵀ: the weight transposed, then contracted with x along the feature axis. -/
def tproj (x : FVec F S4096x1024 .f32) (w : FVec F S1024x1024 .f32) : FVec F S4096x1024 .f32 :=
  Host.dotGeneral dot_S4096x1024_S1024x1024_S4096x1024_1_0_0_1_n_n none x
    (transpose S1024x1024 [1, 0] w transposes_S1024x1024_S1024x1024_1_0)

/-- scores[i, j] = k_i · q_j / sqrt 1024. -/
def tscores (k q : FVec F S4096x1024 .f32) : FVec F S4096x4096 .f32 :=
  Host.divf (Host.dotGeneral dot_S4096x1024_S4096x1024_S4096x4096_1_1_0_0_n_n none k q)
    (broadcastInDim S4096x4096 ![] bcast_S_S4096x4096 (Host.sqrt (constant S_ .f32 0x44800000#32)))

/-- The largest entry of each row, guarded by a maximum with -∞. -/
def trowmax (s : FVec F S4096x4096 .f32) : FVec F S4096 .f32 :=
  maximumf (broadcastInDim S4096 ![] bcast_S_S4096 (constant S_ .f32 0xFF800000#32))
    (Host.reduce FloatOps.maximumf s (constant S_ .f32 0xFF800000#32) reducesTo_S4096x4096_S4096_d1 h_S_)

/-- A per-row value spread over the row: [4096] to [4096, 1] to [4096, 4096]. -/
def tcol (v : FVec F S4096 .f32) : FVec F S4096x4096 .f32 :=
  broadcastInDim S4096x4096 ![0, 1] bcast_S4096x1_S4096x4096_0_1 (broadcastInDim S4096x1 ![0] bcast_S4096_S4096x1_0 v)

/-- The softmax numerators. -/
def tpexp (s : FVec F S4096x4096 .f32) : FVec F S4096x4096 .f32 := Host.exp (subf s (tcol (trowmax s)))

/-- The softmax weights: numerators over the row's sum. -/
def tattn (s : FVec F S4096x4096 .f32) : FVec F S4096x4096 .f32 :=
  Host.divf (tpexp s)
    (tcol (Host.reduceAdd (tpexp s) (constant S_ .f32 0x00000000#32) reducesTo_S4096x4096_S4096_d1 h_S_))

/-- The weighted average of v's rows. -/
def tavg (a : FVec F S4096x4096 .f32) (v : FVec F S4096x1024 .f32) : FVec F S4096x1024 .f32 :=
  Host.dotGeneral dot_S4096x4096_S4096x1024_S4096x1024_1_0_0_1_n_n none a v

/-- A per-feature vector spread over the rows: [1024] to [1, 1024] to [4096, 1024]. -/
def trow (u : FVec F S1024 .f32) : FVec F S4096x1024 .f32 :=
  broadcastInDim S4096x1024 ![0, 1] bcast_S1x1024_S4096x1024_0_1 (broadcastInDim S1x1024 ![1] bcast_S1024_S1x1024_1 u)

/-- Output projection, bias, residual. -/
def th (xa : FVec F S4096x1024 .f32) (fw : FVec F S1024x1024 .f32) (fb : FVec F S1024 .f32)
    (x : FVec F S4096x1024 .f32) : FVec F S4096x1024 .f32 :=
  addf (addf (tproj xa fw) (trow fb)) x

/-- Row means as a column. -/
def tmean (h : FVec F S4096x1024 .f32) : FVec F S4096x1 .f32 :=
  Host.divf
    (broadcastInDim S4096x1 ![0] bcast_S4096_S4096x1_0
      (Host.reduceAdd h (constant S_ .f32 0x00000000#32) reducesTo_S4096x1024_S4096_d1 h_S_))
    (broadcastInDim S4096x1 ![] bcast_S_S4096x1 (constant S_ .f32 0x44800000#32))

/-- Rows with their mean taken off. -/
def tcen (h : FVec F S4096x1024 .f32) : FVec F S4096x1024 .f32 :=
  subf h (broadcastInDim S4096x1024 ![0, 1] bcast_S4096x1_S4096x1024_0_1 (tmean h))

/-- The variance's divisor: 1024 less the correction 0, converted from an integer. -/
def tdiv : FVec F S_ .f32 := subf (constant S_ .f32 0x44800000#32) (sitofp .f32 (constantI S_ 32 0#32))

/-- Row variances as a column: the sum of squares over the divisor where the divisor is positive, else the
    not-a-number pattern. -/
def tvar (h : FVec F S4096x1024 .f32) : FVec F S4096x1 .f32 :=
  select (broadcastInDim S4096x1 ![] bcast_S_S4096x1 (cmpf .ogt (tdiv (F := F)) (constant S_ .f32 0x00000000#32)))
    (Host.divf
      (broadcastInDim S4096x1 ![0] bcast_S4096_S4096x1_0
        (Host.reduceAdd (mulf (tcen h) (tcen h)) (constant S_ .f32 0x00000000#32) reducesTo_S4096x1024_S4096_d1 h_S_))
      (broadcastInDim S4096x1 ![] bcast_S_S4096x1 (tdiv (F := F))))
    (broadcastInDim S4096x1 ![] bcast_S_S4096x1 (constant S_ .f32 0x7FC00000#32))

/-- Row normalisation with scale and shift. -/
def tln (h : FVec F S4096x1024 .f32) (g b : FVec F S1024 .f32) : FVec F S4096x1024 .f32 :=
  addf
    (mulf
      (mulf (tcen h)
        (broadcastInDim S4096x1024 ![0, 1] bcast_S4096x1_S4096x1024_0_1
          (Host.rsqrt (addf (tvar h) (broadcastInDim S4096x1 ![] bcast_S_S4096x1 (constant S_ .f32 0x3727C5AC#32))))))
      (trow g))
    (trow b)

/-- The whole reference. -/
def refTerm (x : FVec F S4096x1024 .f32) (wq wk wv fw : FVec F S1024x1024 .f32) (fb g b : FVec F S1024 .f32) :
    FVec F S4096x1024 .f32 :=
  tln (th (tavg (tattn (tscores (tproj x wk) (tproj x wq))) (tproj x wv)) fw fb x) g b

end Cert.RefTerm

end
-- ==== Proof.RefRun.lean ====
/-
  The reference program's run. Its entry function is a straight line of host operations with one call; the callee
  (the row variance) is itself a straight line ending in a call (the guarded choice between the quotient and the
  not-a-number pattern). With both bodies substituted at their call sites over the buffers each call names, the program
  is one list of seventy-six operations, and its run is the fold of their result functions over the launch contents:
  at the result buffer the fold is the stage-by-stage term of RefTerm, and no operation writes an argument buffer.
-/
import proofs.«400652_j32040456029043_3_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations in program order: thirty-nine of the entry function (projections, scores, softmax, weighted
    average, output projection with bias and residual, the row mean), the variance function's twenty over the
    buffers of its call (its own row mean, centred rows, squares, the divisor 1024 - 0, the sum of squares over it,
    the comparison of the divisor with 0, the not-a-number pattern), the choice function's three over the buffers of
    the nested call (the pattern at its own type, spread over the column, the choice), then the entry function's
    last fourteen (centred rows, inverse square root of variance plus epsilon, scale, shift). -/
abbrev ops : List (HloOp τ sig (Elt F)) :=
  [ unary main_arg1 main_v0 ((transpose S1024x1024 [1, 0] · transposes_S1024x1024_S1024x1024_1_0) : (⟨S1024x1024, .f32⟩ : BufTy).Contents (Elt F) → (⟨S1024x1024, .f32⟩ : BufTy).Contents (Elt F)),
    binary main_arg0 main_v0 main_v1 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v2 ((transpose S1024x1024 [1, 0] · transposes_S1024x1024_S1024x1024_1_0) : (⟨S1024x1024, .f32⟩ : BufTy).Contents (Elt F) → (⟨S1024x1024, .f32⟩ : BufTy).Contents (Elt F)),
    binary main_arg0 main_v2 main_v3 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg3 main_v4 ((transpose S1024x1024 [1, 0] · transposes_S1024x1024_S1024x1024_1_0) : (⟨S1024x1024, .f32⟩ : BufTy).Contents (Elt F) → (⟨S1024x1024, .f32⟩ : BufTy).Contents (Elt F)),
    binary main_arg0 main_v4 main_v5 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    binary main_v3 main_v1 main_v6 ((fun l r => Host.dotGeneral dot_S4096x1024_S4096x1024_S4096x4096_1_1_0_0_n_n none l r) : (⟨S4096x1024, .f32⟩ : BufTy).Contents (Elt F) → (⟨S4096x1024, .f32⟩ : BufTy).Contents (Elt F) → (⟨S4096x4096, .f32⟩ : BufTy).Contents (Elt F)),
    nullary main_cst (constant S_ .f32 0x44800000#32),
    unary main_cst main_v7 (Host.sqrt : (⟨S_, .f32⟩ : BufTy).Contents (Elt F) → (⟨S_, .f32⟩ : BufTy).Contents (Elt F)),
    unary main_v7 main_v8 (broadcastInDim S4096x4096 ![] bcast_S_S4096x4096 : (⟨S_, .f32⟩ : BufTy).Contents (Elt F) → (⟨S4096x4096, .f32⟩ : BufTy).Contents (Elt F)),
    binary main_v6 main_v8 main_v9 (Host.divf : (⟨S4096x4096, .f32⟩ : BufTy).Contents (Elt F) → (⟨S4096x4096, .f32⟩ : BufTy).Contents (Elt F) → (⟨S4096x4096, .f32⟩ : BufTy).Contents (Elt F)),
    nullary main_cst_0 (constant S_ .f32 0xFF800000#32),
    binary main_v9 main_cst_0 main_v10 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_1 (constant S_ .f32 0xFF800000#32),
    unary main_cst_1 main_v11 (broadcastInDim S4096 ![] bcast_S_S4096 : (⟨S_, .f32⟩ : BufTy).Contents (Elt F) → (⟨S4096, .f32⟩ : BufTy).Contents (Elt F)),
    binary main_v11 main_v10 main_v12 (maximumf : (⟨S4096, .f32⟩ : BufTy).Contents (Elt F) → (⟨S4096, .f32⟩ : BufTy).Contents (Elt F) → (⟨S4096, .f32⟩ : BufTy).Contents (Elt F)),
    unary main_v12 main_v13 (broadcastInDim S4096x1 ![0] bcast_S4096_S4096x1_0 : (⟨S4096, .f32⟩ : BufTy).Contents (Elt F) → (⟨S4096x1, .f32⟩ : BufTy).Contents (Elt F)),
    unary main_v13 main_v14 (broadcastInDim S4096x4096 ![0, 1] bcast_S4096x1_S4096x4096_0_1 : (⟨S4096x1, .f32⟩ : BufTy).Contents (Elt F) → (⟨S4096x4096, .f32⟩ : BufTy).Contents (Elt F)),
    binary main_v9 main_v14 main_v15 (subf : (⟨S4096x4096, .f32⟩ : BufTy).Contents (Elt F) → (⟨S4096x4096, .f32⟩ : BufTy).Contents (Elt F) → (⟨S4096x4096, .f32⟩ : BufTy).Contents (Elt F)),
    unary main_v15 main_v16 (Host.exp : (⟨S4096x4096, .f32⟩ : BufTy).Contents (Elt F) → (⟨S4096x4096, .f32⟩ : BufTy).Contents (Elt F)),
    nullary main_cst_2 (constant S_ .f32 0x00000000#32),
    binary main_v16 main_cst_2 main_v17 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    unary main_v18 main_v19 (broadcastInDim S4096x4096 ![0, 1] bcast_S4096x1_S4096x4096_0_1 : (⟨S4096x1, .f32⟩ : BufTy).Contents (Elt F) → (⟨S4096x4096, .f32⟩ : BufTy).Contents (Elt F)),
    binary main_v16 main_v19 main_v20 (Host.divf : (⟨S4096x4096, .f32⟩ : BufTy).Contents (Elt F) → (⟨S4096x4096, .f32⟩ : BufTy).Contents (Elt F) → (⟨S4096x4096, .f32⟩ : BufTy).Contents (Elt F)),
    binary main_v20 main_v5 main_v21 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    unary main_arg4 main_v22 ((transpose S1024x1024 [1, 0] · transposes_S1024x1024_S1024x1024_1_0) : (⟨S1024x1024, .f32⟩ : BufTy).Contents (Elt F) → (⟨S1024x1024, .f32⟩ : BufTy).Contents (Elt F)),
    binary main_v21 main_v22 main_v23 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg5 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S4096x1024 ![0, 1] bcast_S1x1024_S4096x1024_0_1 : (⟨S1x1024, .f32⟩ : BufTy).Contents (Elt F) → (⟨S4096x1024, .f32⟩ : BufTy).Contents (Elt F)),
    binary main_v23 main_v25 main_v26 (addf : (⟨S4096x1024, .f32⟩ : BufTy).Contents (Elt F) → (⟨S4096x1024, .f32⟩ : BufTy).Contents (Elt F) → (⟨S4096x1024, .f32⟩ : BufTy).Contents (Elt F)),
    binary main_v26 main_arg0 main_v27 (addf : (⟨S4096x1024, .f32⟩ : BufTy).Contents (Elt F) → (⟨S4096x1024, .f32⟩ : BufTy).Contents (Elt F) → (⟨S4096x1024, .f32⟩ : BufTy).Contents (Elt F)),
    nullary main_cst_3 (constant S_ .f32 0x00000000#32),
    binary main_v27 main_cst_3 main_v28 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v28 main_v29 (broadcastInDim S4096x1 ![0] bcast_S4096_S4096x1_0 : (⟨S4096, .f32⟩ : BufTy).Contents (Elt F) → (⟨S4096x1, .f32⟩ : BufTy).Contents (Elt F)),
    nullary main_cst_4 (constant S_ .f32 0x44800000#32),
    unary main_cst_4 main_v30 (broadcastInDim S4096x1 ![] bcast_S_S4096x1 : (⟨S_, .f32⟩ : BufTy).Contents (Elt F) → (⟨S4096x1, .f32⟩ : BufTy).Contents (Elt F)),
    binary main_v29 main_v30 main_v31 (Host.divf : (⟨S4096x1, .f32⟩ : BufTy).Contents (Elt F) → (⟨S4096x1, .f32⟩ : BufTy).Contents (Elt F) → (⟨S4096x1, .f32⟩ : BufTy).Contents (Elt F)),
    nullary main_c (constantI S_ 32 0#32),
    TRef.nullary main_call0.cst (constant S_ .f32 0x00000000#32),
    TRef.binary (.of main_v27) main_call0.cst main_call0.v0 (fun x v => Host.reduceAdd x v reducesTo_S4096x1024_S4096_d1 h_S_),
    TRef.unary main_call0.v0 main_call0.v1 (broadcastInDim S4096x1 ![0] bcast_S4096_S4096x1_0),
    TRef.nullary main_call0.cst_0 (constant S_ .f32 0x44800000#32),
    TRef.unary main_call0.cst_0 main_call0.v2 (broadcastInDim S4096x1 ![] bcast_S_S4096x1),
    TRef.binary main_call0.v1 main_call0.v2 main_call0.v3 Host.divf,
    TRef.unary main_call0.v3 main_call0.v4 (broadcastInDim S4096x1024 ![0, 1] bcast_S4096x1_S4096x1024_0_1),
    TRef.binary (.of main_v27) main_call0.v4 main_call0.v5 subf,
    TRef.binary main_call0.v5 main_call0.v5 main_call0.v6 mulf,
    TRef.unary (.of main_c) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x1024_S4096_d1 h_S_),
    TRef.unary main_call0.v9 main_call0.v10 (broadcastInDim S4096x1 ![0] bcast_S4096_S4096x1_0),
    TRef.unary main_call0.v8 main_call0.v11 (broadcastInDim S4096x1 ![] bcast_S_S4096x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4096x1 ![] bcast_S_S4096x1),
    TRef.ternary main_call0.v13 main_call0.v12 main_call0.call0.v1 main_call0.call0.v2 (fun p a b => select (broadcastInDim S4096x1 ![] bcast_S_S4096x1 p) a b),
    unary main_v31 main_v33 (broadcastInDim S4096x1024 ![0, 1] bcast_S4096x1_S4096x1024_0_1 : (⟨S4096x1, .f32⟩ : BufTy).Contents (Elt F) → (⟨S4096x1024, .f32⟩ : BufTy).Contents (Elt F)),
    binary main_v27 main_v33 main_v34 (subf : (⟨S4096x1024, .f32⟩ : BufTy).Contents (Elt F) → (⟨S4096x1024, .f32⟩ : BufTy).Contents (Elt F) → (⟨S4096x1024, .f32⟩ : BufTy).Contents (Elt F)),
    nullary main_cst_5 (constant S_ .f32 0x3727C5AC#32),
    unary main_cst_5 main_v35 (broadcastInDim S4096x1 ![] bcast_S_S4096x1 : (⟨S_, .f32⟩ : BufTy).Contents (Elt F) → (⟨S4096x1, .f32⟩ : BufTy).Contents (Elt F)),
    binary main_v32 main_v35 main_v36 (addf : (⟨S4096x1, .f32⟩ : BufTy).Contents (Elt F) → (⟨S4096x1, .f32⟩ : BufTy).Contents (Elt F) → (⟨S4096x1, .f32⟩ : BufTy).Contents (Elt F)),
    unary main_v36 main_v37 (Host.rsqrt : (⟨S4096x1, .f32⟩ : BufTy).Contents (Elt F) → (⟨S4096x1, .f32⟩ : BufTy).Contents (Elt F)),
    unary main_v37 main_v38 (broadcastInDim S4096x1024 ![0, 1] bcast_S4096x1_S4096x1024_0_1 : (⟨S4096x1, .f32⟩ : BufTy).Contents (Elt F) → (⟨S4096x1024, .f32⟩ : BufTy).Contents (Elt F)),
    binary main_v34 main_v38 main_v39 (mulf : (⟨S4096x1024, .f32⟩ : BufTy).Contents (Elt F) → (⟨S4096x1024, .f32⟩ : BufTy).Contents (Elt F) → (⟨S4096x1024, .f32⟩ : BufTy).Contents (Elt F)),
    unary main_arg6 main_v40 (broadcastInDim S1x1024 ![1] bcast_S1024_S1x1024_1 : (⟨S1024, .f32⟩ : BufTy).Contents (Elt F) → (⟨S1x1024, .f32⟩ : BufTy).Contents (Elt F)),
    unary main_v40 main_v41 (broadcastInDim S4096x1024 ![0, 1] bcast_S1x1024_S4096x1024_0_1 : (⟨S1x1024, .f32⟩ : BufTy).Contents (Elt F) → (⟨S4096x1024, .f32⟩ : BufTy).Contents (Elt F)),
    binary main_v39 main_v41 main_v42 (mulf : (⟨S4096x1024, .f32⟩ : BufTy).Contents (Elt F) → (⟨S4096x1024, .f32⟩ : BufTy).Contents (Elt F) → (⟨S4096x1024, .f32⟩ : BufTy).Contents (Elt F)),
    unary main_arg7 main_v43 (broadcastInDim S1x1024 ![1] bcast_S1024_S1x1024_1 : (⟨S1024, .f32⟩ : BufTy).Contents (Elt F) → (⟨S1x1024, .f32⟩ : BufTy).Contents (Elt F)),
    unary main_v43 main_v44 (broadcastInDim S4096x1024 ![0, 1] bcast_S1x1024_S4096x1024_0_1 : (⟨S1x1024, .f32⟩ : BufTy).Contents (Elt F) → (⟨S4096x1024, .f32⟩ : BufTy).Contents (Elt F)),
    binary main_v42 main_v44 main_v45 (addf : (⟨S4096x1024, .f32⟩ : BufTy).Contents (Elt F) → (⟨S4096x1024, .f32⟩ : BufTy).Contents (Elt F) → (⟨S4096x1024, .f32⟩ : BufTy).Contents (Elt F)) ]

-- both sides compute to one chain of seventy-six host steps, compared link by link
set_option maxRecDepth 8192 in
/-- The entry function is that straight line: sequencing grafts a continuation onto a step's own, so with the two
    callees' definitions unfolded at their calls and the records at their fields both sides compute to the same
    chain of host steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., binary_bufs_sub .., unary_bufs_sub .., binary_bufs_sub .., unary_bufs_sub .., binary_bufs_sub ..,
    binary_bufs_sub .., nullary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., unary_bufs_sub .., binary_bufs_sub .., unary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

attribute [local irreducible] Host.reduce Host.reduceAdd transpose broadcastInDim in
set_option maxRecDepth 8192 in
set_option maxHeartbeats 400000 in
/-- The fold at the result buffer is the reference term. Read back operation by operation, each buffer's contents
    once however many operations consume it: at the buffer an operation writes, its function of its operands'
    contents; at any other buffer, what was there before. What remains is the composed term with the typed
    references' transports, which are the identity at these literal references; the reductions, transposes and
    broadcasts stay closed throughout (the contractions are opaque at an arbitrary float type). -/
theorem out_eq (V : Valuation τ sig (Elt F)) :
    after ops V (main_v45 : DevRef τ sig)
      = Cert.RefTerm.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

/-- On every device, for any float values, from any memory with zero counters: every weakly fair execution of the
    entry function terminates with the result buffer at the reference term of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = Cert.RefTerm.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v45).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.RefRun

end
-- ==== Proof.Spec.lean ====
/-
  The attention block over the reals: the two arrangements of one function.

  Inputs: activations x : [4096, 1024], projection weights wq, wk, wv : [1024, 1024], the output projection
  fw : [1024, 1024] with bias fb, and the normalisation's scale g and shift b. A projection is x · wᵀ. Scores are
  s[i, j] = k_i · q_j / 32; each row of scores goes through a softmax, the softmax weights average the rows of v, the
  result is projected by fw, the bias and the residual x are added, and each row is normalised to mean 0 and
  variance 1 (plus the small constant eps) before the scale and the shift.

  The first arrangement (refOut) divides the scores by sqrt 1024 and normalises the softmax weights before
  averaging. The second (kerOut) multiplies wq by 1/32 before projecting, carries q, k and the averaged rows as a
  leading part plus a remainder (the remainder being a difference of a number with itself), and divides by the
  softmax denominator after averaging. Over the reals the two are the same function.
-/
import Idealize.ShloMosaic.PureOps.Ideal

noncomputable section

open scoped BigOperators

namespace Cert.Spec

/-- A real matrix with a rows and b columns. -/
abbrev Mat (a b : ℕ) : Type := Fin a → Fin b → ℝ

/-- The small constant added to the variance: the real number the single-precision pattern 0x3727C5AC denotes. -/
def eps : ℝ := (Idealize.ShloMosaic.Ideal.ofBits .f32 0x3727C5AC#32).toReal

/-- The factor 1/32 the second arrangement folds into wq. -/
def c32 : ℝ := 1 / 32

/-- The projection x · wᵀ: entry (i, e) is the inner product of row i of x with row e of w. -/
def proj (x : Mat 4096 1024) (w : Mat 1024 1024) : Mat 4096 1024 := fun i e => ∑ d : Fin 1024, x i d * w e d

/-- The largest entry of row i. -/
def rowMax (s : Mat 4096 4096) (i : Fin 4096) : ℝ :=
  Finset.univ.sup' Finset.univ_nonempty (fun j : Fin 4096 => s i j)

/-- The softmax numerators: exp of the entry less its row's largest entry. -/
def pexp (s : Mat 4096 4096) : Mat 4096 4096 := fun i j => Real.exp (s i j - rowMax s i)

/-- The softmax denominator of row i. -/
def rowSum (p : Mat 4096 4096) (i : Fin 4096) : ℝ := ∑ j : Fin 4096, p i j

/-- The mean of row i. -/
def mean (h : Mat 4096 1024) (i : Fin 4096) : ℝ := (∑ f : Fin 1024, h i f) / 1024

/-- The (biased) variance of row i. -/
def var (h : Mat 4096 1024) (i : Fin 4096) : ℝ :=
  (∑ f : Fin 1024, (h i f - mean h i) * (h i f - mean h i)) / 1024

/-- Row normalisation with scale and shift. -/
def lnorm (h : Mat 4096 1024) (g b : Fin 1024 → ℝ) : Mat 4096 1024 := fun i f =>
  ((h i f - mean h i) * (Real.sqrt (var h i + eps))⁻¹) * g f + b f

/-! ## The first arrangement -/

def refScores (x : Mat 4096 1024) (wq wk : Mat 1024 1024) : Mat 4096 4096 := fun i j =>
  (∑ e : Fin 1024, proj x wk i e * proj x wq j e) / Real.sqrt 1024

def refAttn (x : Mat 4096 1024) (wq wk wv : Mat 1024 1024) : Mat 4096 1024 := fun i e =>
  ∑ j : Fin 4096, (pexp (refScores x wq wk) i j / rowSum (pexp (refScores x wq wk)) i) * proj x wv j e

def refH (x : Mat 4096 1024) (wq wk wv fw : Mat 1024 1024) (fb : Fin 1024 → ℝ) : Mat 4096 1024 := fun i f =>
  ((∑ e : Fin 1024, refAttn x wq wk wv i e * fw f e) + fb f) + x i f

def refOut (x : Mat 4096 1024) (wq wk wv fw : Mat 1024 1024) (fb g b : Fin 1024 → ℝ) : Mat 4096 1024 :=
  lnorm (refH x wq wk wv fw fb) g b

/-! ## The second arrangement -/

/-- The scores from leading parts and remainders of k and q: hi·hi + hi·lo + lo·hi. -/
def r1Scores (khi klo qhi qlo : Mat 4096 1024) : Mat 4096 4096 := fun i j =>
  ((∑ e : Fin 1024, khi i e * qhi j e) + (∑ e : Fin 1024, khi i e * qlo j e)) + (∑ e : Fin 1024, klo i e * qhi j e)

/-- The averaged rows of v, divided by the softmax denominator after the averaging. -/
def r1Attn (s : Mat 4096 4096) (v : Mat 4096 1024) : Mat 4096 1024 := fun i e =>
  (∑ j : Fin 4096, pexp s i j * v j e) / rowSum (pexp s) i

/-- The output projection from the leading part and remainder of both factors. -/
def r1Fc (a : Mat 4096 1024) (fwhi fwlo : Mat 1024 1024) : Mat 4096 1024 := fun i f =>
  ((∑ e : Fin 1024, a i e * fwhi f e) + (∑ e : Fin 1024, a i e * fwlo f e))
    + (∑ e : Fin 1024, (a i e - a i e) * fwhi f e)

def r1H (a : Mat 4096 1024) (fwhi fwlo : Mat 1024 1024) (fb : Fin 1024 → ℝ) (x : Mat 4096 1024) : Mat 4096 1024 :=
  fun i f => (r1Fc a fwhi fwlo i f + fb f) + x i f

/-- The second launch as one function of the arrays it is handed. -/
def r1Out (khi klo qhi qlo v x : Mat 4096 1024) (fwhi fwlo : Mat 1024 1024) (fb g b : Fin 1024 → ℝ) : Mat 4096 1024 :=
  lnorm (r1H (r1Attn (r1Scores khi klo qhi qlo) v) fwhi fwlo fb x) g b

/-- wq with the factor 1/32 folded in. -/
def wqs (wq : Mat 1024 1024) : Mat 1024 1024 := fun e d => wq e d * c32

def kerOut (x : Mat 4096 1024) (wq wk wv fw : Mat 1024 1024) (fb g b : Fin 1024 → ℝ) : Mat 4096 1024 :=
  r1Out (proj x wk) (fun i e => proj x wk i e - proj x wk i e)
    (proj x (wqs wq)) (fun i e => proj x (wqs wq) i e - proj x (wqs wq) i e)
    (proj x wv) x fw (fun f e => fw f e - fw f e) fb g b

/-! ## The two arrangements agree -/

/-- 1024 is the square of 32. -/
theorem sqrt_1024_eq : Real.sqrt 1024 = 32 := by
  rw [show (1024 : ℝ) = 32 ^ 2 by norm_num]
  exact Real.sqrt_sq (by norm_num)

/-- Projecting with the scaled weights is scaling the projection: the factor comes out of the sum. -/
theorem proj_wqs (x : Mat 4096 1024) (wq : Mat 1024 1024) (j : Fin 4096) (e : Fin 1024) :
    proj x (wqs wq) j e = proj x wq j e * c32 := by
  unfold proj wqs
  rw [Finset.sum_mul]
  exact Finset.sum_congr rfl (fun d _ => (mul_assoc _ _ _).symm)

/-- The scores: the remainders are zero, so only the leading product is left, and it carries the factor 1/32,
    which is the division by sqrt 1024. -/
theorem scores_eq (x : Mat 4096 1024) (wq wk : Mat 1024 1024) :
    r1Scores (proj x wk) (fun i e => proj x wk i e - proj x wk i e)
      (proj x (wqs wq)) (fun i e => proj x (wqs wq) i e - proj x (wqs wq) i e) = refScores x wq wk := by
  funext i j
  unfold r1Scores refScores
  simp only [sub_self, mul_zero, zero_mul, Finset.sum_const_zero, add_zero]
  have h : ∀ e : Fin 1024, proj x wk i e * proj x (wqs wq) j e = (proj x wk i e * proj x wq j e) * c32 :=
    fun e => by rw [proj_wqs, mul_assoc]
  rw [Finset.sum_congr rfl (fun e _ => h e), ← Finset.sum_mul, sqrt_1024_eq, c32, mul_one_div]

/-- Dividing the averaged rows by the softmax denominator is averaging with the normalised weights. -/
theorem attn_eq (s : Mat 4096 4096) (v : Mat 4096 1024) :
    r1Attn s v = fun i e => ∑ j : Fin 4096, (pexp s i j / rowSum (pexp s) i) * v j e := by
  funext i e
  unfold r1Attn
  rw [Finset.sum_div]
  exact Finset.sum_congr rfl (fun j _ => (div_mul_eq_mul_div _ _ _).symm)

/-- The output projection: the remainders are zero, so only the leading product is left. -/
theorem fc_eq (a : Mat 4096 1024) (fw : Mat 1024 1024) :
    r1Fc a fw (fun f e => fw f e - fw f e) = fun i f => ∑ e : Fin 1024, a i e * fw f e := by
  funext i f
  unfold r1Fc
  simp only [sub_self, mul_zero, zero_mul, Finset.sum_const_zero, add_zero]

/-- The rows handed to the normalisation are the same in both arrangements. -/
theorem h_eq (x : Mat 4096 1024) (wq wk wv fw : Mat 1024 1024) (fb : Fin 1024 → ℝ) :
    r1H (r1Attn (refScores x wq wk) (proj x wv)) fw (fun f e => fw f e - fw f e) fb x = refH x wq wk wv fw fb := by
  funext i f
  unfold r1H refH refAttn
  rw [fc_eq, attn_eq]

theorem kerOut_eq_refOut (x : Mat 4096 1024) (wq wk wv fw : Mat 1024 1024) (fb g b : Fin 1024 → ℝ) :
    kerOut x wq wk wv fw fb g b = refOut x wq wk wv fw fb g b := by
  unfold kerOut refOut r1Out
  rw [scores_eq, h_eq]

end Cert.Spec

end
-- ==== Proof.Scalars.lean ====
/-
  Extended-real arithmetic at real arguments: each exact operation of a real number (or of two) is the real
  operation's value, the constants the block uses are the reals they denote, and the two positivity facts that keep
  a quotient and an inverse square root away from their corners.
-/
import proofs.«400652_j32040456029043_3_alg».proof.Proof.Spec
import Idealize.ShloMosaic.PureOps.Ideal.Laws

noncomputable section

open scoped BigOperators

namespace Cert.Scalars

open Idealize.ShloMosaic

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => rw [Finset.sum_empty, Finset.sum_empty, EReal.coe_zero]
  | insert a s ha ih => rw [Finset.sum_insert ha, Finset.sum_insert ha, EReal.coe_add, ih]

/-- The running maximum from -∞ over a row of reals is the row's largest entry. -/
theorem fold_max_coe (f : Fin 4096 → ℝ) :
    (Finset.univ : Finset (Fin 4096)).fold max (⊥ : EReal) (fun k => (f k : EReal))
      = ((Finset.univ.sup' Finset.univ_nonempty f : ℝ) : EReal) := by
  -- the coercion carries a largest entry to the largest coerced entry, because it carries max to max
  have h1 : ((Finset.univ.sup' Finset.univ_nonempty f : ℝ) : EReal)
      = Finset.univ.sup' Finset.univ_nonempty ((fun r : ℝ => (r : EReal)) ∘ f) :=
    Finset.comp_sup'_eq_sup'_comp Finset.univ_nonempty (fun r : ℝ => (r : EReal)) (fun x y => EReal.coe_strictMono.monotone.map_max)
  -- over an order with a least element, the largest entry of a non-empty family is the supremum from ⊥
  rw [h1, Finset.sup'_eq_sup]
  rfl

theorem max_bot_coe (a : ℝ) : max (⊥ : EReal) (a : EReal) = (a : EReal) :=
  max_eq_right bot_le

/-! ## The constants -/

theorem ofBits_neg_inf : Ideal.ofBits .f32 0xFF800000#32 = (⊥ : EReal) := by
  simp [Ideal.ofBits, Ideal.ieee]

theorem ofBits_zero : Ideal.ofBits .f32 0x00000000#32 = ((0 : ℝ) : EReal) := by
  rw [Ideal.ofBits_zero_f32, EReal.coe_zero]

theorem ofBits_1024 : Ideal.ofBits .f32 0x44800000#32 = ((1024 : ℝ) : EReal) := by
  simp [Ideal.ofBits, Ideal.ieee, -EReal.coe_mul]; norm_num

theorem ofBits_c32 : Ideal.ofBits .f32 0x3D000000#32 = ((Cert.Spec.c32 : ℝ) : EReal) := by
  unfold Cert.Spec.c32
  simp [Ideal.ofBits, Ideal.ieee, -EReal.coe_mul]; norm_num

/-- The pattern 0x3727C5AC is a positive normal number: exponent field 110, significand 2^23 + 2606508. -/
theorem ofBits_eps_real : Ideal.ofBits .f32 0x3727C5AC#32 = (((10995116 : ℝ) * (2 : ℝ) ^ (-40 : ℤ) : ℝ) : EReal) := by
  simp [Ideal.ofBits, Ideal.ieee, -EReal.coe_mul]

theorem ofBits_eps : Ideal.ofBits .f32 0x3727C5AC#32 = ((Cert.Spec.eps : ℝ) : EReal) := by
  unfold Cert.Spec.eps
  rw [ofBits_eps_real, EReal.toReal_coe]

theorem eps_pos : 0 < Cert.Spec.eps := by
  unfold Cert.Spec.eps
  rw [ofBits_eps_real, EReal.toReal_coe]
  positivity

/-! ## Quotient, square root, inverse square root at reals -/

theorem div_coe_coe (a : ℝ) {b : ℝ} (hb : b ≠ 0) : Ideal.div (a : EReal) (b : EReal) = ((a / b : ℝ) : EReal) := by
  rw [Ideal.div_coe hb, ← EReal.coe_mul, mul_one_div]

theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem sqrt_1024 : Ideal.sqrt ((1024 : ℝ) : EReal) = ((Real.sqrt 1024 : ℝ) : EReal) := by
  rw [Ideal.sqrt_coe, if_neg (by norm_num)]

theorem sqrt_1024_ne : Real.sqrt 1024 ≠ 0 :=
  Real.sqrt_ne_zero'.mpr (by norm_num)

/-! ## Away from the corners -/

/-- A softmax denominator is positive: it is a sum of exponentials over a non-empty row. -/
theorem rowSum_pexp_pos (s : Cert.Spec.Mat 4096 4096) (i : Fin 4096) : 0 < Cert.Spec.rowSum (Cert.Spec.pexp s) i := by
  unfold Cert.Spec.rowSum Cert.Spec.pexp
  exact Finset.sum_pos (fun j _ => Real.exp_pos _) Finset.univ_nonempty

/-- A variance is non-negative, so variance plus eps is positive. -/
theorem var_add_eps_pos (h : Cert.Spec.Mat 4096 1024) (i : Fin 4096) : 0 < Cert.Spec.var h i + Cert.Spec.eps := by
  have hv : 0 ≤ Cert.Spec.var h i := by
    unfold Cert.Spec.var
    exact div_nonneg (Finset.sum_nonneg (fun f _ => mul_self_nonneg _)) (by norm_num)
  exact add_pos_of_nonneg_of_pos hv eps_pos

end Cert.Scalars

end
-- ==== Proof.KHost.lean ====
/-
  The host side of the program over real inputs. Before the first launch the host rounds the activations (the
  identity here), scales the first weight by the constant 1/32, stacks the scaled first weight over the second over
  the third, and rounds the stack; before the second launch it rounds the output weight, takes the output weight
  less its rounding (a number less itself), and recasts the bias, the scale and the shift from 1024 entries to one
  row of 1024. Each of these arrays is read at an index in terms of the real inputs. The first launch's five arrays
  and the activations pass the second host stretch unchanged.
-/
import proofs.«400652_j32040456029043_3_alg».proof.Proof.KFold
import proofs.«400652_j32040456029043_3_alg».proof.Proof.Spec
import proofs.«400652_j32040456029043_3_alg».proof.Proof.Scalars
import Idealize.ShloMosaic.Lib.ValueIdx
import Idealize.ShloMosaic.Lib.IdealHost
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Glue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

/-! ## The first host stretch -/

/-- The rounded activations are the activations. -/
theorem W1_main_v0 :
    (W1 m c (Proc.devRef .tc main_v0) : S4096x1024.Idx → EReal) = m ((c : Thread nD τ).loc main_arg0) := by
  dsimp only [W1]
  after_results
  rfl

/-- The stacked weight as the host leaves it: the first weight times the splat constant, over the second weight, over
    the third. -/
theorem W1_main_v4 :
    (W1 m c (Proc.devRef .tc main_v4) : S3072x1024.Idx → EReal)
      = concatenate S3072x1024 0
          [⟨S1024x1024, (mulf (F := Ideal) (φ := .f32) (m ((c : Thread nD τ).loc main_arg1))
              (broadcastInDim S1024x1024 ![] bcast_S_S1024x1024 (constant (F := Ideal) S_ .f32 0x3D000000#32)) : S1024x1024.Idx → EReal)⟩,
           ⟨S1024x1024, (m ((c : Thread nD τ).loc main_arg2) : S1024x1024.Idx → EReal)⟩,
           ⟨S1024x1024, (m ((c : Thread nD τ).loc main_arg3) : S1024x1024.Idx → EReal)⟩]
          concatenates_S1024x1024_S1024x1024_S1024x1024_S3072x1024_d0 := by
  dsimp only [W1]
  after_results
  rfl

/-! ## The second host stretch -/

/-- A buffer the first launch has no array at and the first stretch does not write enters the second stretch as
    launched. -/
theorem W2_launch (r : Ref sig .tc) (h0 : ∀ w, Pipeline.arrRef spec0 w ≠ r) (h2 : r ∉ Gen.hostOps0_W) :
    W2 m c (Proc.devRef .tc r) = m ((c : Thread nD τ).loc r) :=
  (W2_of_ne m c r h0).trans ((W1_of m c r h2).trans rfl)

/-- The rounded output weight is the output weight. -/
theorem W3_main_v6 :
    (W3 m c (Proc.devRef .tc main_v6) : S1024x1024.Idx → EReal) = m ((c : Thread nD τ).loc main_arg4) := by
  have e : (W3 m c (Proc.devRef .tc main_v6) : S1024x1024.Idx → EReal) = W2 m c (Proc.devRef .tc main_arg4) := by
    dsimp only [W3]
    after_results
    rfl
  exact e.trans (W2_launch m c main_arg4 (by decide) (by decide))

/-- The output weight's remainder is the output weight less itself. -/
theorem W3_main_v9 :
    (W3 m c (Proc.devRef .tc main_v9) : S1024x1024.Idx → EReal)
      = subf (F := Ideal) (φ := .f32) (m ((c : Thread nD τ).loc main_arg4)) (m ((c : Thread nD τ).loc main_arg4)) := by
  have e : (W3 m c (Proc.devRef .tc main_v9) : S1024x1024.Idx → EReal)
      = subf (F := Ideal) (φ := .f32) (W2 m c (Proc.devRef .tc main_arg4)) (W2 m c (Proc.devRef .tc main_arg4)) := by
    dsimp only [W3]
    after_results
    rfl
  rw [e, W2_launch m c main_arg4 (by decide) (by decide)]

/-- The bias as a one-row matrix. -/
theorem W3_main_v10 :
    (W3 m c (Proc.devRef .tc main_v10) : S1x1024.Idx → EReal)
      = shapeCast S1x1024 (m ((c : Thread nD τ).loc main_arg5) : S1024.Idx → EReal) shapeCasts_S1024_S1x1024 := by
  have e : (W3 m c (Proc.devRef .tc main_v10) : S1x1024.Idx → EReal)
      = shapeCast S1x1024 (W2 m c (Proc.devRef .tc main_arg5) : S1024.Idx → EReal) shapeCasts_S1024_S1x1024 := by
    dsimp only [W3]
    after_results
    rfl
  rw [e, W2_launch m c main_arg5 (by decide) (by decide)]

/-- The scale as a one-row matrix. -/
theorem W3_main_v11 :
    (W3 m c (Proc.devRef .tc main_v11) : S1x1024.Idx → EReal)
      = shapeCast S1x1024 (m ((c : Thread nD τ).loc main_arg6) : S1024.Idx → EReal) shapeCasts_S1024_S1x1024 := by
  have e : (W3 m c (Proc.devRef .tc main_v11) : S1x1024.Idx → EReal)
      = shapeCast S1x1024 (W2 m c (Proc.devRef .tc main_arg6) : S1024.Idx → EReal) shapeCasts_S1024_S1x1024 := by
    dsimp only [W3]
    after_results
    rfl
  rw [e, W2_launch m c main_arg6 (by decide) (by decide)]

/-- The shift as a one-row matrix. -/
theorem W3_main_v12 :
    (W3 m c (Proc.devRef .tc main_v12) : S1x1024.Idx → EReal)
      = shapeCast S1x1024 (m ((c : Thread nD τ).loc main_arg7) : S1024.Idx → EReal) shapeCasts_S1024_S1x1024 := by
  have e : (W3 m c (Proc.devRef .tc main_v12) : S1x1024.Idx → EReal)
      = shapeCast S1x1024 (W2 m c (Proc.devRef .tc main_arg7) : S1024.Idx → EReal) shapeCasts_S1024_S1x1024 := by
    dsimp only [W3]
    after_results
    rfl
  rw [e, W2_launch m c main_arg7 (by decide) (by decide)]

/-! ## What the second launch enters with from the first -/

/-- The first launch's five arrays pass the second stretch unchanged: each enters the second launch holding what the
    first launch's write-backs left. -/
theorem W3_main_v5_0 : W3 m c (Proc.devRef .tc main_v5_0) = (dat0 (E1 m) c).arrAt 2 cfg0.N :=
  (W3_of m c main_v5_0 (by decide)).trans (W2_arr m c 2)
theorem W3_main_v5_1 : W3 m c (Proc.devRef .tc main_v5_1) = (dat0 (E1 m) c).arrAt 3 cfg0.N :=
  (W3_of m c main_v5_1 (by decide)).trans (W2_arr m c 3)
theorem W3_main_v5_2 : W3 m c (Proc.devRef .tc main_v5_2) = (dat0 (E1 m) c).arrAt 4 cfg0.N :=
  (W3_of m c main_v5_2 (by decide)).trans (W2_arr m c 4)
theorem W3_main_v5_3 : W3 m c (Proc.devRef .tc main_v5_3) = (dat0 (E1 m) c).arrAt 5 cfg0.N :=
  (W3_of m c main_v5_3 (by decide)).trans (W2_arr m c 5)
theorem W3_main_v5_4 : W3 m c (Proc.devRef .tc main_v5_4) = (dat0 (E1 m) c).arrAt 6 cfg0.N :=
  (W3_of m c main_v5_4 (by decide)).trans (W2_arr m c 6)

/-- The activations enter the second launch as launched. -/
theorem W3_main_arg0 : W3 m c (Proc.devRef .tc main_arg0) = m ((c : Thread nD τ).loc main_arg0) :=
  (W3_of m c main_arg0 (by decide)).trans (W2_launch m c main_arg0 (by decide) (by decide))

/-! ## A stack of three square matrices read at a row -/

/-- A row in the first third of the stack is that row of the first piece. -/
theorem stack_apply_0 (A B C : S1024x1024.Idx → EReal) (e d : Fin 1024) :
    concatenate S3072x1024 0 [⟨S1024x1024, A⟩, ⟨S1024x1024, B⟩, ⟨S1024x1024, C⟩]
        concatenates_S1024x1024_S1024x1024_S1024x1024_S3072x1024_d0 (ix2 (⟨e.val, by omega⟩ : Fin 3072) d)
      = A (ix2 e d) :=
  concatenate_apply_piece (t := S3072x1024) 0 [⟨S1024x1024, A⟩, ⟨S1024x1024, B⟩, ⟨S1024x1024, C⟩]
    concatenates_S1024x1024_S1024x1024_S1024x1024_S3072x1024_d0 _ 0 (by show (0 : ℕ) < 3; omega) S1024x1024 A rfl rfl 0 rfl (ix2 e d)
    (fun b hb => by match b with | ⟨0, _⟩ => exact absurd rfl hb | ⟨1, _⟩ => rfl) (Nat.zero_add _)

/-- A row in the second third of the stack is the row 1024 above it of the second piece. -/
theorem stack_apply_1 (A B C : S1024x1024.Idx → EReal) (e d : Fin 1024) :
    concatenate S3072x1024 0 [⟨S1024x1024, A⟩, ⟨S1024x1024, B⟩, ⟨S1024x1024, C⟩]
        concatenates_S1024x1024_S1024x1024_S1024x1024_S3072x1024_d0 (ix2 (⟨1024 + e.val, by omega⟩ : Fin 3072) d)
      = B (ix2 e d) :=
  concatenate_apply_piece (t := S3072x1024) 0 [⟨S1024x1024, A⟩, ⟨S1024x1024, B⟩, ⟨S1024x1024, C⟩]
    concatenates_S1024x1024_S1024x1024_S1024x1024_S3072x1024_d0 _ 1 (by show (1 : ℕ) < 3; omega) S1024x1024 B rfl rfl 1024 rfl (ix2 e d)
    (fun b hb => by match b with | ⟨0, _⟩ => exact absurd rfl hb | ⟨1, _⟩ => rfl) rfl

/-- A row in the last third of the stack is the row 2048 above it of the third piece. -/
theorem stack_apply_2 (A B C : S1024x1024.Idx → EReal) (e d : Fin 1024) :
    concatenate S3072x1024 0 [⟨S1024x1024, A⟩, ⟨S1024x1024, B⟩, ⟨S1024x1024, C⟩]
        concatenates_S1024x1024_S1024x1024_S1024x1024_S3072x1024_d0 (ix2 (⟨2048 + e.val, by omega⟩ : Fin 3072) d)
      = C (ix2 e d) :=
  concatenate_apply_piece (t := S3072x1024) 0 [⟨S1024x1024, A⟩, ⟨S1024x1024, B⟩, ⟨S1024x1024, C⟩]
    concatenates_S1024x1024_S1024x1024_S1024x1024_S3072x1024_d0 _ 2 (by show (2 : ℕ) < 3; omega) S1024x1024 C rfl rfl 2048 rfl (ix2 e d)
    (fun b hb => by match b with | ⟨0, _⟩ => exact absurd rfl hb | ⟨1, _⟩ => rfl) rfl

/-! ## The host values at an index, over real inputs -/

variable (xr : Cert.Spec.Mat 4096 1024) (wqr wkr wvr fwr : Cert.Spec.Mat 1024 1024) (fbr gr br : Fin 1024 → ℝ)

/-- The first launch's activations are the real activations. -/
theorem W1_main_v0_apply
    (hx : ∀ (i : Fin 4096) (d : Fin 1024), m ((c : Thread nD τ).loc main_arg0) (ix2 i d) = ((xr i d : ℝ) : EReal))
    (i : Fin 4096) (d : Fin 1024) :
    W1 m c (Proc.devRef .tc main_v0) (ix2 i d) = ((xr i d : ℝ) : EReal) :=
  (congrFun (W1_main_v0 m c) (ix2 i d)).trans (hx i d)

/-- The stacked weight's first third is the first weight with the factor 1/32 folded in. -/
theorem W1_main_v4_apply_q
    (hwq : ∀ (e d : Fin 1024), m ((c : Thread nD τ).loc main_arg1) (ix2 e d) = ((wqr e d : ℝ) : EReal))
    (e d : Fin 1024) :
    W1 m c (Proc.devRef .tc main_v4) (ix2 (⟨e.val, by omega⟩ : Fin 3072) d) = ((Cert.Spec.wqs wqr e d : ℝ) : EReal) := by
  refine (congrFun (W1_main_v4 m c) _).trans ?_
  refine (stack_apply_0 _ _ _ e d).trans ?_
  rw [mulf_apply, broadcastInDim_scalar_apply, constant_apply, Cert.Scalars.ofBits_c32, hwq e d, ← EReal.coe_mul]
  rfl

/-- The stacked weight's second third is the second weight. -/
theorem W1_main_v4_apply_k
    (hwk : ∀ (e d : Fin 1024), m ((c : Thread nD τ).loc main_arg2) (ix2 e d) = ((wkr e d : ℝ) : EReal))
    (e d : Fin 1024) :
    W1 m c (Proc.devRef .tc main_v4) (ix2 (⟨1024 + e.val, by omega⟩ : Fin 3072) d) = ((wkr e d : ℝ) : EReal) := by
  refine (congrFun (W1_main_v4 m c) _).trans ?_
  exact (stack_apply_1 _ _ _ e d).trans (hwk e d)

/-- The stacked weight's last third is the third weight. -/
theorem W1_main_v4_apply_v
    (hwv : ∀ (e d : Fin 1024), m ((c : Thread nD τ).loc main_arg3) (ix2 e d) = ((wvr e d : ℝ) : EReal))
    (e d : Fin 1024) :
    W1 m c (Proc.devRef .tc main_v4) (ix2 (⟨2048 + e.val, by omega⟩ : Fin 3072) d) = ((wvr e d : ℝ) : EReal) := by
  refine (congrFun (W1_main_v4 m c) _).trans ?_
  exact (stack_apply_2 _ _ _ e d).trans (hwv e d)

/-- The second launch's output weight is the real output weight. -/
theorem W3_main_v6_apply
    (hfw : ∀ (e d : Fin 1024), m ((c : Thread nD τ).loc main_arg4) (ix2 e d) = ((fwr e d : ℝ) : EReal))
    (f e : Fin 1024) :
    W3 m c (Proc.devRef .tc main_v6) (ix2 f e) = ((fwr f e : ℝ) : EReal) :=
  (congrFun (W3_main_v6 m c) (ix2 f e)).trans (hfw f e)

/-- Its remainder is the output weight less itself. -/
theorem W3_main_v9_apply
    (hfw : ∀ (e d : Fin 1024), m ((c : Thread nD τ).loc main_arg4) (ix2 e d) = ((fwr e d : ℝ) : EReal))
    (f e : Fin 1024) :
    W3 m c (Proc.devRef .tc main_v9) (ix2 f e) = ((fwr f e - fwr f e : ℝ) : EReal) := by
  refine (congrFun (W3_main_v9 m c) (ix2 f e)).trans ?_
  rw [subf_apply, hfw f e, EReal.coe_sub]

/-- The one-row bias reads the real bias. -/
theorem W3_main_v10_apply
    (hfb : ∀ f : Fin 1024, m ((c : Thread nD τ).loc main_arg5) (ix1 f) = ((fbr f : ℝ) : EReal)) (f : Fin 1024) :
    W3 m c (Proc.devRef .tc main_v10) (ix2 (0 : Fin 1) f) = ((fbr f : ℝ) : EReal) := by
  refine (congrFun (W3_main_v10 m c) _).trans ?_
  exact (shapeCast_a_1a_apply _ _ 0 f).trans (hfb f)

/-- The one-row scale reads the real scale. -/
theorem W3_main_v11_apply
    (hg : ∀ f : Fin 1024, m ((c : Thread nD τ).loc main_arg6) (ix1 f) = ((gr f : ℝ) : EReal)) (f : Fin 1024) :
    W3 m c (Proc.devRef .tc main_v11) (ix2 (0 : Fin 1) f) = ((gr f : ℝ) : EReal) := by
  refine (congrFun (W3_main_v11 m c) _).trans ?_
  exact (shapeCast_a_1a_apply _ _ 0 f).trans (hg f)

/-- The one-row shift reads the real shift. -/
theorem W3_main_v12_apply
    (hb : ∀ f : Fin 1024, m ((c : Thread nD τ).loc main_arg7) (ix1 f) = ((br f : ℝ) : EReal)) (f : Fin 1024) :
    W3 m c (Proc.devRef .tc main_v12) (ix2 (0 : Fin 1) f) = ((br f : ℝ) : EReal) := by
  refine (congrFun (W3_main_v12 m c) _).trans ?_
  exact (shapeCast_a_1a_apply _ _ 0 f).trans (hb f)

end Cert.KernelIdeal.Glue

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.KPay0.lean ====
/-
  The first launch's five stored values read at an index, over real inputs: one 512 x 3072 product of the
  activation block with the stacked weight, cut into three 512 x 1024 slices (q, k, v); the stored values are the
  first slice, the first slice less itself, the second slice, the second slice less itself, and the third slice.
  The block's rows are rows row r of the activations; the stacked weight's rows 0 .. 1023, 1024 .. 2047 and
  2048 .. 3071 are the rows of three weights w0, w1, w2.
-/
import proofs.«400652_j32040456029043_3_alg».proof.Proof.Gen.KernelIdeal.Skeleton
import proofs.«400652_j32040456029043_3_alg».proof.Proof.Spec
import proofs.«400652_j32040456029043_3_alg».proof.Proof.Scalars
import proofs.«400652_j32040456029043_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-- The left operand's index on its row axis is the output's row. -/
theorem lhs_qkv_0 (j : S512x3072.Idx) (k : dot_S512x1024_S3072x1024_S512x3072_1_1_0_0_n_n.contr.Idx) :
    ((dot_S512x1024_S3072x1024_S512x3072_1_1_0_0_n_n.lhsIdx j k) 0).val = (j 0).val := by
  unfold DotDims.lhsIdx
  rw [dif_neg (show ¬(0 : Fin S512x1024.rank) ∈ dot_S512x1024_S3072x1024_S512x3072_1_1_0_0_n_n.lhsBatch by decide),
    dif_pos (show (0 : Fin S512x1024.rank) ∈ dot_S512x1024_S3072x1024_S512x3072_1_1_0_0_n_n.lhsNonContracting by decide)]
  rfl

/-- The left operand's index on its contracted axis is the contraction position's coordinate. -/
theorem lhs_qkv_1 (j : S512x3072.Idx) (k : dot_S512x1024_S3072x1024_S512x3072_1_1_0_0_n_n.contr.Idx) :
    ((dot_S512x1024_S3072x1024_S512x3072_1_1_0_0_n_n.lhsIdx j k) 1).val = (k ⟨0, by decide⟩).val :=
  dot_S512x1024_S3072x1024_S512x3072_1_1_0_0_n_n.lhsIdx_val_of_single (cl := 1) rfl j k

/-- The right operand's index on its row axis is the output's column. -/
theorem rhs_qkv_0 (j : S512x3072.Idx) (k : dot_S512x1024_S3072x1024_S512x3072_1_1_0_0_n_n.contr.Idx) :
    ((dot_S512x1024_S3072x1024_S512x3072_1_1_0_0_n_n.rhsIdx j k) 0).val = (j 1).val := by
  unfold DotDims.rhsIdx
  rw [dif_neg (show ¬(0 : Fin S3072x1024.rank) ∈ dot_S512x1024_S3072x1024_S512x3072_1_1_0_0_n_n.rhsBatch by decide),
    dif_pos (show (0 : Fin S3072x1024.rank) ∈ dot_S512x1024_S3072x1024_S512x3072_1_1_0_0_n_n.rhsNonContracting by decide)]
  rfl

/-- The right operand's index on its contracted axis is the contraction position's coordinate. -/
theorem rhs_qkv_1 (j : S512x3072.Idx) (k : dot_S512x1024_S3072x1024_S512x3072_1_1_0_0_n_n.contr.Idx) :
    ((dot_S512x1024_S3072x1024_S512x3072_1_1_0_0_n_n.rhsIdx j k) 1).val = (k ⟨0, by decide⟩).val :=
  dot_S512x1024_S3072x1024_S512x3072_1_1_0_0_n_n.rhsIdx_val_of_single (cr := 1) rfl j k

/-- The 512 x 3072 product read at (r, j): the inner product of row r of the block with row j of the stacked
    weight. -/
theorem k0_pay1_apply (v0 : Vec Ideal S512x1024 .bf16) (v2 : Vec Ideal S3072x1024 .bf16) (r : Fin 512) (j : Fin 3072) :
    k0_pay1 (F := Ideal) v0 v2 (ix2 r j) = ∑ d : Fin 1024, v0 (ix2 r d) * v2 (ix2 j d) := by
  unfold k0_pay1
  simp only [matmul]
  rw [shapeCast_self, shapeCast_self]
  refine (Ideal.matmul_constant_zero_apply (φ₁ := .bf16) (φ₂ := .bf16) dot_S512x1024_S3072x1024_S512x3072_1_1_0_0_n_n none v0 v2 (ix2 r j)).trans ?_
  rw [← Equiv.sum_comp (contrEquiv1 dot_S512x1024_S3072x1024_S512x3072_1_1_0_0_n_n 1024 rfl rfl).symm]
  refine Finset.sum_congr rfl fun d _ => ?_
  have hk := contrEquiv1_symm_val dot_S512x1024_S3072x1024_S512x3072_1_1_0_0_n_n 1024 rfl rfl d
  have hl : dot_S512x1024_S3072x1024_S512x3072_1_1_0_0_n_n.lhsIdx (ix2 r j)
      ((contrEquiv1 dot_S512x1024_S3072x1024_S512x3072_1_1_0_0_n_n 1024 rfl rfl).symm d) = ix2 r d := by
    funext ax; apply Fin.ext
    match ax with
    | ⟨0, _⟩ => exact lhs_qkv_0 _ _
    | ⟨1, _⟩ => exact (lhs_qkv_1 _ _).trans hk
  have hr : dot_S512x1024_S3072x1024_S512x3072_1_1_0_0_n_n.rhsIdx (ix2 r j)
      ((contrEquiv1 dot_S512x1024_S3072x1024_S512x3072_1_1_0_0_n_n 1024 rfl rfl).symm d) = ix2 j d := by
    funext ax; apply Fin.ext
    match ax with
    | ⟨0, _⟩ => exact rhs_qkv_0 _ _
    | ⟨1, _⟩ => exact (rhs_qkv_1 _ _).trans hk
  rw [hl, hr]

variable (v0 : Vec Ideal S512x1024 .bf16) (v2 : Vec Ideal S3072x1024 .bf16)
  (xr : Cert.Spec.Mat 4096 1024) (w0 w1 w2 : Cert.Spec.Mat 1024 1024) (row : Fin 512 → Fin 4096)
  (hx : ∀ (r : Fin 512) (d : Fin 1024), v0 (ix2 r d) = ((xr (row r) d : ℝ) : EReal))
  (hw0 : ∀ (e d : Fin 1024), v2 (ix2 (⟨e.val, by omega⟩ : Fin 3072) d) = ((w0 e d : ℝ) : EReal))
  (hw1 : ∀ (e d : Fin 1024), v2 (ix2 (⟨1024 + e.val, by omega⟩ : Fin 3072) d) = ((w1 e d : ℝ) : EReal))
  (hw2 : ∀ (e d : Fin 1024), v2 (ix2 (⟨2048 + e.val, by omega⟩ : Fin 3072) d) = ((w2 e d : ℝ) : EReal))

/-- The first slice at (r, e) is the product at column e. -/
theorem k0_pay2_apply (r : Fin 512) (e : Fin 1024) :
    k0_pay2 (F := Ideal) v0 v2 (ix2 r e) = k0_pay1 (F := Ideal) v0 v2 (ix2 r (⟨e.val, by omega⟩ : Fin 3072)) := by
  unfold k0_pay2
  exact slice2_axis1_apply 0 _ _ r e ⟨e.val, by omega⟩ (Nat.zero_add _).symm

/-- The second slice at (r, e) is the product at column 1024 + e. -/
theorem k0_pay3_apply (r : Fin 512) (e : Fin 1024) :
    k0_pay3 (F := Ideal) v0 v2 (ix2 r e) = k0_pay1 (F := Ideal) v0 v2 (ix2 r (⟨1024 + e.val, by omega⟩ : Fin 3072)) := by
  unfold k0_pay3
  exact slice2_axis1_apply 1024 _ _ r e ⟨1024 + e.val, by omega⟩ rfl

/-- The third slice at (r, e) is the product at column 2048 + e. -/
theorem slice3_apply (r : Fin 512) (e : Fin 1024) :
    extractStridedSlice S512x1024 ![0, 2048] (k0_pay1 (F := Ideal) v0 v2) slices_S512x3072_o0_2048_S512x1024 (ix2 r e)
      = k0_pay1 (F := Ideal) v0 v2 (ix2 r (⟨2048 + e.val, by omega⟩ : Fin 3072)) :=
  slice2_axis1_apply 2048 _ _ r e ⟨2048 + e.val, by omega⟩ rfl

/-- An inner product of real rows, taken in the extended reals, is the real projection's entry. -/
theorem sum_coe_proj (w : Cert.Spec.Mat 1024 1024) (i : Fin 4096) (e : Fin 1024) :
    ∑ d : Fin 1024, ((xr i d : ℝ) : EReal) * ((w e d : ℝ) : EReal) = ((Cert.Spec.proj xr w i e : ℝ) : EReal) := by
  unfold Cert.Spec.proj
  rw [Cert.Scalars.coe_sum]
  exact Finset.sum_congr rfl fun d _ => (EReal.coe_mul _ _).symm

include hx in
/-- The product at (r, j), when row j of the stacked weight is row e of a real weight w. -/
theorem k0_pay1_proj (w : Cert.Spec.Mat 1024 1024) (r : Fin 512) (j : Fin 3072) (e : Fin 1024)
    (hw : ∀ d : Fin 1024, v2 (ix2 j d) = ((w e d : ℝ) : EReal)) :
    k0_pay1 (F := Ideal) v0 v2 (ix2 r j) = ((Cert.Spec.proj xr w (row r) e : ℝ) : EReal) := by
  rw [k0_pay1_apply, ← sum_coe_proj]
  exact Finset.sum_congr rfl fun d _ => by rw [hx r d, hw d]

include hx hw0 in
theorem k0_pay4_apply (r : Fin 512) (e : Fin 1024) :
    k0_pay4 (F := Ideal) v0 v2 (ix2 r e) = ((Cert.Spec.proj xr w0 (row r) e : ℝ) : EReal) := by
  unfold k0_pay4
  rw [truncf_apply, k0_pay2_apply]
  exact k0_pay1_proj v0 v2 xr row hx w0 r _ e (hw0 e)

include hx hw0 in
theorem k0_pay5_apply (r : Fin 512) (e : Fin 1024) :
    k0_pay5 (F := Ideal) v0 v2 (ix2 r e)
      = ((Cert.Spec.proj xr w0 (row r) e - Cert.Spec.proj xr w0 (row r) e : ℝ) : EReal) := by
  unfold k0_pay5
  rw [truncf_apply, subf_apply, k0_pay2_apply, k0_pay1_proj v0 v2 xr row hx w0 r _ e (hw0 e), EReal.coe_sub]

include hx hw1 in
theorem k0_pay6_apply (r : Fin 512) (e : Fin 1024) :
    k0_pay6 (F := Ideal) v0 v2 (ix2 r e) = ((Cert.Spec.proj xr w1 (row r) e : ℝ) : EReal) := by
  unfold k0_pay6
  rw [truncf_apply, k0_pay3_apply]
  exact k0_pay1_proj v0 v2 xr row hx w1 r _ e (hw1 e)

include hx hw1 in
theorem k0_pay7_apply (r : Fin 512) (e : Fin 1024) :
    k0_pay7 (F := Ideal) v0 v2 (ix2 r e)
      = ((Cert.Spec.proj xr w1 (row r) e - Cert.Spec.proj xr w1 (row r) e : ℝ) : EReal) := by
  unfold k0_pay7
  rw [truncf_apply, subf_apply, k0_pay3_apply, k0_pay1_proj v0 v2 xr row hx w1 r _ e (hw1 e), EReal.coe_sub]

include hx hw2 in
theorem k0_pay8_apply (r : Fin 512) (e : Fin 1024) :
    k0_pay8 (F := Ideal) v0 v2 (ix2 r e) = ((Cert.Spec.proj xr w2 (row r) e : ℝ) : EReal) := by
  unfold k0_pay8
  rw [truncf_apply, slice3_apply]
  exact k0_pay1_proj v0 v2 xr row hx w2 r _ e (hw2 e)

end Cert.KernelIdeal.Pay

end
-- ==== Proof.KArr0.lean ====
/-
  The first launch's five output arrays, whole: its 8 grid points write 8 blocks of 512 rows that tile the 4096
  rows, and block t holds rows 512 t .. 512 t + 511 of one function of the entry arrays, so each array ends holding
  that function: the projections of the activations by the three stacked weights, and two differences of a
  projection with itself.
-/
import proofs.«400652_j32040456029043_3_alg».proof.Proof.KData
import proofs.«400652_j32040456029043_3_alg».proof.Proof.KPay0
import Idealize.ShloMosaic.Lib.ValueIdx
import Idealize.ShloMosaic.Lib.Pipeline.Value

set_option maxRecDepth 16384

noncomputable section

open scoped BigOperators

namespace Cert.KernelIdeal.Arr

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-! ## Where the blocks sit -/

/-- A whole buffer's rectangle starts at the origin. -/
theorem origin : (![0, 0] : Fin 2 → Nat) = fun _ => 0 := funext fun a => by fin_cases a <;> rfl

/-- The grid has 8 points. -/
theorem point_lt (t : Fin cfg0.N) : t.val < 8 := lt_of_lt_of_eq t.isLt N_0

/-- The activations' block at point t is block (t, 0). -/
theorem act_index : ∀ t : Fin cfg0.N, win0_0.index t (0 : Fin 2) = t.val ∧ win0_0.index t (1 : Fin 2) = 0 :=
  (by decide +kernel : ∀ t : Fin grid0.N, _)

/-- The stacked weight's block is block (0, 0) at every point. -/
theorem weight_index : ∀ t : Fin cfg0.N, win0_1.index t (0 : Fin 2) = 0 ∧ win0_1.index t (1 : Fin 2) = 0 :=
  (by decide +kernel : ∀ t : Fin grid0.N, _)

/-- Each output's block at point t is block (t, 0). -/
theorem q_index : ∀ t : Fin cfg0.N, win0_2.index t (0 : Fin 2) = t.val ∧ win0_2.index t (1 : Fin 2) = 0 :=
  (by decide +kernel : ∀ t : Fin grid0.N, _)
theorem qrem_index : ∀ t : Fin cfg0.N, win0_3.index t (0 : Fin 2) = t.val ∧ win0_3.index t (1 : Fin 2) = 0 :=
  (by decide +kernel : ∀ t : Fin grid0.N, _)
theorem k_index : ∀ t : Fin cfg0.N, win0_4.index t (0 : Fin 2) = t.val ∧ win0_4.index t (1 : Fin 2) = 0 :=
  (by decide +kernel : ∀ t : Fin grid0.N, _)
theorem krem_index : ∀ t : Fin cfg0.N, win0_5.index t (0 : Fin 2) = t.val ∧ win0_5.index t (1 : Fin 2) = 0 :=
  (by decide +kernel : ∀ t : Fin grid0.N, _)
theorem v_index : ∀ t : Fin cfg0.N, win0_6.index t (0 : Fin 2) = t.val ∧ win0_6.index t (1 : Fin 2) = 0 :=
  (by decide +kernel : ∀ t : Fin grid0.N, _)

/-- Row r of block t is row 512 t + r of the array. -/
def rowAt0 (t : Fin cfg0.N) (r : Fin 512) : Fin 4096 := ⟨512 * t.val + r.val, by have := point_lt t; omega⟩

/-- The activations' block at point t, entry (r, d), is the array's entry (512 t + r, d). -/
theorem act_block_apply (t : Fin cfg0.N) (r : Fin 512) (d : Fin 1024) :
    (iblk0 V c 0 t : Vec Ideal S512x1024 .bf16) (ix2 r d) = V c main_v0 (ix2 (rowAt0 t r) d) := by
  obtain ⟨e0, e1⟩ := act_index t
  unfold iblk0
  rw [View.read_apply]
  show V c main_v0 _ = V c main_v0 _
  congr 1
  funext a
  apply Fin.ext
  match a with
  | ⟨0, _⟩ => show win0_0.index t (0 : Fin 2) * 512 + 1 * r.val = 512 * t.val + r.val; rw [e0]; omega
  | ⟨1, _⟩ => show win0_0.index t (1 : Fin 2) * 1024 + 1 * d.val = d.val; rw [e1]; omega

/-- The stacked weight's block at any point is the whole array. -/
theorem weight_block_apply (t : Fin cfg0.N) (j : Fin 3072) (d : Fin 1024) :
    (iblk0 V c 1 t : Vec Ideal S3072x1024 .bf16) (ix2 j d) = V c main_v4 (ix2 j d) := by
  obtain ⟨e0, e1⟩ := weight_index t
  unfold iblk0
  rw [View.read_apply]
  show V c main_v4 _ = V c main_v4 _
  congr 1
  funext a
  apply Fin.ext
  match a with
  | ⟨0, _⟩ => show win0_1.index t (0 : Fin 2) * 3072 + 1 * j.val = j.val; rw [e0]; omega
  | ⟨1, _⟩ => show win0_1.index t (1 : Fin 2) * 1024 + 1 * d.val = d.val; rw [e1]; omega

/-- The point whose block holds row i is i / 512. -/
theorem point_of_row (i : S4096x1024.Idx) : ∃ t : Fin cfg0.N, t.val = (i 0).val / 512 :=
  ⟨⟨(i 0).val / 512, lt_of_lt_of_eq (by have : (i 0).val < 4096 := (i 0).isLt; omega) N_0.symm⟩, rfl⟩

/-! ## The functions the arrays end holding -/

/-- A projection of the activations by a weight, index by index. -/
abbrev Gproj (xr : Cert.Spec.Mat 4096 1024) (w : Cert.Spec.Mat 1024 1024) : S4096x1024.Idx → EReal :=
  fun j => ((Cert.Spec.proj xr w (j 0) (j 1) : ℝ) : EReal)

/-- A projection's entry less itself, index by index. -/
abbrev Grem (xr : Cert.Spec.Mat 4096 1024) (w : Cert.Spec.Mat 1024 1024) : S4096x1024.Idx → EReal :=
  fun j => ((Cert.Spec.proj xr w (j 0) (j 1) - Cert.Spec.proj xr w (j 0) (j 1) : ℝ) : EReal)

/-! ## One stored value at one block index

Over any block v0 of real activations rows row r and any stacked weight v2 of the three real weights: the stored
value at block index y is the array function at an array index i whose row is row (y 0) and whose column is y 1. -/

section point

variable (v0 : Vec Ideal S512x1024 .bf16) (v2 : Vec Ideal S3072x1024 .bf16)
  (xr : Cert.Spec.Mat 4096 1024) (w0 w1 w2 : Cert.Spec.Mat 1024 1024) (row : Fin 512 → Fin 4096)
  (hx : ∀ (r : Fin 512) (d : Fin 1024), v0 (ix2 r d) = ((xr (row r) d : ℝ) : EReal))
  (hw0 : ∀ (e d : Fin 1024), v2 (ix2 (⟨e.val, by omega⟩ : Fin 3072) d) = ((w0 e d : ℝ) : EReal))
  (hw1 : ∀ (e d : Fin 1024), v2 (ix2 (⟨1024 + e.val, by omega⟩ : Fin 3072) d) = ((w1 e d : ℝ) : EReal))
  (hw2 : ∀ (e d : Fin 1024), v2 (ix2 (⟨2048 + e.val, by omega⟩ : Fin 3072) d) = ((w2 e d : ℝ) : EReal))

include hx hw0 in
theorem q_at (y : S512x1024.Idx) (i : S4096x1024.Idx) (hi0 : i 0 = row (y 0)) (hi1 : i 1 = y 1) :
    k0_pay4 (F := Ideal) v0 v2 y = Gproj xr w0 i := by
  have h := Pay.k0_pay4_apply v0 v2 xr w0 row hx hw0 (y 0) (y 1)
  refine (congrArg (k0_pay4 (F := Ideal) v0 v2) (eq_ix2 y)).trans (h.trans ?_)
  show _ = ((Cert.Spec.proj xr w0 (i 0) (i 1) : ℝ) : EReal)
  rw [hi0, hi1]

include hx hw0 in
theorem qrem_at (y : S512x1024.Idx) (i : S4096x1024.Idx) (hi0 : i 0 = row (y 0)) (hi1 : i 1 = y 1) :
    k0_pay5 (F := Ideal) v0 v2 y = Grem xr w0 i := by
  have h := Pay.k0_pay5_apply v0 v2 xr w0 row hx hw0 (y 0) (y 1)
  refine (congrArg (k0_pay5 (F := Ideal) v0 v2) (eq_ix2 y)).trans (h.trans ?_)
  show _ = ((Cert.Spec.proj xr w0 (i 0) (i 1) - Cert.Spec.proj xr w0 (i 0) (i 1) : ℝ) : EReal)
  rw [hi0, hi1]

include hx hw1 in
theorem k_at (y : S512x1024.Idx) (i : S4096x1024.Idx) (hi0 : i 0 = row (y 0)) (hi1 : i 1 = y 1) :
    k0_pay6 (F := Ideal) v0 v2 y = Gproj xr w1 i := by
  have h := Pay.k0_pay6_apply v0 v2 xr w1 row hx hw1 (y 0) (y 1)
  refine (congrArg (k0_pay6 (F := Ideal) v0 v2) (eq_ix2 y)).trans (h.trans ?_)
  show _ = ((Cert.Spec.proj xr w1 (i 0) (i 1) : ℝ) : EReal)
  rw [hi0, hi1]

include hx hw1 in
theorem krem_at (y : S512x1024.Idx) (i : S4096x1024.Idx) (hi0 : i 0 = row (y 0)) (hi1 : i 1 = y 1) :
    k0_pay7 (F := Ideal) v0 v2 y = Grem xr w1 i := by
  have h := Pay.k0_pay7_apply v0 v2 xr w1 row hx hw1 (y 0) (y 1)
  refine (congrArg (k0_pay7 (F := Ideal) v0 v2) (eq_ix2 y)).trans (h.trans ?_)
  show _ = ((Cert.Spec.proj xr w1 (i 0) (i 1) - Cert.Spec.proj xr w1 (i 0) (i 1) : ℝ) : EReal)
  rw [hi0, hi1]

include hx hw2 in
theorem v_at (y : S512x1024.Idx) (i : S4096x1024.Idx) (hi0 : i 0 = row (y 0)) (hi1 : i 1 = y 1) :
    k0_pay8 (F := Ideal) v0 v2 y = Gproj xr w2 i := by
  have h := Pay.k0_pay8_apply v0 v2 xr w2 row hx hw2 (y 0) (y 1)
  refine (congrArg (k0_pay8 (F := Ideal) v0 v2) (eq_ix2 y)).trans (h.trans ?_)
  show _ = ((Cert.Spec.proj xr w2 (i 0) (i 1) : ℝ) : EReal)
  rw [hi0, hi1]

end point

/-! ## What each point writes back, the cover, and the arrays -/

section arrays

variable (xr : Cert.Spec.Mat 4096 1024) (w0 w1 w2 : Cert.Spec.Mat 1024 1024)
  (hx : ∀ (i : Fin 4096) (d : Fin 1024), V c main_v0 (ix2 i d) = ((xr i d : ℝ) : EReal))
  (hw0 : ∀ (e d : Fin 1024), V c main_v4 (ix2 (⟨e.val, by omega⟩ : Fin 3072) d) = ((w0 e d : ℝ) : EReal))
  (hw1 : ∀ (e d : Fin 1024), V c main_v4 (ix2 (⟨1024 + e.val, by omega⟩ : Fin 3072) d) = ((w1 e d : ℝ) : EReal))
  (hw2 : ∀ (e d : Fin 1024), V c main_v4 (ix2 (⟨2048 + e.val, by omega⟩ : Fin 3072) d) = ((w2 e d : ℝ) : EReal))

include hx in
/-- The activations' block at point t holds rows 512 t .. 512 t + 511 of the real activations. -/
theorem act_block_real (t : Fin cfg0.N) (r : Fin 512) (d : Fin 1024) :
    (iblk0 V c 0 t : Vec Ideal S512x1024 .bf16) (ix2 r d) = ((xr (rowAt0 t r) d : ℝ) : EReal) := by
  rw [act_block_apply]; exact hx _ _

include hw0 in
/-- The stacked weight's block holds the first real weight in rows 0 .. 1023, -/
theorem weight_block_real0 (t : Fin cfg0.N) (e d : Fin 1024) :
    (iblk0 V c 1 t : Vec Ideal S3072x1024 .bf16) (ix2 (⟨e.val, by omega⟩ : Fin 3072) d) = ((w0 e d : ℝ) : EReal) := by
  rw [weight_block_apply]; exact hw0 e d

include hw1 in
/-- the second in rows 1024 .. 2047, -/
theorem weight_block_real1 (t : Fin cfg0.N) (e d : Fin 1024) :
    (iblk0 V c 1 t : Vec Ideal S3072x1024 .bf16) (ix2 (⟨1024 + e.val, by omega⟩ : Fin 3072) d) = ((w1 e d : ℝ) : EReal) := by
  rw [weight_block_apply]; exact hw1 e d

include hw2 in
/-- the third in rows 2048 .. 3071. -/
theorem weight_block_real2 (t : Fin cfg0.N) (e d : Fin 1024) :
    (iblk0 V c 1 t : Vec Ideal S3072x1024 .bf16) (ix2 (⟨2048 + e.val, by omega⟩ : Fin 3072) d) = ((w2 e d : ℝ) : EReal) := by
  rw [weight_block_apply]; exact hw2 e d

/-! ### q: the projection by the first weight -/

include hx hw0 in
/-- What point t writes back is block t of the projection. -/
theorem flushed_q (t : Fin cfg0.N) :
    (dat0 V c).flushed 2 t = ((cfg0.win 2).blk t).view.read (Elt Ideal) (Gproj xr w0) := by
  show (cfg0.win 2).cut (grid0.coords t) ((dat0 V c).after 2 t) = _
  rw [after0_2]
  unfold out0_2
  rw [View.canon_unit_zero origin]
  simp only [View.ld_unit_zero (S := S512x1024) origin, View.ld_unit_zero (S := S3072x1024) origin]
  funext y
  show k0_pay4 (F := Ideal) (iblk0 V c 0 t) (iblk0 V c 1 t) y = Gproj xr w0 (((cfg0.win 2).blk t).view.emb y)
  obtain ⟨e0, e1⟩ := q_index t
  refine q_at (iblk0 V c 0 t) (iblk0 V c 1 t) xr w0 (rowAt0 t) (act_block_real V c xr hx t)
    (weight_block_real0 V c w0 hw0 t) y _ ?_ ?_
  · apply Fin.ext
    show win0_2.index t (0 : Fin 2) * 512 + 1 * (y 0).val = 512 * t.val + (y 0).val
    rw [e0]; omega
  · apply Fin.ext
    show win0_2.index t (1 : Fin 2) * 1024 + 1 * (y 1).val = (y 1).val
    rw [e1]; omega

/-- An index is in point t's block iff each coordinate is in the block's range on its axis. -/
theorem mem_block_q (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v5_0).slice (win0_2.rect t)).set ↔ _
  rw [View.set_slice_whole, Rect.mem_set_unit]
  exact Iff.rfl

/-- Every index of the array is in the block of the point its row names. -/
theorem cover_q (i : S4096x1024.Idx) :
    ∃ t : Fin cfg0.N, (cfg0.win 2).flush t = true ∧ i ∈ ((cfg0.win 2).blk t).view.set := by
  have hi1 : (i 1).val < 1024 := (i 1).isLt
  obtain ⟨t, ht⟩ := point_of_row i
  obtain ⟨e0, e1⟩ := q_index t
  refine ⟨t, flush0_2 t, ?_⟩
  rw [mem_block_q]
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 1024 ≤ (i 1).val ∧ (i 1).val < win0_2.index t (1 : Fin 2) * 1024 + 1024; rw [e1]; omega

include hx hw0 in
/-- The array ends holding the projection. -/
theorem array_q : (dat0 V c).arrAt 2 cfg0.N = Gproj xr w0 :=
  (dat0 V c).arrAt_eq_of_cover 2 (Gproj xr w0) (fun t _ => flushed_q V c xr w0 hx hw0 t) cover_q

/-! ### q's remainder: the projection by the first weight less itself -/

include hx hw0 in
theorem flushed_qrem (t : Fin cfg0.N) :
    (dat0 V c).flushed 3 t = ((cfg0.win 3).blk t).view.read (Elt Ideal) (Grem xr w0) := by
  show (cfg0.win 3).cut (grid0.coords t) ((dat0 V c).after 3 t) = _
  rw [after0_3]
  unfold out0_3
  rw [View.canon_unit_zero origin]
  simp only [View.ld_unit_zero (S := S512x1024) origin, View.ld_unit_zero (S := S3072x1024) origin]
  funext y
  show k0_pay5 (F := Ideal) (iblk0 V c 0 t) (iblk0 V c 1 t) y = Grem xr w0 (((cfg0.win 3).blk t).view.emb y)
  obtain ⟨e0, e1⟩ := qrem_index t
  refine qrem_at (iblk0 V c 0 t) (iblk0 V c 1 t) xr w0 (rowAt0 t) (act_block_real V c xr hx t)
    (weight_block_real0 V c w0 hw0 t) y _ ?_ ?_
  · apply Fin.ext
    show win0_3.index t (0 : Fin 2) * 512 + 1 * (y 0).val = 512 * t.val + (y 0).val
    rw [e0]; omega
  · apply Fin.ext
    show win0_3.index t (1 : Fin 2) * 1024 + 1 * (y 1).val = (y 1).val
    rw [e1]; omega

theorem mem_block_qrem (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v5_1).slice (win0_3.rect t)).set ↔ _
  rw [View.set_slice_whole, Rect.mem_set_unit]
  exact Iff.rfl

theorem cover_qrem (i : S4096x1024.Idx) :
    ∃ t : Fin cfg0.N, (cfg0.win 3).flush t = true ∧ i ∈ ((cfg0.win 3).blk t).view.set := by
  have hi1 : (i 1).val < 1024 := (i 1).isLt
  obtain ⟨t, ht⟩ := point_of_row i
  obtain ⟨e0, e1⟩ := qrem_index t
  refine ⟨t, flush0_3 t, ?_⟩
  rw [mem_block_qrem]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 1024 ≤ (i 1).val ∧ (i 1).val < win0_3.index t (1 : Fin 2) * 1024 + 1024; rw [e1]; omega

include hx hw0 in
theorem array_qrem : (dat0 V c).arrAt 3 cfg0.N = Grem xr w0 :=
  (dat0 V c).arrAt_eq_of_cover 3 (Grem xr w0) (fun t _ => flushed_qrem V c xr w0 hx hw0 t) cover_qrem

/-! ### k: the projection by the second weight -/

include hx hw1 in
theorem flushed_k (t : Fin cfg0.N) :
    (dat0 V c).flushed 4 t = ((cfg0.win 4).blk t).view.read (Elt Ideal) (Gproj xr w1) := by
  show (cfg0.win 4).cut (grid0.coords t) ((dat0 V c).after 4 t) = _
  rw [after0_4]
  unfold out0_4
  rw [View.canon_unit_zero origin]
  simp only [View.ld_unit_zero (S := S512x1024) origin, View.ld_unit_zero (S := S3072x1024) origin]
  funext y
  show k0_pay6 (F := Ideal) (iblk0 V c 0 t) (iblk0 V c 1 t) y = Gproj xr w1 (((cfg0.win 4).blk t).view.emb y)
  obtain ⟨e0, e1⟩ := k_index t
  refine k_at (iblk0 V c 0 t) (iblk0 V c 1 t) xr w1 (rowAt0 t) (act_block_real V c xr hx t)
    (weight_block_real1 V c w1 hw1 t) y _ ?_ ?_
  · apply Fin.ext
    show win0_4.index t (0 : Fin 2) * 512 + 1 * (y 0).val = 512 * t.val + (y 0).val
    rw [e0]; omega
  · apply Fin.ext
    show win0_4.index t (1 : Fin 2) * 1024 + 1 * (y 1).val = (y 1).val
    rw [e1]; omega

theorem mem_block_k (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5_2).slice (win0_4.rect t)).set ↔ _
  rw [View.set_slice_whole, Rect.mem_set_unit]
  exact Iff.rfl

theorem cover_k (i : S4096x1024.Idx) :
    ∃ t : Fin cfg0.N, (cfg0.win 4).flush t = true ∧ i ∈ ((cfg0.win 4).blk t).view.set := by
  have hi1 : (i 1).val < 1024 := (i 1).isLt
  obtain ⟨t, ht⟩ := point_of_row i
  obtain ⟨e0, e1⟩ := k_index t
  refine ⟨t, flush0_4 t, ?_⟩
  rw [mem_block_k]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 1024 ≤ (i 1).val ∧ (i 1).val < win0_4.index t (1 : Fin 2) * 1024 + 1024; rw [e1]; omega

include hx hw1 in
theorem array_k : (dat0 V c).arrAt 4 cfg0.N = Gproj xr w1 :=
  (dat0 V c).arrAt_eq_of_cover 4 (Gproj xr w1) (fun t _ => flushed_k V c xr w1 hx hw1 t) cover_k

/-! ### k's remainder: the projection by the second weight less itself -/

include hx hw1 in
theorem flushed_krem (t : Fin cfg0.N) :
    (dat0 V c).flushed 5 t = ((cfg0.win 5).blk t).view.read (Elt Ideal) (Grem xr w1) := by
  show (cfg0.win 5).cut (grid0.coords t) ((dat0 V c).after 5 t) = _
  rw [after0_5]
  unfold out0_5
  rw [View.canon_unit_zero origin]
  simp only [View.ld_unit_zero (S := S512x1024) origin, View.ld_unit_zero (S := S3072x1024) origin]
  funext y
  show k0_pay7 (F := Ideal) (iblk0 V c 0 t) (iblk0 V c 1 t) y = Grem xr w1 (((cfg0.win 5).blk t).view.emb y)
  obtain ⟨e0, e1⟩ := krem_index t
  refine krem_at (iblk0 V c 0 t) (iblk0 V c 1 t) xr w1 (rowAt0 t) (act_block_real V c xr hx t)
    (weight_block_real1 V c w1 hw1 t) y _ ?_ ?_
  · apply Fin.ext
    show win0_5.index t (0 : Fin 2) * 512 + 1 * (y 0).val = 512 * t.val + (y 0).val
    rw [e0]; omega
  · apply Fin.ext
    show win0_5.index t (1 : Fin 2) * 1024 + 1 * (y 1).val = (y 1).val
    rw [e1]; omega

theorem mem_block_krem (t : Fin cfg0.N) (i : S4096x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v5_3).slice (win0_5.rect t)).set ↔ _
  rw [View.set_slice_whole, Rect.mem_set_unit]
  exact Iff.rfl

theorem cover_krem (i : S4096x1024.Idx) :
    ∃ t : Fin cfg0.N, (cfg0.win 5).flush t = true ∧ i ∈ ((cfg0.win 5).blk t).view.set := by
  have hi1 : (i 1).val < 1024 := (i 1).isLt
  obtain ⟨t, ht⟩ := point_of_row i
  obtain ⟨e0, e1⟩ := krem_index t
  refine ⟨t, flush0_5 t, ?_⟩
  rw [mem_block_krem]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

include hx hw1 in
theorem array_krem : (dat0 V c).arrAt 5 cfg0.N = Grem xr w1 :=
  (dat0 V c).arrAt_eq_of_cover 5 (Grem xr w1) (fun t _ => flushed_krem V c xr w1 hx hw1 t) cover_krem

/-! ### v: the projection by the third weight -/

include hx hw2 in
theorem flushed_v (t : Fin cfg0.N) :
    (dat0 V c).flushed 6 t = ((cfg0.win 6).blk t).view.read (Elt Ideal) (Gproj xr w2) := by
  show (cfg0.win 6).cut (grid0.coords t) ((dat0 V c).after 6 t) = _
  rw [after0_6]
  unfold out0_6
  rw [View.canon_unit_zero origin]
  simp only [View.ld_unit_zero (S := S512x1024) origin, View.ld_unit_zero (S := S3072x1024) origin]
  funext y
  show k0_pay8 (F := Ideal) (iblk0 V c 0 t) (iblk0 V c 1 t) y = Gproj xr w2 (((cfg0.win 6).blk t).view.emb y)
  obtain ⟨e0, e1⟩ := v_index t
  refine v_at (iblk0 V c 0 t) (iblk0 V c 1 t) xr w2 (rowAt0 t) (act_block_real V c xr hx t)
    (weight_block_real2 V c w2 hw2 t) y _ ?_ ?_
  · apply Fin.ext
    show win0_6.index t (0 : Fin 2) * 512 + 1 * (y 0).val = 512 * t.val + (y 0).val
    rw [e0]; omega
  · apply Fin.ext
    show win0_6.index t (1 : Fin 2) * 1024 + 1 * (y 1).val = (y 1).val
    rw [e1]; omega

theorem mem_block_v (t : Fin cfg0.N) (i : S4096x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v5_4).slice (win0_6.rect t)).set ↔ _
  rw [View.set_slice_whole, Rect.mem_set_unit]
  exact Iff.rfl

theorem cover_v (i : S4096x1024.Idx) :
    ∃ t : Fin cfg0.N, (cfg0.win 6).flush t = true ∧ i ∈ ((cfg0.win 6).blk t).view.set := by
  have hi1 : (i 1).val < 1024 := (i 1).isLt
  obtain ⟨t, ht⟩ := point_of_row i
  obtain ⟨e0, e1⟩ := v_index t
  refine ⟨t, flush0_6 t, ?_⟩
  rw [mem_block_v]
  intro a
  match a with
  | ⟨0, _⟩ => show win0_6.index t (0 : Fin 2) * 512 ≤ (i 0).val ∧ (i 0).val < win0_6.index t (0 : Fin 2) * 512 + 512; rw [e0, ht]; omega
  | ⟨1, _⟩ => show win0_6.index t (1 : Fin 2) * 1024 ≤ (i 1).val ∧ (i 1).val < win0_6.index t (1 : Fin 2) * 1024 + 1024; rw [e1]; omega

include hx hw2 in
theorem array_v : (dat0 V c).arrAt 6 cfg0.N = Gproj xr w2 :=
  (dat0 V c).arrAt_eq_of_cover 6 (Gproj xr w2) (fun t _ => flushed_v V c xr w2 hx hw2 t) cover_v

end arrays

/-! ## The five arrays at an index -/

theorem region0_value (xr : Cert.Spec.Mat 4096 1024) (w0 w1 w2 : Cert.Spec.Mat 1024 1024)
    (hx : ∀ (i : Fin 4096) (d : Fin 1024), V c main_v0 (ix2 i d) = ((xr i d : ℝ) : EReal))
    (hw0 : ∀ (e d : Fin 1024), V c main_v4 (ix2 (⟨e.val, by omega⟩ : Fin 3072) d) = ((w0 e d : ℝ) : EReal))
    (hw1 : ∀ (e d : Fin 1024), V c main_v4 (ix2 (⟨1024 + e.val, by omega⟩ : Fin 3072) d) = ((w1 e d : ℝ) : EReal))
    (hw2 : ∀ (e d : Fin 1024), V c main_v4 (ix2 (⟨2048 + e.val, by omega⟩ : Fin 3072) d) = ((w2 e d : ℝ) : EReal))
    (i : Fin 4096) (e : Fin 1024) :
    (dat0 V c).arrAt 2 cfg0.N (ix2 i e) = ((Cert.Spec.proj xr w0 i e : ℝ) : EReal)
    ∧ (dat0 V c).arrAt 3 cfg0.N (ix2 i e) = ((Cert.Spec.proj xr w0 i e - Cert.Spec.proj xr w0 i e : ℝ) : EReal)
    ∧ (dat0 V c).arrAt 4 cfg0.N (ix2 i e) = ((Cert.Spec.proj xr w1 i e : ℝ) : EReal)
    ∧ (dat0 V c).arrAt 5 cfg0.N (ix2 i e) = ((Cert.Spec.proj xr w1 i e - Cert.Spec.proj xr w1 i e : ℝ) : EReal)
    ∧ (dat0 V c).arrAt 6 cfg0.N (ix2 i e) = ((Cert.Spec.proj xr w2 i e : ℝ) : EReal) :=
  ⟨congrFun (array_q V c xr w0 hx hw0) (ix2 i e),
   congrFun (array_qrem V c xr w0 hx hw0) (ix2 i e),
   congrFun (array_k V c xr w1 hx hw1) (ix2 i e),
   congrFun (array_krem V c xr w1 hx hw1) (ix2 i e),
   congrFun (array_v V c xr w2 hx hw2) (ix2 i e)⟩

end Cert.KernelIdeal.Arr

end
-- ==== Proof.KPay2.lean ====
/-
  The second launch's attention value read at an index, over real inputs. For the 128 rows row r of a block:
  the scores against every row of q are the three products k·q + k·q' + k'·q (leading parts and remainders), a row's
  largest score is taken off, the exponentials are summed, they average the rows of v, and the average is divided by
  the sum.
-/
import proofs.«400652_j32040456029043_3_alg».proof.Proof.Gen.KernelIdeal.Skeleton
import proofs.«400652_j32040456029043_3_alg».proof.Proof.Spec
import proofs.«400652_j32040456029043_3_alg».proof.Proof.Scalars
import proofs.«400652_j32040456029043_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-! ## Sums of products of reals -/

/-- A sum of products of coerced reals is the coercion of the real sum of products. -/
theorem sum_coe_mul {ι : Type} [Fintype ι] (a b : ι → ℝ) :
    (∑ c : ι, (a c : EReal) * (b c : EReal)) = ((∑ c : ι, a c * b c : ℝ) : EReal) := by
  rw [Cert.Scalars.coe_sum]
  exact Finset.sum_congr rfl fun c _ => (EReal.coe_mul _ _).symm

/-! ## The two products at an index

  The scores' product contracts the second axis of both factors: entry (r, j) sums A (r, c) · B (j, c) over c.
  The averaging product contracts the second axis of the left factor with the first of the right: entry (r, e) sums
  P (r, j) · V (j, e) over j. Each operand index is read one axis at a time. -/

theorem lhs_dot_S128x1024_S4096x1024_S128x4096_1_1_0_0_n_n_0 (j : S128x4096.Idx) (k : dot_S128x1024_S4096x1024_S128x4096_1_1_0_0_n_n.contr.Idx) :
    (dot_S128x1024_S4096x1024_S128x4096_1_1_0_0_n_n.lhsIdx j k ⟨0, by decide⟩).val = (j ⟨0, by decide⟩).val := rfl

theorem lhs_dot_S128x1024_S4096x1024_S128x4096_1_1_0_0_n_n_1 (j : S128x4096.Idx) (k : dot_S128x1024_S4096x1024_S128x4096_1_1_0_0_n_n.contr.Idx) :
    (dot_S128x1024_S4096x1024_S128x4096_1_1_0_0_n_n.lhsIdx j k ⟨1, by decide⟩).val = (k ⟨0, by decide⟩).val :=
  dot_S128x1024_S4096x1024_S128x4096_1_1_0_0_n_n.lhsIdx_val_of_single (cl := ⟨1, by decide⟩) rfl j k

theorem rhs_dot_S128x1024_S4096x1024_S128x4096_1_1_0_0_n_n_0 (j : S128x4096.Idx) (k : dot_S128x1024_S4096x1024_S128x4096_1_1_0_0_n_n.contr.Idx) :
    (dot_S128x1024_S4096x1024_S128x4096_1_1_0_0_n_n.rhsIdx j k ⟨0, by decide⟩).val = (j ⟨1, by decide⟩).val := rfl

theorem rhs_dot_S128x1024_S4096x1024_S128x4096_1_1_0_0_n_n_1 (j : S128x4096.Idx) (k : dot_S128x1024_S4096x1024_S128x4096_1_1_0_0_n_n.contr.Idx) :
    (dot_S128x1024_S4096x1024_S128x4096_1_1_0_0_n_n.rhsIdx j k ⟨1, by decide⟩).val = (k ⟨0, by decide⟩).val :=
  dot_S128x1024_S4096x1024_S128x4096_1_1_0_0_n_n.rhsIdx_val_of_single (cr := ⟨1, by decide⟩) rfl j k

theorem lhs_dot_S128x4096_S4096x1024_S128x1024_1_0_0_1_n_n_0 (j : S128x1024.Idx) (k : dot_S128x4096_S4096x1024_S128x1024_1_0_0_1_n_n.contr.Idx) :
    (dot_S128x4096_S4096x1024_S128x1024_1_0_0_1_n_n.lhsIdx j k ⟨0, by decide⟩).val = (j ⟨0, by decide⟩).val := rfl

theorem lhs_dot_S128x4096_S4096x1024_S128x1024_1_0_0_1_n_n_1 (j : S128x1024.Idx) (k : dot_S128x4096_S4096x1024_S128x1024_1_0_0_1_n_n.contr.Idx) :
    (dot_S128x4096_S4096x1024_S128x1024_1_0_0_1_n_n.lhsIdx j k ⟨1, by decide⟩).val = (k ⟨0, by decide⟩).val :=
  dot_S128x4096_S4096x1024_S128x1024_1_0_0_1_n_n.lhsIdx_val_of_single (cl := ⟨1, by decide⟩) rfl j k

theorem rhs_dot_S128x4096_S4096x1024_S128x1024_1_0_0_1_n_n_0 (j : S128x1024.Idx) (k : dot_S128x4096_S4096x1024_S128x1024_1_0_0_1_n_n.contr.Idx) :
    (dot_S128x4096_S4096x1024_S128x1024_1_0_0_1_n_n.rhsIdx j k ⟨0, by decide⟩).val = (k ⟨0, by decide⟩).val :=
  dot_S128x4096_S4096x1024_S128x1024_1_0_0_1_n_n.rhsIdx_val_of_single (cr := ⟨0, by decide⟩) rfl j k

theorem rhs_dot_S128x4096_S4096x1024_S128x1024_1_0_0_1_n_n_1 (j : S128x1024.Idx) (k : dot_S128x4096_S4096x1024_S128x1024_1_0_0_1_n_n.contr.Idx) :
    (dot_S128x4096_S4096x1024_S128x1024_1_0_0_1_n_n.rhsIdx j k ⟨1, by decide⟩).val = (j ⟨1, by decide⟩).val := rfl

/-- The scores' product into a zero accumulator, at (r, j): the sum over c of A (r, c) · B (j, c). -/
theorem mm_qk_apply {φ₁ φ₂ : FTy} (A : FVec Ideal S128x1024 φ₁) (B : FVec Ideal S4096x1024 φ₂) (r : Fin 128) (j : Fin 4096) :
    matmul (F := Ideal) dot_S128x1024_S4096x1024_S128x4096_1_1_0_0_n_n none A B (constant S128x4096 .f32 0x00000000#32) (ix2 r j)
      = ∑ c : Fin 1024, A (ix2 r c) * B (ix2 j c) := by
  show FloatOps.matmul dot_S128x1024_S4096x1024_S128x4096_1_1_0_0_n_n none A B (constant S128x4096 .f32 0x00000000#32) (ix2 r j) = _
  rw [Ideal.matmul_constant_zero_apply, ← Equiv.sum_comp (contrEquiv1 dot_S128x1024_S4096x1024_S128x4096_1_1_0_0_n_n 1024 rfl rfl).symm]
  refine Finset.sum_congr rfl fun c _ => ?_
  have hc := contrEquiv1_symm_val dot_S128x1024_S4096x1024_S128x4096_1_1_0_0_n_n 1024 rfl rfl c
  have hl : dot_S128x1024_S4096x1024_S128x4096_1_1_0_0_n_n.lhsIdx (ix2 r j) ((contrEquiv1 dot_S128x1024_S4096x1024_S128x4096_1_1_0_0_n_n 1024 rfl rfl).symm c) = ix2 r c := by
    funext ax; apply Fin.ext
    match ax with
    | ⟨0, _⟩ => exact lhs_dot_S128x1024_S4096x1024_S128x4096_1_1_0_0_n_n_0 _ _
    | ⟨1, _⟩ => exact (lhs_dot_S128x1024_S4096x1024_S128x4096_1_1_0_0_n_n_1 _ _).trans hc
  have hr : dot_S128x1024_S4096x1024_S128x4096_1_1_0_0_n_n.rhsIdx (ix2 r j) ((contrEquiv1 dot_S128x1024_S4096x1024_S128x4096_1_1_0_0_n_n 1024 rfl rfl).symm c) = ix2 j c := by
    funext ax; apply Fin.ext
    match ax with
    | ⟨0, _⟩ => exact rhs_dot_S128x1024_S4096x1024_S128x4096_1_1_0_0_n_n_0 _ _
    | ⟨1, _⟩ => exact (rhs_dot_S128x1024_S4096x1024_S128x4096_1_1_0_0_n_n_1 _ _).trans hc
  rw [hl, hr]

/-- The averaging product into a zero accumulator, at (r, e): the sum over j of P (r, j) · V (j, e). -/
theorem mm_pv_apply {φ₁ φ₂ : FTy} (P : FVec Ideal S128x4096 φ₁) (V : FVec Ideal S4096x1024 φ₂) (r : Fin 128) (e : Fin 1024) :
    matmul (F := Ideal) dot_S128x4096_S4096x1024_S128x1024_1_0_0_1_n_n none P V (constant S128x1024 .f32 0x00000000#32) (ix2 r e)
      = ∑ j : Fin 4096, P (ix2 r j) * V (ix2 j e) := by
  show FloatOps.matmul dot_S128x4096_S4096x1024_S128x1024_1_0_0_1_n_n none P V (constant S128x1024 .f32 0x00000000#32) (ix2 r e) = _
  rw [Ideal.matmul_constant_zero_apply, ← Equiv.sum_comp (contrEquiv1 dot_S128x4096_S4096x1024_S128x1024_1_0_0_1_n_n 4096 rfl rfl).symm]
  refine Finset.sum_congr rfl fun c _ => ?_
  have hc := contrEquiv1_symm_val dot_S128x4096_S4096x1024_S128x1024_1_0_0_1_n_n 4096 rfl rfl c
  have hl : dot_S128x4096_S4096x1024_S128x1024_1_0_0_1_n_n.lhsIdx (ix2 r e) ((contrEquiv1 dot_S128x4096_S4096x1024_S128x1024_1_0_0_1_n_n 4096 rfl rfl).symm c) = ix2 r c := by
    funext ax; apply Fin.ext
    match ax with
    | ⟨0, _⟩ => exact lhs_dot_S128x4096_S4096x1024_S128x1024_1_0_0_1_n_n_0 _ _
    | ⟨1, _⟩ => exact (lhs_dot_S128x4096_S4096x1024_S128x1024_1_0_0_1_n_n_1 _ _).trans hc
  have hr : dot_S128x4096_S4096x1024_S128x1024_1_0_0_1_n_n.rhsIdx (ix2 r e) ((contrEquiv1 dot_S128x4096_S4096x1024_S128x1024_1_0_0_1_n_n 4096 rfl rfl).symm c) = ix2 c e := by
    funext ax; apply Fin.ext
    match ax with
    | ⟨0, _⟩ => exact (rhs_dot_S128x4096_S4096x1024_S128x1024_1_0_0_1_n_n_0 _ _).trans hc
    | ⟨1, _⟩ => exact rhs_dot_S128x4096_S4096x1024_S128x1024_1_0_0_1_n_n_1 _ _
  rw [hl, hr]

/-! ## The scores block -/

/-- The scores of a block: the three products, added. -/
def sc (v0 v2 : Vec Ideal S128x1024 .bf16) (v4 v6 : Vec Ideal S4096x1024 .bf16) : FVec Ideal S128x4096 .f32 :=
  addf
    (addf
      (matmul dot_S128x1024_S4096x1024_S128x4096_1_1_0_0_n_n none (shapeCast S128x1024 v0 shapeCasts_S128x1024_S128x1024 : FVec Ideal S128x1024 .bf16)
        (shapeCast S4096x1024 v4 shapeCasts_S4096x1024_S4096x1024 : FVec Ideal S4096x1024 .bf16)
        (constant S128x4096 .f32 0x00000000#32))
      (matmul dot_S128x1024_S4096x1024_S128x4096_1_1_0_0_n_n none (shapeCast S128x1024 v0 shapeCasts_S128x1024_S128x1024 : FVec Ideal S128x1024 .bf16)
        (shapeCast S4096x1024 v6 shapeCasts_S4096x1024_S4096x1024 : FVec Ideal S4096x1024 .bf16)
        (constant S128x4096 .f32 0x00000000#32)))
    (matmul dot_S128x1024_S4096x1024_S128x4096_1_1_0_0_n_n none (shapeCast S128x1024 v2 shapeCasts_S128x1024_S128x1024 : FVec Ideal S128x1024 .bf16)
      (shapeCast S4096x1024 v4 shapeCasts_S4096x1024_S4096x1024 : FVec Ideal S4096x1024 .bf16)
      (constant S128x4096 .f32 0x00000000#32))

/-- Over real inputs the scores block at (r, j) is the real scores' entry (row r, j). -/
theorem sc_apply (v0 v2 : Vec Ideal S128x1024 .bf16) (v4 v6 : Vec Ideal S4096x1024 .bf16)
    (khi klo qhi qlo : Cert.Spec.Mat 4096 1024) (row : Fin 128 → Fin 4096)
    (h0 : ∀ (r : Fin 128) (e : Fin 1024), v0 (ix2 r e) = ((khi (row r) e : ℝ) : EReal))
    (h2 : ∀ (r : Fin 128) (e : Fin 1024), v2 (ix2 r e) = ((klo (row r) e : ℝ) : EReal))
    (h4 : ∀ (j : Fin 4096) (e : Fin 1024), v4 (ix2 j e) = ((qhi j e : ℝ) : EReal))
    (h6 : ∀ (j : Fin 4096) (e : Fin 1024), v6 (ix2 j e) = ((qlo j e : ℝ) : EReal))
    (r : Fin 128) (j : Fin 4096) :
    sc v0 v2 v4 v6 (ix2 r j) = ((Cert.Spec.r1Scores khi klo qhi qlo (row r) j : ℝ) : EReal) := by
  unfold sc
  simp only [shapeCast_self]
  rw [addf_apply, addf_apply, mm_qk_apply, mm_qk_apply, mm_qk_apply]
  simp only [h0, h2, h4, h6]
  rw [sum_coe_mul, sum_coe_mul, sum_coe_mul, ← EReal.coe_add, ← EReal.coe_add]
  rfl

/-! ## The softmax and the average, over any scores block that holds reals -/

/-- The row maxima of a block. -/
def rmax (s : FVec Ideal S128x4096 .f32) : FVec Ideal S128 .f32 :=
  multiReduction (F := Ideal) .maximumf [1] S128 s 0xFF800000#32 reduces_S128x4096_S128 (.inl rfl) rfl

/-- The exponentials of the entries less their row's maximum. -/
def pw (s : FVec Ideal S128x4096 .f32) : FVec Ideal S128x4096 .f32 :=
  exp (subf s (broadcastTo S128x4096 (shapeCast S128x1 (rmax s) shapeCasts_S128_S128x1) broadcasts_S128x1_S128x4096))

/-- The row sums of the exponentials. -/
def rsum (s : FVec Ideal S128x4096 .f32) : FVec Ideal S128 .f32 :=
  multiReduction (F := Ideal) .add [1] S128 (pw s) 0x00000000#32 reduces_S128x4096_S128 (.inl rfl) rfl

/-- The averaged rows divided by the row sums. -/
def att (s : FVec Ideal S128x4096 .f32) (v20 : Vec Ideal S4096x1024 .bf16) : FVec Ideal S128x1024 .f32 :=
  divf
    (matmul dot_S128x4096_S4096x1024_S128x1024_1_0_0_1_n_n none (truncf .bf16 (pw s) bitsLt_bf16_f32)
      (shapeCast S4096x1024 v20 shapeCasts_S4096x1024_S4096x1024 : FVec Ideal S4096x1024 .bf16)
      (constant S128x1024 .f32 0x00000000#32))
    (broadcastTo S128x1024 (shapeCast S128x1 (rsum s) shapeCasts_S128_S128x1) broadcasts_S128x1_S128x1024)

section Softmax
variable (s : FVec Ideal S128x4096 .f32) (T : Cert.Spec.Mat 4096 4096) (row : Fin 128 → Fin 4096)
  (hs : ∀ (r : Fin 128) (j : Fin 4096), s (ix2 r j) = ((T (row r) j : ℝ) : EReal))

include hs in
/-- A row's maximum from -∞ is the real row's largest entry. -/
theorem rmax_apply (r : Fin 128) : rmax s (ix1 r) = ((Cert.Spec.rowMax T (row r) : ℝ) : EReal) := by
  unfold rmax
  refine (Cert.LibColumn.maxAxis1_apply s 0xFF800000#32 reduces_S128x4096_S128 (.inl rfl) rfl r).trans ?_
  rw [Cert.Scalars.ofBits_neg_inf]
  simp only [hs]
  exact Cert.Scalars.fold_max_coe (fun j => T (row r) j)

include hs in
/-- The exponentials are the real softmax numerators. -/
theorem pw_apply (r : Fin 128) (j : Fin 4096) : pw s (ix2 r j) = ((Cert.Spec.pexp T (row r) j : ℝ) : EReal) := by
  unfold pw
  show Ideal.exp (s (ix2 r j)
      - broadcastTo S128x4096 (shapeCast S128x1 (rmax s) shapeCasts_S128_S128x1) broadcasts_S128x1_S128x4096 (ix2 r j)) = _
  rw [Cert.LibColumn.broadcastTo_a1_ab_apply, Cert.LibColumn.shapeCast_a_a1_apply, rmax_apply s T row hs, hs,
    ← EReal.coe_sub, Ideal.exp_coe]
  rfl

include hs in
/-- The row sums are the real softmax denominators. -/
theorem rsum_apply (r : Fin 128) : rsum s (ix1 r) = ((Cert.Spec.rowSum (Cert.Spec.pexp T) (row r) : ℝ) : EReal) := by
  unfold rsum
  refine (Cert.LibColumn.sumAxis1_apply (pw s) 0x00000000#32 reduces_S128x4096_S128 (.inl rfl) rfl r).trans ?_
  simp only [pw_apply s T row hs]
  exact (Cert.Scalars.coe_sum Finset.univ (fun k => Cert.Spec.pexp T (row r) k)).symm

include hs in
/-- The averaged rows divided by the row sums are the real attention rows. -/
theorem att_apply (v20 : Vec Ideal S4096x1024 .bf16) (v : Cert.Spec.Mat 4096 1024)
    (h20 : ∀ (j : Fin 4096) (e : Fin 1024), v20 (ix2 j e) = ((v j e : ℝ) : EReal)) (r : Fin 128) (e : Fin 1024) :
    att s v20 (ix2 r e) = ((Cert.Spec.r1Attn T v (row r) e : ℝ) : EReal) := by
  unfold att
  show Ideal.div
      (matmul (F := Ideal) dot_S128x4096_S4096x1024_S128x1024_1_0_0_1_n_n none (truncf .bf16 (pw s) bitsLt_bf16_f32)
        (shapeCast S4096x1024 v20 shapeCasts_S4096x1024_S4096x1024 : FVec Ideal S4096x1024 .bf16)
        (constant S128x1024 .f32 0x00000000#32) (ix2 r e))
      (broadcastTo S128x1024 (shapeCast S128x1 (rsum s) shapeCasts_S128_S128x1) broadcasts_S128x1_S128x1024 (ix2 r e)) = _
  rw [mm_pv_apply, Cert.LibColumn.broadcastTo_a1_ab_apply, Cert.LibColumn.shapeCast_a_a1_apply, rsum_apply s T row hs,
    shapeCast_self]
  simp only [truncf_apply, pw_apply s T row hs, h20]
  rw [sum_coe_mul, Cert.Scalars.div_coe_coe _ (Cert.Scalars.rowSum_pexp_pos T (row r)).ne']
  rfl

end Softmax

/-! ## The value -/

variable (v0 v2 : Vec Ideal S128x1024 .bf16) (v4 v6 v20 : Vec Ideal S4096x1024 .bf16)
  (khi klo qhi qlo v : Cert.Spec.Mat 4096 1024) (row : Fin 128 → Fin 4096)
  (h0 : ∀ (r : Fin 128) (e : Fin 1024), v0 (ix2 r e) = ((khi (row r) e : ℝ) : EReal))
  (h2 : ∀ (r : Fin 128) (e : Fin 1024), v2 (ix2 r e) = ((klo (row r) e : ℝ) : EReal))
  (h4 : ∀ (j : Fin 4096) (e : Fin 1024), v4 (ix2 j e) = ((qhi j e : ℝ) : EReal))
  (h6 : ∀ (j : Fin 4096) (e : Fin 1024), v6 (ix2 j e) = ((qlo j e : ℝ) : EReal))
  (h20 : ∀ (j : Fin 4096) (e : Fin 1024), v20 (ix2 j e) = ((v j e : ℝ) : EReal))

include h0 h2 h4 h6 h20 in
theorem k1_pay2_apply (r : Fin 128) (e : Fin 1024) :
    k1_pay2 (F := Ideal) v0 v2 v4 v6 v20 (ix2 r e)
      = ((Cert.Spec.r1Attn (Cert.Spec.r1Scores khi klo qhi qlo) v (row r) e : ℝ) : EReal) := by
  show att (sc v0 v2 v4 v6) v20 (ix2 r e) = _
  exact att_apply (sc v0 v2 v4 v6) (Cert.Spec.r1Scores khi klo qhi qlo) row
    (sc_apply v0 v2 v4 v6 khi klo qhi qlo row h0 h2 h4 h6) v20 v h20 r e

end Cert.KernelIdeal.Pay

end
-- ==== Proof.KPay1.lean ====
/-
  The second launch's stored value read at an index, over real inputs: from the attention value a (its leading
  part, and its remainder a - a), the output projection as three products a·f + a·f' + (a - a)·f, plus bias and
  residual, then the row normalisation (mean, variance, inverse square root of variance plus eps, scale, shift).
-/
import proofs.«400652_j32040456029043_3_alg».proof.Proof.Gen.KernelIdeal.Skeleton
import proofs.«400652_j32040456029043_3_alg».proof.Proof.Spec
import proofs.«400652_j32040456029043_3_alg».proof.Proof.Scalars
import proofs.«400652_j32040456029043_3_alg».proof.Proof.LibColumn
import proofs.«400652_j32040456029043_3_alg».proof.Proof.KPay2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-! ## A product with the right factor contracted on its last axis, into a zero accumulator -/

/-- Read at (a, b), the product is the inner product of row a of the left factor with row b of the right one. -/
theorem matmul_nt_zero_apply {m k n : ℕ} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 _ k rfl rfl).symm c) = ix2 a c := by
    funext ax; apply Fin.ext
    match ax with
    | ⟨0, _⟩ => rfl
    | ⟨1, _⟩ => exact ((DotDims.transposedRhs m k n).lhsIdx_val_of_single (cl := 1) rfl _ _).trans hc
  have hr : (DotDims.transposedRhs m k n).rhsIdx (ix2 a b) ((contrEquiv1 _ k rfl rfl).symm c) = ix2 b c := by
    funext ax; apply Fin.ext
    match ax with
    | ⟨0, _⟩ => rfl
    | ⟨1, _⟩ => exact ((DotDims.transposedRhs m k n).rhsIdx_val_of_single (cr := 1) rfl _ _).trans hc
  rw [hl, hr]

/-! ## The stored value as stages -/

/-- Projection of the remainder added to the two leading products, then bias and residual. -/
def kH (v29 : FVec Ideal S128x1024 .bf16) (v31 : FVec Ideal S1024x1024 .bf16) (v36 : FVec Ideal S128x1024 .f32)
    (v39 : FVec Ideal S1x1024 .f32) (v43 : FVec Ideal S128x1024 .f32) : FVec Ideal S128x1024 .f32 :=
  addf (addf (addf v36 (matmul dot_S128x1024_S1024x1024_S128x1024_1_1_0_0_n_n none v29 v31
      (constant S128x1024 .f32 0x00000000#32)))
    (broadcastTo S128x1024 (shapeCast S1x1024 v39 shapeCasts_S1x1024_S1x1024) broadcasts_S1x1024_S128x1024)) v43

/-- Row means as a column. -/
def kMean (h : FVec Ideal S128x1024 .f32) : FVec Ideal S128x1 .f32 :=
  divf (shapeCast S128x1 (multiReduction .add [1] S128 h 0x00000000#32 reduces_S128x1024_S128 (.inl rfl) rfl)
      shapeCasts_S128_S128x1)
    (broadcast S128x1 (Scalar.ofBits .f32 0x44800000#32))

/-- Rows with their mean taken off. -/
def kCen (h : FVec Ideal S128x1024 .f32) : FVec Ideal S128x1024 .f32 :=
  subf h (broadcastTo S128x1024 (kMean h) broadcasts_S128x1_S128x1024)

/-- Row variances as a column. -/
def kVar (h : FVec Ideal S128x1024 .f32) : FVec Ideal S128x1 .f32 :=
  divf (shapeCast S128x1 (multiReduction .add [1] S128 (mulf (kCen h) (kCen h)) 0x00000000#32 reduces_S128x1024_S128
      (.inl rfl) rfl) shapeCasts_S128_S128x1)
    (broadcast S128x1 (Scalar.ofBits .f32 0x44800000#32))

/-- Row normalisation with scale and shift. -/
def kLn (h : FVec Ideal S128x1024 .f32) (v63 v67 : FVec Ideal S1x1024 .f32) : FVec Ideal S128x1024 .f32 :=
  addf
    (mulf
      (mulf (kCen h)
        (broadcastTo S128x1024 (rsqrt (addf (kVar h) (broadcast S128x1 (Scalar.ofBits .f32 0x3727C5AC#32))))
          broadcasts_S128x1_S128x1024))
      (broadcastTo S128x1024 (shapeCast S1x1024 v63 shapeCasts_S1x1024_S1x1024) broadcasts_S1x1024_S128x1024))
    (broadcastTo S128x1024 (shapeCast S1x1024 v67 shapeCasts_S1x1024_S1x1024) broadcasts_S1x1024_S128x1024)

/-- The stored value is the normalisation of the projected, biased, residual-added rows. -/
theorem k1_pay1_eq (v29 : FVec Ideal S128x1024 .bf16) (v31 : FVec Ideal S1024x1024 .bf16) (v36 : FVec Ideal S128x1024 .f32)
    (v39 : FVec Ideal S1x1024 .f32) (v43 : FVec Ideal S128x1024 .f32) (v63 v67 : FVec Ideal S1x1024 .f32) :
    k1_pay1 (F := Ideal) v29 v31 v36 v39 v43 v63 v67 = kLn (kH v29 v31 v36 v39 v43) v63 v67 := rfl

/-! ## The stages at an index -/

/-- A one-row array spread over the 128 rows reads, at (r, f), the row's entry f. -/
theorem krow_apply (u : FVec Ideal S1x1024 .f32) (r : Fin 128) (f : Fin 1024) :
    broadcastTo S128x1024 (shapeCast S1x1024 u shapeCasts_S1x1024_S1x1024) broadcasts_S1x1024_S128x1024 (ix2 r f)
      = u (ix2 (0 : Fin 1) f) := by
  rw [broadcastTo_1b_ab_apply, shapeCast_self]

/-- A column spread over the 1024 features reads, at (r, f), the column's entry of row r. -/
theorem kcol_apply (c : FVec Ideal S128x1 .f32) (r : Fin 128) (f : Fin 1024) :
    broadcastTo S128x1024 c broadcasts_S128x1_S128x1024 (ix2 r f) = c (ix2 r (0 : Fin 1)) :=
  Cert.LibColumn.broadcastTo_a1_ab_apply c broadcasts_S128x1_S128x1024 r f

/-- A row sum cast to a column reads, at (r, 0), the sum of row r. -/
theorem ksum_apply (h : FVec Ideal S128x1024 .f32) (r : Fin 128) :
    shapeCast S128x1 (multiReduction .add [1] S128 h 0x00000000#32 reduces_S128x1024_S128 (.inl rfl) rfl)
      shapeCasts_S128_S128x1 (ix2 r (0 : Fin 1)) = ∑ f : Fin 1024, h (ix2 r f) := by
  rw [Cert.LibColumn.shapeCast_a_a1_apply]
  exact Cert.LibColumn.sumAxis1_apply h _ reduces_S128x1024_S128 _ _ r

section Stages
variable (row : Fin 128 → Fin 4096)

/-- The rows before normalisation, at an index. -/
theorem kH_apply (v29 : FVec Ideal S128x1024 .bf16) (v31 : FVec Ideal S1024x1024 .bf16) (v36 : FVec Ideal S128x1024 .f32)
    (v39 : FVec Ideal S1x1024 .f32) (v43 : FVec Ideal S128x1024 .f32)
    (dr pr xr : Cert.Spec.Mat 4096 1024) (fw : Cert.Spec.Mat 1024 1024) (fb : Fin 1024 → ℝ)
    (h29 : ∀ (r : Fin 128) (e : Fin 1024), v29 (ix2 r e) = ((dr (row r) e : ℝ) : EReal))
    (h31 : ∀ (f e : Fin 1024), v31 (ix2 f e) = ((fw f e : ℝ) : EReal))
    (h36 : ∀ (r : Fin 128) (f : Fin 1024), v36 (ix2 r f) = ((pr (row r) f : ℝ) : EReal))
    (h39 : ∀ f : Fin 1024, v39 (ix2 (0 : Fin 1) f) = ((fb f : ℝ) : EReal))
    (h43 : ∀ (r : Fin 128) (f : Fin 1024), v43 (ix2 r f) = ((xr (row r) f : ℝ) : EReal))
    (r : Fin 128) (f : Fin 1024) :
    kH v29 v31 v36 v39 v43 (ix2 r f)
      = ((((pr (row r) f + ∑ e : Fin 1024, dr (row r) e * fw f e) + fb f) + xr (row r) f : ℝ) : EReal) := by
  unfold kH
  rw [addf_apply, addf_apply, addf_apply, krow_apply, h36, h39, h43]
  show ((((pr (row r) f : ℝ) : EReal)
      + matmul (DotDims.transposedRhs 128 1024 1024) none v29 v31 (constant (F := Ideal) _ .f32 0x00000000#32) (ix2 r f))
      + _) + _ = _
  rw [matmul_nt_zero_apply]
  simp only [h29, h31, ← EReal.coe_mul]
  rw [← Cert.Scalars.coe_sum, ← EReal.coe_add, ← EReal.coe_add, ← EReal.coe_add]

/-- The row mean, as a column, at (r, 0). -/
theorem kMean_apply (h : FVec Ideal S128x1024 .f32) (hr : Cert.Spec.Mat 4096 1024)
    (hh : ∀ (r : Fin 128) (f : Fin 1024), h (ix2 r f) = ((hr (row r) f : ℝ) : EReal)) (r : Fin 128) :
    kMean h (ix2 r (0 : Fin 1)) = ((Cert.Spec.mean hr (row r) : ℝ) : EReal) := by
  unfold kMean
  rw [divf_apply, ksum_apply, broadcast_apply]
  show Ideal.div _ (Ideal.ofBits .f32 0x44800000#32) = _
  rw [Cert.Scalars.ofBits_1024]
  simp only [hh]
  rw [← Cert.Scalars.coe_sum]
  exact Cert.Scalars.div_coe_coe _ (by norm_num)

/-- The centred rows at an index. -/
theorem kCen_apply (h : FVec Ideal S128x1024 .f32) (hr : Cert.Spec.Mat 4096 1024)
    (hh : ∀ (r : Fin 128) (f : Fin 1024), h (ix2 r f) = ((hr (row r) f : ℝ) : EReal)) (r : Fin 128) (f : Fin 1024) :
    kCen h (ix2 r f) = ((hr (row r) f - Cert.Spec.mean hr (row r) : ℝ) : EReal) := by
  unfold kCen
  rw [subf_apply, kcol_apply, kMean_apply row h hr hh, hh, ← EReal.coe_sub]

/-- The row variance, as a column, at (r, 0). -/
theorem kVar_apply (h : FVec Ideal S128x1024 .f32) (hr : Cert.Spec.Mat 4096 1024)
    (hh : ∀ (r : Fin 128) (f : Fin 1024), h (ix2 r f) = ((hr (row r) f : ℝ) : EReal)) (r : Fin 128) :
    kVar h (ix2 r (0 : Fin 1)) = ((Cert.Spec.var hr (row r) : ℝ) : EReal) := by
  unfold kVar
  rw [divf_apply, ksum_apply, broadcast_apply]
  show Ideal.div _ (Ideal.ofBits .f32 0x44800000#32) = _
  rw [Cert.Scalars.ofBits_1024]
  simp only [mulf_apply, kCen_apply row h hr hh, ← EReal.coe_mul]
  rw [← Cert.Scalars.coe_sum]
  exact Cert.Scalars.div_coe_coe _ (by norm_num)

/-- The normalised, scaled and shifted rows at an index. -/
theorem kLn_apply (h : FVec Ideal S128x1024 .f32) (v63 v67 : FVec Ideal S1x1024 .f32)
    (hr : Cert.Spec.Mat 4096 1024) (g b : Fin 1024 → ℝ)
    (hh : ∀ (r : Fin 128) (f : Fin 1024), h (ix2 r f) = ((hr (row r) f : ℝ) : EReal))
    (h63 : ∀ f : Fin 1024, v63 (ix2 (0 : Fin 1) f) = ((g f : ℝ) : EReal))
    (h67 : ∀ f : Fin 1024, v67 (ix2 (0 : Fin 1) f) = ((b f : ℝ) : EReal))
    (r : Fin 128) (f : Fin 1024) :
    kLn h v63 v67 (ix2 r f) = ((Cert.Spec.lnorm hr g b (row r) f : ℝ) : EReal) := by
  unfold kLn
  rw [addf_apply, mulf_apply, mulf_apply, krow_apply, krow_apply, kcol_apply, h63, h67, kCen_apply row h hr hh]
  show ((_ * Ideal.rsqrt (kVar h (ix2 r (0 : Fin 1)) + Ideal.ofBits .f32 0x3727C5AC#32)) * _) + _ = _
  rw [kVar_apply row h hr hh, Cert.Scalars.ofBits_eps, ← EReal.coe_add,
    Cert.Scalars.rsqrt_coe_pos (Cert.Scalars.var_add_eps_pos hr (row r)), ← EReal.coe_mul, ← EReal.coe_mul, ← EReal.coe_add]
  rfl

end Stages

/-! ## The values the first part hands over -/

section Handed
variable (v0 v2 : FVec Ideal S128x1024 .bf16) (v4 v6 v20 : FVec Ideal S4096x1024 .bf16) (v30 v32 : FVec Ideal S1024x1024 .bf16)
  (ar : Cert.Spec.Mat 4096 1024) (fwhi fwlo : Cert.Spec.Mat 1024 1024) (row : Fin 128 → Fin 4096)

/-- The remainder of the attention value is the difference of the value with itself. -/
theorem k1_pay3_apply
    (ha : ∀ (r : Fin 128) (e : Fin 1024), k1_pay2 (F := Ideal) v0 v2 v4 v6 v20 (ix2 r e) = ((ar (row r) e : ℝ) : EReal))
    (r : Fin 128) (e : Fin 1024) :
    k1_pay3 (F := Ideal) v0 v2 v4 v6 v20 (ix2 r e) = ((ar (row r) e - ar (row r) e : ℝ) : EReal) := by
  unfold k1_pay3
  show k1_pay2 (F := Ideal) v0 v2 v4 v6 v20 (ix2 r e) - k1_pay2 (F := Ideal) v0 v2 v4 v6 v20 (ix2 r e) = _
  rw [ha, ← EReal.coe_sub]

/-- The projection weight handed over is the weight itself. -/
theorem k1_pay4_apply (h30 : ∀ (f e : Fin 1024), v30 (ix2 f e) = ((fwhi f e : ℝ) : EReal)) (f e : Fin 1024) :
    k1_pay4 (F := Ideal) v30 (ix2 f e) = ((fwhi f e : ℝ) : EReal) := by
  unfold k1_pay4
  rw [shapeCast_self, h30]

/-- The two leading products of the output projection, at an index. -/
theorem k1_pay5_apply
    (ha : ∀ (r : Fin 128) (e : Fin 1024), k1_pay2 (F := Ideal) v0 v2 v4 v6 v20 (ix2 r e) = ((ar (row r) e : ℝ) : EReal))
    (h30 : ∀ (f e : Fin 1024), v30 (ix2 f e) = ((fwhi f e : ℝ) : EReal))
    (h32 : ∀ (f e : Fin 1024), v32 (ix2 f e) = ((fwlo f e : ℝ) : EReal))
    (r : Fin 128) (f : Fin 1024) :
    k1_pay5 (F := Ideal) v0 v2 v4 v6 v20 v30 v32 (ix2 r f)
      = (((∑ e : Fin 1024, ar (row r) e * fwhi f e) + (∑ e : Fin 1024, ar (row r) e * fwlo f e) : ℝ) : EReal) := by
  unfold k1_pay5
  show matmul (DotDims.transposedRhs 128 1024 1024) none (truncf .bf16 (k1_pay2 (F := Ideal) v0 v2 v4 v6 v20) bitsLt_bf16_f32)
        (k1_pay4 (F := Ideal) v30) (constant (F := Ideal) _ .f32 0x00000000#32) (ix2 r f)
      + matmul (DotDims.transposedRhs 128 1024 1024) none (truncf .bf16 (k1_pay2 (F := Ideal) v0 v2 v4 v6 v20) bitsLt_bf16_f32)
        (shapeCast S1024x1024 v32 shapeCasts_S1024x1024_S1024x1024) (constant (F := Ideal) _ .f32 0x00000000#32) (ix2 r f) = _
  rw [matmul_nt_zero_apply, matmul_nt_zero_apply, shapeCast_self]
  simp only [truncf_apply, ha, k1_pay4_apply v30 fwhi h30, h32, ← EReal.coe_mul]
  rw [← Cert.Scalars.coe_sum, ← Cert.Scalars.coe_sum, ← EReal.coe_add]

end Handed

/-! ## The stored value over the launch's inputs -/

variable (v0 v2 : Vec Ideal S128x1024 .bf16) (v4 v6 v20 : Vec Ideal S4096x1024 .bf16)
  (v30 v32 : Vec Ideal S1024x1024 .bf16) (v39 : Vec Ideal S1x1024 .f32) (v43 : Vec Ideal S128x1024 .f32)
  (v63 v67 : Vec Ideal S1x1024 .f32)
  (khi klo qhi qlo v x : Cert.Spec.Mat 4096 1024) (fwhi fwlo : Cert.Spec.Mat 1024 1024) (fb g b : Fin 1024 → ℝ)
  (row : Fin 128 → Fin 4096)
  (h0 : ∀ (r : Fin 128) (e : Fin 1024), v0 (ix2 r e) = ((khi (row r) e : ℝ) : EReal))
  (h2 : ∀ (r : Fin 128) (e : Fin 1024), v2 (ix2 r e) = ((klo (row r) e : ℝ) : EReal))
  (h4 : ∀ (j : Fin 4096) (e : Fin 1024), v4 (ix2 j e) = ((qhi j e : ℝ) : EReal))
  (h6 : ∀ (j : Fin 4096) (e : Fin 1024), v6 (ix2 j e) = ((qlo j e : ℝ) : EReal))
  (h20 : ∀ (j : Fin 4096) (e : Fin 1024), v20 (ix2 j e) = ((v j e : ℝ) : EReal))
  (h30 : ∀ (f e : Fin 1024), v30 (ix2 f e) = ((fwhi f e : ℝ) : EReal))
  (h32 : ∀ (f e : Fin 1024), v32 (ix2 f e) = ((fwlo f e : ℝ) : EReal))
  (h39 : ∀ f : Fin 1024, v39 (ix2 (0 : Fin 1) f) = ((fb f : ℝ) : EReal))
  (h43 : ∀ (r : Fin 128) (f : Fin 1024), v43 (ix2 r f) = ((x (row r) f : ℝ) : EReal))
  (h63 : ∀ f : Fin 1024, v63 (ix2 (0 : Fin 1) f) = ((g f : ℝ) : EReal))
  (h67 : ∀ f : Fin 1024, v67 (ix2 (0 : Fin 1) f) = ((b f : ℝ) : EReal))

include h0 h2 h4 h6 h20 h30 h32 h39 h43 h63 h67 in
theorem k1_out_apply (r : Fin 128) (f : Fin 1024) :
    k1_pay1 (F := Ideal) (k1_pay3 v0 v2 v4 v6 v20) (k1_pay4 v30) (k1_pay5 v0 v2 v4 v6 v20 v30 v32) v39 v43 v63 v67 (ix2 r f)
      = ((Cert.Spec.r1Out khi klo qhi qlo v x fwhi fwlo fb g b (row r) f : ℝ) : EReal) := by
  have ha := k1_pay2_apply v0 v2 v4 v6 v20 khi klo qhi qlo v row h0 h2 h4 h6 h20
  have h29 := k1_pay3_apply v0 v2 v4 v6 v20 _ row ha
  have h31 := k1_pay4_apply v30 fwhi h30
  have h36 := k1_pay5_apply v0 v2 v4 v6 v20 v30 v32 _ fwhi fwlo row ha h30 h32
  rw [k1_pay1_eq]
  exact kLn_apply row _ v63 v67 (Cert.Spec.r1H (Cert.Spec.r1Attn (Cert.Spec.r1Scores khi klo qhi qlo) v) fwhi fwlo fb x) g b
    (kH_apply row _ _ _ v39 v43
      (fun i e => Cert.Spec.r1Attn (Cert.Spec.r1Scores khi klo qhi qlo) v i e
        - Cert.Spec.r1Attn (Cert.Spec.r1Scores khi klo qhi qlo) v i e)
      (fun i f => (∑ e : Fin 1024, Cert.Spec.r1Attn (Cert.Spec.r1Scores khi klo qhi qlo) v i e * fwhi f e)
        + (∑ e : Fin 1024, Cert.Spec.r1Attn (Cert.Spec.r1Scores khi klo qhi qlo) v i e * fwlo f e))
      x fwhi fb h29 h31 h36 h39 h43) h63 h67 r f

end Cert.KernelIdeal.Pay

end
-- ==== Proof.KArr1.lean ====
/-
  The second launch's output array, whole: its 32 grid points write 32 blocks of 128 rows that tile the 4096 rows,
  and block t holds rows 128 t .. 128 t + 127 of one function of the entry arrays, so the array ends holding that
  function.
-/
import proofs.«400652_j32040456029043_3_alg».proof.Proof.KData
import proofs.«400652_j32040456029043_3_alg».proof.Proof.KPay1
import Idealize.ShloMosaic.Lib.ValueIdx
import Idealize.ShloMosaic.Lib.Pipeline.Value

set_option maxRecDepth 16384

noncomputable section

open scoped BigOperators

namespace Cert.KernelIdeal.Arr

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-! ## The grid: where each window's block sits at a point -/

theorem hz : (![0, 0] : Fin 2 → Nat) = fun _ => 0 := funext fun a => by fin_cases a <;> rfl

/-- The 32 points. -/
theorem N_eq : cfg1.N = 32 := N_1

/-- The blocked windows (k, its remainder, the residual, the output) sit at block (t, 0) at point t. -/
theorem idx_blocked : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_5.index t (0 : Fin 2) = t.val ∧ win1_5.index t (1 : Fin 2) = 0)
    ∧ (win1_11.index t (0 : Fin 2) = t.val ∧ win1_11.index t (1 : Fin 2) = 0) :=
  (by decide +kernel : ∀ t : Fin grid1.N, _)

/-- The resident windows sit at block (0, 0) at every point. -/
theorem idx_resident : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

/-! ## The input blocks at a point, read off the entry arrays -/

/-- Window 0's block at point t: its row r is row 128 t + r of the array. -/
theorem iblk1_0_apply (t : Fin cfg1.N) (r : Fin 128) (e : Fin 1024) (i : Fin 4096) (hi : i.val = 128 * t.val + r.val) :
    (iblk1 V c 0 t : Vec Ideal S128x1024 .bf16) (ix2 r e) = (V c main_v5_2 : S4096x1024.Idx → Elt Ideal .bf16) (ix2 i e) := by
  have h := idx_blocked t
  unfold iblk1
  rw [View.read_apply]
  show V c main_v5_2 _ = V c main_v5_2 _
  refine congrArg (V c main_v5_2) (funext fun a => Fin.ext ?_)
  match a with
  | ⟨0, _⟩ => show win1_0.index t (0 : Fin 2) * 128 + 1 * r.val = i.val; omega
  | ⟨1, _⟩ => show win1_0.index t (1 : Fin 2) * 1024 + 1 * e.val = e.val; omega

/-- Window 1's block at point t: its row r is row 128 t + r of the array. -/
theorem iblk1_1_apply (t : Fin cfg1.N) (r : Fin 128) (e : Fin 1024) (i : Fin 4096) (hi : i.val = 128 * t.val + r.val) :
    (iblk1 V c 1 t : Vec Ideal S128x1024 .bf16) (ix2 r e) = (V c main_v5_3 : S4096x1024.Idx → Elt Ideal .bf16) (ix2 i e) := by
  have h := idx_blocked t
  unfold iblk1
  rw [View.read_apply]
  show V c main_v5_3 _ = V c main_v5_3 _
  refine congrArg (V c main_v5_3) (funext fun a => Fin.ext ?_)
  match a with
  | ⟨0, _⟩ => show win1_1.index t (0 : Fin 2) * 128 + 1 * r.val = i.val; omega
  | ⟨1, _⟩ => show win1_1.index t (1 : Fin 2) * 1024 + 1 * e.val = e.val; omega

/-- Window 2's block at any point is the whole array. -/
theorem iblk1_2_apply (t : Fin cfg1.N) (r : Fin 4096) (e : Fin 1024) :
    (iblk1 V c 2 t : Vec Ideal S4096x1024 .bf16) (ix2 r e) = (V c main_v5_0 : S4096x1024.Idx → Elt Ideal .bf16) (ix2 r e) := by
  have h := idx_resident t
  unfold iblk1
  rw [View.read_apply]
  show V c main_v5_0 _ = V c main_v5_0 _
  refine congrArg (V c main_v5_0) (funext fun a => Fin.ext ?_)
  match a with
  | ⟨0, _⟩ => show win1_2.index t (0 : Fin 2) * 4096 + 1 * r.val = r.val; omega
  | ⟨1, _⟩ => show win1_2.index t (1 : Fin 2) * 1024 + 1 * e.val = e.val; omega

/-- Window 3's block at any point is the whole array. -/
theorem iblk1_3_apply (t : Fin cfg1.N) (r : Fin 4096) (e : Fin 1024) :
    (iblk1 V c 3 t : Vec Ideal S4096x1024 .bf16) (ix2 r e) = (V c main_v5_1 : S4096x1024.Idx → Elt Ideal .bf16) (ix2 r e) := by
  have h := idx_resident t
  unfold iblk1
  rw [View.read_apply]
  show V c main_v5_1 _ = V c main_v5_1 _
  refine congrArg (V c main_v5_1) (funext fun a => Fin.ext ?_)
  match a with
  | ⟨0, _⟩ => show win1_3.index t (0 : Fin 2) * 4096 + 1 * r.val = r.val; omega
  | ⟨1, _⟩ => show win1_3.index t (1 : Fin 2) * 1024 + 1 * e.val = e.val; omega

/-- Window 4's block at any point is the whole array. -/
theorem iblk1_4_apply (t : Fin cfg1.N) (r : Fin 4096) (e : Fin 1024) :
    (iblk1 V c 4 t : Vec Ideal S4096x1024 .bf16) (ix2 r e) = (V c main_v5_4 : S4096x1024.Idx → Elt Ideal .bf16) (ix2 r e) := by
  have h := idx_resident t
  unfold iblk1
  rw [View.read_apply]
  show V c main_v5_4 _ = V c main_v5_4 _
  refine congrArg (V c main_v5_4) (funext fun a => Fin.ext ?_)
  match a with
  | ⟨0, _⟩ => show win1_4.index t (0 : Fin 2) * 4096 + 1 * r.val = r.val; omega
  | ⟨1, _⟩ => show win1_4.index t (1 : Fin 2) * 1024 + 1 * e.val = e.val; omega

/-- Window 5's block at point t: its row r is row 128 t + r of the array. -/
theorem iblk1_5_apply (t : Fin cfg1.N) (r : Fin 128) (e : Fin 1024) (i : Fin 4096) (hi : i.val = 128 * t.val + r.val) :
    (iblk1 V c 5 t : Vec Ideal S128x1024 .f32) (ix2 r e) = (V c main_arg0 : S4096x1024.Idx → Elt Ideal .f32) (ix2 i e) := by
  have h := idx_blocked t
  unfold iblk1
  rw [View.read_apply]
  show V c main_arg0 _ = V c main_arg0 _
  refine congrArg (V c main_arg0) (funext fun a => Fin.ext ?_)
  match a with
  | ⟨0, _⟩ => show win1_5.index t (0 : Fin 2) * 128 + 1 * r.val = i.val; omega
  | ⟨1, _⟩ => show win1_5.index t (1 : Fin 2) * 1024 + 1 * e.val = e.val; omega

/-- Window 6's block at any point is the whole array. -/
theorem iblk1_6_apply (t : Fin cfg1.N) (r : Fin 1024) (e : Fin 1024) :
    (iblk1 V c 6 t : Vec Ideal S1024x1024 .bf16) (ix2 r e) = (V c main_v6 : S1024x1024.Idx → Elt Ideal .bf16) (ix2 r e) := by
  have h := idx_resident t
  unfold iblk1
  rw [View.read_apply]
  show V c main_v6 _ = V c main_v6 _
  refine congrArg (V c main_v6) (funext fun a => Fin.ext ?_)
  match a with
  | ⟨0, _⟩ => show win1_6.index t (0 : Fin 2) * 1024 + 1 * r.val = r.val; omega
  | ⟨1, _⟩ => show win1_6.index t (1 : Fin 2) * 1024 + 1 * e.val = e.val; omega

/-- Window 7's block at any point is the whole array. -/
theorem iblk1_7_apply (t : Fin cfg1.N) (r : Fin 1024) (e : Fin 1024) :
    (iblk1 V c 7 t : Vec Ideal S1024x1024 .bf16) (ix2 r e) = (V c main_v9 : S1024x1024.Idx → Elt Ideal .bf16) (ix2 r e) := by
  have h := idx_resident t
  unfold iblk1
  rw [View.read_apply]
  show V c main_v9 _ = V c main_v9 _
  refine congrArg (V c main_v9) (funext fun a => Fin.ext ?_)
  match a with
  | ⟨0, _⟩ => show win1_7.index t (0 : Fin 2) * 1024 + 1 * r.val = r.val; omega
  | ⟨1, _⟩ => show win1_7.index t (1 : Fin 2) * 1024 + 1 * e.val = e.val; omega

/-- Window 8's block at any point is the whole array. -/
theorem iblk1_8_apply (t : Fin cfg1.N) (r : Fin 1) (e : Fin 1024) :
    (iblk1 V c 8 t : Vec Ideal S1x1024 .f32) (ix2 r e) = (V c main_v10 : S1x1024.Idx → Elt Ideal .f32) (ix2 r e) := by
  have h := idx_resident t
  unfold iblk1
  rw [View.read_apply]
  show V c main_v10 _ = V c main_v10 _
  refine congrArg (V c main_v10) (funext fun a => Fin.ext ?_)
  match a with
  | ⟨0, _⟩ => show win1_8.index t (0 : Fin 2) * 1 + 1 * r.val = r.val; omega
  | ⟨1, _⟩ => show win1_8.index t (1 : Fin 2) * 1024 + 1 * e.val = e.val; omega

/-- Window 9's block at any point is the whole array. -/
theorem iblk1_9_apply (t : Fin cfg1.N) (r : Fin 1) (e : Fin 1024) :
    (iblk1 V c 9 t : Vec Ideal S1x1024 .f32) (ix2 r e) = (V c main_v11 : S1x1024.Idx → Elt Ideal .f32) (ix2 r e) := by
  have h := idx_resident t
  unfold iblk1
  rw [View.read_apply]
  show V c main_v11 _ = V c main_v11 _
  refine congrArg (V c main_v11) (funext fun a => Fin.ext ?_)
  match a with
  | ⟨0, _⟩ => show win1_9.index t (0 : Fin 2) * 1 + 1 * r.val = r.val; omega
  | ⟨1, _⟩ => show win1_9.index t (1 : Fin 2) * 1024 + 1 * e.val = e.val; omega

/-- Window 10's block at any point is the whole array. -/
theorem iblk1_10_apply (t : Fin cfg1.N) (r : Fin 1) (e : Fin 1024) :
    (iblk1 V c 10 t : Vec Ideal S1x1024 .f32) (ix2 r e) = (V c main_v12 : S1x1024.Idx → Elt Ideal .f32) (ix2 r e) := by
  have h := idx_resident t
  unfold iblk1
  rw [View.read_apply]
  show V c main_v12 _ = V c main_v12 _
  refine congrArg (V c main_v12) (funext fun a => Fin.ext ?_)
  match a with
  | ⟨0, _⟩ => show win1_10.index t (0 : Fin 2) * 1 + 1 * r.val = r.val; omega
  | ⟨1, _⟩ => show win1_10.index t (1 : Fin 2) * 1024 + 1 * e.val = e.val; omega

/-! ## What a point writes back -/

/-- The whole output as one function of the real inputs. -/
abbrev Gout (khi klo qhi qlo v x : Cert.Spec.Mat 4096 1024) (fwhi fwlo : Cert.Spec.Mat 1024 1024) (fb g b : Fin 1024 → ℝ) :
    S4096x1024.Idx → Elt Ideal .f32 :=
  fun j => ((Cert.Spec.r1Out khi klo qhi qlo v x fwhi fwlo fb g b (j 0) (j 1) : ℝ) : EReal)

/-- The rows of block t. -/
def rowAt (t : Fin cfg1.N) (r : Fin 128) : Fin 4096 :=
  ⟨128 * t.val + r.val, by have := t.isLt; have := N_eq; have := r.isLt; omega⟩

/-- Point t writes back rows 128 t .. 128 t + 127 of the output function. -/
theorem flushed_eq (khi klo qhi qlo v x : Cert.Spec.Mat 4096 1024) (fwhi fwlo : Cert.Spec.Mat 1024 1024)
    (fb g b : Fin 1024 → ℝ)
    (h0 : ∀ (i : Fin 4096) (e : Fin 1024), V c main_v5_2 (ix2 i e) = ((khi i e : ℝ) : EReal))
    (h1 : ∀ (i : Fin 4096) (e : Fin 1024), V c main_v5_3 (ix2 i e) = ((klo i e : ℝ) : EReal))
    (h2 : ∀ (i : Fin 4096) (e : Fin 1024), V c main_v5_0 (ix2 i e) = ((qhi i e : ℝ) : EReal))
    (h3 : ∀ (i : Fin 4096) (e : Fin 1024), V c main_v5_1 (ix2 i e) = ((qlo i e : ℝ) : EReal))
    (h4 : ∀ (i : Fin 4096) (e : Fin 1024), V c main_v5_4 (ix2 i e) = ((v i e : ℝ) : EReal))
    (h5 : ∀ (i : Fin 4096) (e : Fin 1024), V c main_arg0 (ix2 i e) = ((x i e : ℝ) : EReal))
    (h6 : ∀ (f e : Fin 1024), V c main_v6 (ix2 f e) = ((fwhi f e : ℝ) : EReal))
    (h7 : ∀ (f e : Fin 1024), V c main_v9 (ix2 f e) = ((fwlo f e : ℝ) : EReal))
    (h8 : ∀ f : Fin 1024, V c main_v10 (ix2 (0 : Fin 1) f) = ((fb f : ℝ) : EReal))
    (h9 : ∀ f : Fin 1024, V c main_v11 (ix2 (0 : Fin 1) f) = ((g f : ℝ) : EReal))
    (h10 : ∀ f : Fin 1024, V c main_v12 (ix2 (0 : Fin 1) f) = ((b f : ℝ) : EReal))
    (t : Fin cfg1.N) :
    (dat1 V c).flushed 11 t
      = ((cfg1.win 11).blk t).view.read (Elt Ideal) (Gout khi klo qhi qlo v x fwhi fwlo fb g b) := by
  show (cfg1.win 11).cut (grid1.coords t) ((dat1 V c).after 11 t) = _
  rw [after1_11]
  unfold out1_11
  rw [View.canon_unit_zero hz]
  funext y
  obtain ⟨p, q, rfl⟩ : ∃ (p : Fin 128) (q : Fin 1024), y = ix2 p q := ⟨y 0, y 1, eq_ix2 y⟩
  show pay1 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (ix2 p q)
    = Gout khi klo qhi qlo v x fwhi fwlo fb g b (((cfg1.win 11).blk t).view.emb (ix2 p q))
  unfold pay1
  simp only [View.ld_unit_zero (S := S128x1024) hz, View.ld_unit_zero (S := S4096x1024) hz,
    View.ld_unit_zero (S := S1024x1024) hz, View.ld_unit_zero (S := S1x1024) hz]
  refine (Cert.KernelIdeal.Pay.k1_out_apply (iblk1 V c 0 t) (iblk1 V c 1 t) (iblk1 V c 2 t) (iblk1 V c 3 t) (iblk1 V c 4 t)
    (iblk1 V c 6 t) (iblk1 V c 7 t) (iblk1 V c 8 t) (iblk1 V c 5 t) (iblk1 V c 9 t) (iblk1 V c 10 t)
    khi klo qhi qlo v x fwhi fwlo fb g b (rowAt t)
    (fun r e => (iblk1_0_apply V c t r e (rowAt t r) rfl).trans (h0 _ _))
    (fun r e => (iblk1_1_apply V c t r e (rowAt t r) rfl).trans (h1 _ _))
    (fun j e => (iblk1_2_apply V c t j e).trans (h2 _ _))
    (fun j e => (iblk1_3_apply V c t j e).trans (h3 _ _))
    (fun j e => (iblk1_4_apply V c t j e).trans (h4 _ _))
    (fun f e => (iblk1_6_apply V c t f e).trans (h6 _ _))
    (fun f e => (iblk1_7_apply V c t f e).trans (h7 _ _))
    (fun f => (iblk1_8_apply V c t 0 f).trans (h8 _))
    (fun r f => (iblk1_5_apply V c t r f (rowAt t r) rfl).trans (h5 _ _))
    (fun f => (iblk1_9_apply V c t 0 f).trans (h9 _))
    (fun f => (iblk1_10_apply V c t 0 f).trans (h10 _)) p q).trans ?_
  have h := idx_blocked t
  have e0 : ((cfg1.win 11).blk t).view.emb (ix2 p q) 0 = rowAt t p :=
    Fin.ext (by show win1_11.index t (0 : Fin 2) * 128 + 1 * p.val = 128 * t.val + p.val; omega)
  have e1 : ((cfg1.win 11).blk t).view.emb (ix2 p q) 1 = q :=
    Fin.ext (by show win1_11.index t (1 : Fin 2) * 1024 + 1 * q.val = q.val; omega)
  show _ = ((Cert.Spec.r1Out khi klo qhi qlo v x fwhi fwlo fb g b
    (((cfg1.win 11).blk t).view.emb (ix2 p q) 0) (((cfg1.win 11).blk t).view.emb (ix2 p q) 1) : ℝ) : EReal)
  rw [e0, e1]

/-! ## The blocks tile the rows -/

/-- An index of the output is in point t's block iff each coordinate is in the block's range on its axis. -/
theorem mem_blk (t : Fin cfg1.N) (i : S4096x1024.Idx) :
    i ∈ ((cfg1.win 11).blk t).view.set ↔ ∀ a : Fin 2, win1_11.index t a * S128x1024.size a ≤ (i a).val
      ∧ (i a).val < win1_11.index t a * S128x1024.size a + S128x1024.size a := by
  show i ∈ ((View.whole main_v13).slice (win1_11.rect t)).set ↔ _
  rw [View.set_slice_whole, Rect.mem_set_unit]
  exact Iff.rfl

/-- Row i is in the block of point i / 128. -/
theorem cover (i : S4096x1024.Idx) :
    ∃ t : Fin cfg1.N, (cfg1.win 11).flush t = true ∧ i ∈ ((cfg1.win 11).blk t).view.set := by
  have hi0 : (i 0).val < 4096 := (i 0).isLt
  have hi1 : (i 1).val < 1024 := (i 1).isLt
  have hN := N_eq
  obtain ⟨t, ht⟩ : ∃ t : Fin cfg1.N, t.val = (i 0).val / 128 := ⟨⟨(i 0).val / 128, by omega⟩, rfl⟩
  refine ⟨t, flush1_11 t, ?_⟩
  rw [mem_blk]
  have h := idx_blocked t
  intro a
  match a with
  | ⟨0, _⟩ =>
    show win1_11.index t (0 : Fin 2) * 128 ≤ (i 0).val ∧ (i 0).val < win1_11.index t (0 : Fin 2) * 128 + 128
    omega
  | ⟨1, _⟩ =>
    show win1_11.index t (1 : Fin 2) * 1024 ≤ (i 1).val ∧ (i 1).val < win1_11.index t (1 : Fin 2) * 1024 + 1024
    omega

/-! ## The array -/

theorem region1_value (khi klo qhi qlo v x : Cert.Spec.Mat 4096 1024) (fwhi fwlo : Cert.Spec.Mat 1024 1024)
    (fb g b : Fin 1024 → ℝ)
    (h0 : ∀ (i : Fin 4096) (e : Fin 1024), V c main_v5_2 (ix2 i e) = ((khi i e : ℝ) : EReal))
    (h1 : ∀ (i : Fin 4096) (e : Fin 1024), V c main_v5_3 (ix2 i e) = ((klo i e : ℝ) : EReal))
    (h2 : ∀ (i : Fin 4096) (e : Fin 1024), V c main_v5_0 (ix2 i e) = ((qhi i e : ℝ) : EReal))
    (h3 : ∀ (i : Fin 4096) (e : Fin 1024), V c main_v5_1 (ix2 i e) = ((qlo i e : ℝ) : EReal))
    (h4 : ∀ (i : Fin 4096) (e : Fin 1024), V c main_v5_4 (ix2 i e) = ((v i e : ℝ) : EReal))
    (h5 : ∀ (i : Fin 4096) (e : Fin 1024), V c main_arg0 (ix2 i e) = ((x i e : ℝ) : EReal))
    (h6 : ∀ (f e : Fin 1024), V c main_v6 (ix2 f e) = ((fwhi f e : ℝ) : EReal))
    (h7 : ∀ (f e : Fin 1024), V c main_v9 (ix2 f e) = ((fwlo f e : ℝ) : EReal))
    (h8 : ∀ f : Fin 1024, V c main_v10 (ix2 (0 : Fin 1) f) = ((fb f : ℝ) : EReal))
    (h9 : ∀ f : Fin 1024, V c main_v11 (ix2 (0 : Fin 1) f) = ((g f : ℝ) : EReal))
    (h10 : ∀ f : Fin 1024, V c main_v12 (ix2 (0 : Fin 1) f) = ((b f : ℝ) : EReal))
    (i : Fin 4096) (f : Fin 1024) :
    (dat1 V c).arrAt 11 cfg1.N (ix2 i f)
      = ((Cert.Spec.r1Out khi klo qhi qlo v x fwhi fwlo fb g b i f : ℝ) : EReal) := by
  have hA := (dat1 V c).arrAt_eq_of_cover 11 (Gout khi klo qhi qlo v x fwhi fwlo fb g b)
    (fun t _ => flushed_eq V c khi klo qhi qlo v x fwhi fwlo fb g b h0 h1 h2 h3 h4 h5 h6 h7 h8 h9 h10 t) (cover)
  exact congrFun hA (ix2 i f)

end Cert.KernelIdeal.Arr

end
-- ==== Proof.KGlue.lean ====
/-
  The kernel program's result over real inputs. The result buffer ends at what the second launch's write-backs leave
  in its output array; that array is the second launch's function of the arrays it enters with; those are the first
  launch's five arrays (the projections of the activations by the scaled first weight, the second and the third, and
  two differences of a projection with itself), the activations as launched, and the host's rounded output weight,
  its remainder, and the one-row bias, scale and shift. Put together this is the second arrangement of the
  attention block.
-/
import proofs.«400652_j32040456029043_3_alg».proof.Proof.KHost
import proofs.«400652_j32040456029043_3_alg».proof.Proof.KArr0
import proofs.«400652_j32040456029043_3_alg».proof.Proof.KArr1

set_option maxRecDepth 16384

noncomputable section

open scoped BigOperators

namespace Cert.KernelIdeal.Glue

open Cert.KernelIdeal Cert.KernelIdeal.Gen Cert.KernelIdeal.Hand
open Idealize.ShloMosaic Idealize.ShloMosaic.TcCoe Idealize.ShloMosaic.ValueIdx
open Idealize.SL.Sem

theorem kernel_value (m : (ℓ : Loc nD τ sig) → Buf (Elt Ideal) ℓ) (c : Dev nD)
    (xr : Cert.Spec.Mat 4096 1024) (wqr wkr wvr fwr : Cert.Spec.Mat 1024 1024) (fbr gr br : Fin 1024 → ℝ)
    (hx : ∀ (i : Fin 4096) (d : Fin 1024), m ((c : Thread nD τ).loc main_arg0) (ix2 i d) = ((xr i d : ℝ) : EReal))
    (hwq : ∀ (e d : Fin 1024), m ((c : Thread nD τ).loc main_arg1) (ix2 e d) = ((wqr e d : ℝ) : EReal))
    (hwk : ∀ (e d : Fin 1024), m ((c : Thread nD τ).loc main_arg2) (ix2 e d) = ((wkr e d : ℝ) : EReal))
    (hwv : ∀ (e d : Fin 1024), m ((c : Thread nD τ).loc main_arg3) (ix2 e d) = ((wvr e d : ℝ) : EReal))
    (hfw : ∀ (e d : Fin 1024), m ((c : Thread nD τ).loc main_arg4) (ix2 e d) = ((fwr e d : ℝ) : EReal))
    (hfb : ∀ f : Fin 1024, m ((c : Thread nD τ).loc main_arg5) (ix1 f) = ((fbr f : ℝ) : EReal))
    (hg : ∀ f : Fin 1024, m ((c : Thread nD τ).loc main_arg6) (ix1 f) = ((gr f : ℝ) : EReal))
    (hb : ∀ f : Fin 1024, m ((c : Thread nD τ).loc main_arg7) (ix1 f) = ((br f : ℝ) : EReal))
    (i : Fin 4096) (f : Fin 1024) :
    Cert.KernelIdeal.Hand.W4 m c (Proc.devRef .tc main_v13) (ix2 i f)
      = ((Cert.Spec.kerOut xr wqr wkr wvr fwr fbr gr br i f : ℝ) : EReal) := by
  -- the first launch's five arrays, from the host's activations and stacked weight
  have R0 := fun (i : Fin 4096) (e : Fin 1024) =>
    Cert.KernelIdeal.Arr.region0_value (E1 m) c xr (Cert.Spec.wqs wqr) wkr wvr
      (W1_main_v0_apply m c xr hx) (W1_main_v4_apply_q m c wqr hwq) (W1_main_v4_apply_k m c wkr hwk)
      (W1_main_v4_apply_v m c wvr hwv) i e
  refine (congrFun (W4_main_v13 m c) (ix2 i f)).trans ?_
  unfold Cert.Spec.kerOut
  exact Cert.KernelIdeal.Arr.region1_value (E3 m) c
    (Cert.Spec.proj xr wkr) (fun i e => Cert.Spec.proj xr wkr i e - Cert.Spec.proj xr wkr i e)
    (Cert.Spec.proj xr (Cert.Spec.wqs wqr))
    (fun i e => Cert.Spec.proj xr (Cert.Spec.wqs wqr) i e - Cert.Spec.proj xr (Cert.Spec.wqs wqr) i e)
    (Cert.Spec.proj xr wvr) xr fwr (fun f e => fwr f e - fwr f e) fbr gr br
    (fun i e => (congrFun (W3_main_v5_2 m c) (ix2 i e)).trans (R0 i e).2.2.1)
    (fun i e => (congrFun (W3_main_v5_3 m c) (ix2 i e)).trans (R0 i e).2.2.2.1)
    (fun i e => (congrFun (W3_main_v5_0 m c) (ix2 i e)).trans (R0 i e).1)
    (fun i e => (congrFun (W3_main_v5_1 m c) (ix2 i e)).trans (R0 i e).2.1)
    (fun i e => (congrFun (W3_main_v5_4 m c) (ix2 i e)).trans (R0 i e).2.2.2.2)
    (fun i e => (congrFun (W3_main_arg0 m c) (ix2 i e)).trans (hx i e))
    (W3_main_v6_apply m c fwr hfw) (W3_main_v9_apply m c fwr hfw)
    (W3_main_v10_apply m c fbr hfb) (W3_main_v11_apply m c gr hg) (W3_main_v12_apply m c br hb) i f

end Cert.KernelIdeal.Glue

end
-- ==== Proof.RefRead.lean ====
/-
  The reference's result read at an index, over real inputs.

  When every input array holds, at each index, the coercion of a real number, each stage of the reference's term
  holds, at each index, the coercion of the corresponding stage of the real-valued specification: the projections
  x · wᵀ are inner products of rows, the scores are inner products over sqrt 1024, the guarded row maximum is the
  row's largest entry, the softmax numerators and weights are the exponentials and their quotients by the (positive)
  row sum, the weighted average and the output projection are sums of products, the row mean and variance are the
  sums over 1024 (the variance's divisor 1024 - 0 is positive, so its guard takes the quotient), and the
  normalisation multiplies the centred entry by the inverse square root of the (positive) variance plus eps. No
  stage leaves the reals: every quotient has a non-zero real divisor and every inverse square root a positive
  argument. Composing the stages gives the whole term at (i, f) as the coercion of refOut at (i, f).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws
import proofs.«400652_j32040456029043_3_alg».proof.Proof.RefTerm
import proofs.«400652_j32040456029043_3_alg».proof.Proof.Spec
import proofs.«400652_j32040456029043_3_alg».proof.Proof.Scalars
import proofs.«400652_j32040456029043_3_alg».proof.Proof.LibColumn

noncomputable section

open scoped BigOperators

namespace Cert.RefRead

open Idealize.ShloMosaic Idealize.ShloMosaic.ValueIdx Cert.ReferenceIdeal Cert.ReferenceIdeal.Gen
open Cert.RefTerm Cert.Spec Cert.Scalars Cert.LibColumn

/-- A product with the right factor contracted on its last axis, read at an index. -/
theorem dotGeneral_nt_apply {m k n : ℕ} {φ₁ φ₂ : FTy} (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 _ k rfl rfl).symm c) = ix2 a c := by
    funext ax; apply Fin.ext
    match ax with
    | ⟨0, _⟩ => rfl
    | ⟨1, _⟩ => exact ((DotDims.transposedRhs m k n).lhsIdx_val_of_single (cl := 1) rfl _ _).trans hc
  have hr : (DotDims.transposedRhs m k n).rhsIdx (ix2 a b) ((contrEquiv1 _ k rfl rfl).symm c) = ix2 b c := by
    funext ax; apply Fin.ext
    match ax with
    | ⟨0, _⟩ => rfl
    | ⟨1, _⟩ => exact ((DotDims.transposedRhs m k n).rhsIdx_val_of_single (cr := 1) rfl _ _).trans hc
  rw [hl, hr]

/-- The projection stage at an index. -/
theorem tproj_apply (x : FVec Ideal S4096x1024 .f32) (w : FVec Ideal S1024x1024 .f32)
    (xr : Mat 4096 1024) (wr : Mat 1024 1024)
    (hx : ∀ (i : Fin 4096) (d : Fin 1024), x (ix2 i d) = ((xr i d : ℝ) : EReal))
    (hw : ∀ (e d : Fin 1024), w (ix2 e d) = ((wr e d : ℝ) : EReal))
    (i : Fin 4096) (e : Fin 1024) :
    tproj (F := Ideal) x w (ix2 i e) = ((proj xr wr i e : ℝ) : EReal) := by
  unfold tproj
  show Host.dotGeneral (DotDims.plain 4096 1024 1024) none x _ (ix2 i e) = _
  rw [StackMember.dotGeneral_plain_apply]
  unfold proj
  rw [coe_sum]
  refine Finset.sum_congr rfl fun d _ => ?_
  rw [transpose_ix2_apply, hx, hw, EReal.coe_mul]

/-! ## Operations the stages share, read at an index -/

section Shared
variable {s : Shape} {φ : FTy}

/-- The host's quotient at an index is the quotient of the entries. -/
theorem hostDivf_apply (a b : FVec Ideal s φ) (i : s.Idx) : Host.divf a b i = Ideal.div (a i) (b i) := rfl

/-- The host's exponential at an index is the exponential of the entry. -/
theorem hostExp_apply (a : FVec Ideal s φ) (i : s.Idx) : Host.exp a i = Ideal.exp (a i) := rfl

/-- The host's square root at an index is the square root of the entry. -/
theorem hostSqrt_apply (a : FVec Ideal s φ) (i : s.Idx) : Host.sqrt a i = Ideal.sqrt (a i) := rfl

/-- The host's inverse square root at an index is the inverse square root of the entry. -/
theorem hostRsqrt_apply (a : FVec Ideal s φ) (i : s.Idx) : Host.rsqrt a i = Ideal.rsqrt (a i) := rfl

/-- A rank-zero value spread over any shape reads that value everywhere. -/
theorem bcast0_apply {α : Type} {t : Shape} (h : S_.BroadcastsInDim t (![] : Fin 0 → Fin t.rank)) (v : S_.Idx → α)
    (j : t.Idx) : broadcastInDim t ![] h v j = v ix0 :=
  broadcastInDim_apply _ h v j ix0 fun a => a.elim0

/-- The host's sum of a matrix along its columns is, at row r, the initial value plus the sum of that row. -/
theorem hostSumAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduceAdd x init h' hu (ix1 r) = init (Shape.Idx.first hu) + ∑ k : Fin b, x (ix2 r k) :=
  (Ideal.hostReduceAdd_single h' h x (init (Shape.Idx.first hu)) (ix1 r)).trans
    (congrArg (fun z => init (Shape.Idx.first hu) + z) (Finset.sum_congr rfl fun k _ => congrArg x (lift_axis1 h r k)))

end Shared

/-- A per-row value spread over its row reads, at (i, j), the value of row i. -/
theorem tcol_apply (v : FVec Ideal S4096 .f32) (i j : Fin 4096) : tcol (F := Ideal) v (ix2 i j) = v (ix1 i) := by
  unfold tcol
  rw [broadcastInDim_apply _ bcast_S4096x1_S4096x4096_0_1 _ (ix2 i j) (ix2 i (0 : Fin 1))
      (fun a => match a with | ⟨0, _⟩ => rfl | ⟨1, _⟩ => rfl),
    broadcastInDim_apply _ bcast_S4096_S4096x1_0 v (ix2 i (0 : Fin 1)) (ix1 i) (fun a => match a with | ⟨0, _⟩ => rfl)]

/-- A per-feature value spread over the rows reads, at (i, f), the value of feature f. -/
theorem trow_apply (u : FVec Ideal S1024 .f32) (i : Fin 4096) (f : Fin 1024) : trow (F := Ideal) u (ix2 i f) = u (ix1 f) := by
  unfold trow
  rw [broadcastInDim_apply _ bcast_S1x1024_S4096x1024_0_1 _ (ix2 i f) (ix2 (0 : Fin 1) f)
      (fun a => match a with | ⟨0, _⟩ => rfl | ⟨1, _⟩ => rfl),
    broadcastInDim_apply _ bcast_S1024_S1x1024_1 u (ix2 (0 : Fin 1) f) (ix1 f) (fun a => match a with | ⟨0, _⟩ => rfl)]

/-- A column spread over 1024 features reads, at (i, f), the column's entry of row i. -/
theorem bcol_apply (v : FVec Ideal S4096x1 .f32) (i : Fin 4096) (f : Fin 1024) :
    broadcastInDim S4096x1024 ![0, 1] bcast_S4096x1_S4096x1024_0_1 v (ix2 i f) = v (ix2 i (0 : Fin 1)) :=
  broadcastInDim_apply _ bcast_S4096x1_S4096x1024_0_1 v (ix2 i f) (ix2 i (0 : Fin 1))
    (fun a => match a with | ⟨0, _⟩ => rfl | ⟨1, _⟩ => rfl)

/-- A per-row value as a column reads, at (i, 0), the value of row i. -/
theorem vcol_apply (v : FVec Ideal S4096 .f32) (i : Fin 4096) :
    broadcastInDim S4096x1 ![0] bcast_S4096_S4096x1_0 v (ix2 i (0 : Fin 1)) = v (ix1 i) :=
  broadcastInDim_apply _ bcast_S4096_S4096x1_0 v (ix2 i (0 : Fin 1)) (ix1 i) (fun a => match a with | ⟨0, _⟩ => rfl)

/-! ## The stages -/

/-- The scores at an index: the inner product of row i of k with row j of q, over sqrt 1024. -/
theorem tscores_apply (k q : FVec Ideal S4096x1024 .f32) (kr qr : Mat 4096 1024)
    (hk : ∀ (i : Fin 4096) (e : Fin 1024), k (ix2 i e) = ((kr i e : ℝ) : EReal))
    (hq : ∀ (i : Fin 4096) (e : Fin 1024), q (ix2 i e) = ((qr i e : ℝ) : EReal))
    (i j : Fin 4096) :
    tscores (F := Ideal) k q (ix2 i j) = (((∑ e : Fin 1024, kr i e * qr j e) / Real.sqrt 1024 : ℝ) : EReal) := by
  unfold tscores
  rw [hostDivf_apply, bcast0_apply, hostSqrt_apply, constant_apply, ofBits_1024, sqrt_1024]
  show Ideal.div (Host.dotGeneral (DotDims.transposedRhs 4096 1024 4096) none k q (ix2 i j)) _ = _
  rw [dotGeneral_nt_apply, ← div_coe_coe _ sqrt_1024_ne, coe_sum]
  refine congrArg (fun z => Ideal.div z _) (Finset.sum_congr rfl fun e _ => ?_)
  rw [hk, hq, EReal.coe_mul]

/-- The guarded row maximum at an index is the row's largest entry. -/
theorem trowmax_apply (s : FVec Ideal S4096x4096 .f32) (sr : Mat 4096 4096)
    (hs : ∀ (i j : Fin 4096), s (ix2 i j) = ((sr i j : ℝ) : EReal)) (i : Fin 4096) :
    trowmax (F := Ideal) s (ix1 i) = ((rowMax sr i : ℝ) : EReal) := by
  unfold trowmax
  rw [maximumf_apply, bcast0_apply, constant_apply,
    hostMaxAxis1_apply s _ reducesTo_S4096x4096_S4096_d1 (by decide) h_S_ i, constant_apply, ofBits_neg_inf]
  simp only [hs]
  rw [fold_max_coe, max_bot_coe]
  rfl

/-- The softmax numerators at an index. -/
theorem tpexp_apply (s : FVec Ideal S4096x4096 .f32) (sr : Mat 4096 4096)
    (hs : ∀ (i j : Fin 4096), s (ix2 i j) = ((sr i j : ℝ) : EReal)) (i j : Fin 4096) :
    tpexp (F := Ideal) s (ix2 i j) = ((pexp sr i j : ℝ) : EReal) := by
  unfold tpexp
  rw [hostExp_apply, subf_apply, tcol_apply, trowmax_apply s sr hs, hs, ← EReal.coe_sub, Ideal.exp_coe]
  rfl

/-- The softmax weights at an index. -/
theorem tattn_apply (s : FVec Ideal S4096x4096 .f32) (sr : Mat 4096 4096)
    (hs : ∀ (i j : Fin 4096), s (ix2 i j) = ((sr i j : ℝ) : EReal)) (i j : Fin 4096) :
    tattn (F := Ideal) s (ix2 i j) = ((pexp sr i j / rowSum (pexp sr) i : ℝ) : EReal) := by
  unfold tattn
  rw [hostDivf_apply, tcol_apply, tpexp_apply s sr hs,
    hostSumAxis1_apply _ _ reducesTo_S4096x4096_S4096_d1 (by decide) h_S_ i, constant_apply, ofBits_zero]
  simp only [tpexp_apply s sr hs]
  rw [← coe_sum, ← EReal.coe_add, zero_add]
  exact div_coe_coe _ (rowSum_pexp_pos sr i).ne'

/-- The weighted average of v's rows at an index. -/
theorem tavg_apply (a : FVec Ideal S4096x4096 .f32) (v : FVec Ideal S4096x1024 .f32)
    (ar : Mat 4096 4096) (vr : Mat 4096 1024)
    (ha : ∀ (i j : Fin 4096), a (ix2 i j) = ((ar i j : ℝ) : EReal))
    (hv : ∀ (j : Fin 4096) (e : Fin 1024), v (ix2 j e) = ((vr j e : ℝ) : EReal))
    (i : Fin 4096) (e : Fin 1024) :
    tavg (F := Ideal) a v (ix2 i e) = ((∑ j : Fin 4096, ar i j * vr j e : ℝ) : EReal) := by
  unfold tavg
  show Host.dotGeneral (DotDims.plain 4096 4096 1024) none a v (ix2 i e) = _
  rw [StackMember.dotGeneral_plain_apply, coe_sum]
  refine Finset.sum_congr rfl fun j _ => ?_
  rw [ha, hv, EReal.coe_mul]

/-- Output projection, bias and residual at an index. -/
theorem th_apply (xa : FVec Ideal S4096x1024 .f32) (fw : FVec Ideal S1024x1024 .f32) (fb : FVec Ideal S1024 .f32)
    (x : FVec Ideal S4096x1024 .f32) (xar : Mat 4096 1024) (fwr : Mat 1024 1024) (fbr : Fin 1024 → ℝ) (xr : Mat 4096 1024)
    (hxa : ∀ (i : Fin 4096) (e : Fin 1024), xa (ix2 i e) = ((xar i e : ℝ) : EReal))
    (hfw : ∀ (f e : Fin 1024), fw (ix2 f e) = ((fwr f e : ℝ) : EReal))
    (hfb : ∀ f : Fin 1024, fb (ix1 f) = ((fbr f : ℝ) : EReal))
    (hx : ∀ (i : Fin 4096) (f : Fin 1024), x (ix2 i f) = ((xr i f : ℝ) : EReal))
    (i : Fin 4096) (f : Fin 1024) :
    th (F := Ideal) xa fw fb x (ix2 i f) = ((((∑ e : Fin 1024, xar i e * fwr f e) + fbr f) + xr i f : ℝ) : EReal) := by
  unfold th
  rw [addf_apply, addf_apply, tproj_apply xa fw xar fwr hxa hfw, trow_apply, hfb, hx, ← EReal.coe_add, ← EReal.coe_add]
  rfl

/-- The row mean, as a column, at (i, 0). -/
theorem tmean_apply (h : FVec Ideal S4096x1024 .f32) (hr : Mat 4096 1024)
    (hh : ∀ (i : Fin 4096) (f : Fin 1024), h (ix2 i f) = ((hr i f : ℝ) : EReal)) (i : Fin 4096) :
    tmean (F := Ideal) h (ix2 i (0 : Fin 1)) = ((mean hr i : ℝ) : EReal) := by
  unfold tmean
  rw [hostDivf_apply, vcol_apply, bcast0_apply, constant_apply, ofBits_1024,
    hostSumAxis1_apply _ _ reducesTo_S4096x1024_S4096_d1 (by decide) h_S_ i, constant_apply, ofBits_zero]
  simp only [hh]
  rw [← coe_sum, ← EReal.coe_add, zero_add]
  exact div_coe_coe _ (by norm_num)

/-- The centred rows at an index. -/
theorem tcen_apply (h : FVec Ideal S4096x1024 .f32) (hr : Mat 4096 1024)
    (hh : ∀ (i : Fin 4096) (f : Fin 1024), h (ix2 i f) = ((hr i f : ℝ) : EReal)) (i : Fin 4096) (f : Fin 1024) :
    tcen (F := Ideal) h (ix2 i f) = ((hr i f - mean hr i : ℝ) : EReal) := by
  unfold tcen
  rw [subf_apply, bcol_apply, tmean_apply h hr hh, hh, ← EReal.coe_sub]

/-- The variance's divisor is 1024: the correction converted from the zero word is 0. -/
theorem tdiv_apply (j : S_.Idx) : tdiv (F := Ideal) j = ((1024 : ℝ) : EReal) := by
  unfold tdiv
  rw [subf_apply, constant_apply, ofBits_1024, sitofp_apply]
  show ((1024 : ℝ) : EReal) - (((0#32 : BitVec 32).toInt : ℝ) : EReal) = _
  rw [BitVec.toInt_zero, Int.cast_zero, EReal.coe_zero, sub_zero]

/-- The row variance, as a column, at (i, 0): the divisor is positive, so the guard takes the quotient. -/
theorem tvar_apply (h : FVec Ideal S4096x1024 .f32) (hr : Mat 4096 1024)
    (hh : ∀ (i : Fin 4096) (f : Fin 1024), h (ix2 i f) = ((hr i f : ℝ) : EReal)) (i : Fin 4096) :
    tvar (F := Ideal) h (ix2 i (0 : Fin 1)) = ((var hr i : ℝ) : EReal) := by
  unfold tvar
  rw [select_apply, bcast0_apply, cmpf_apply, tdiv_apply, constant_apply, ofBits_zero]
  have hc : FloatOps.cmpf (F := Ideal) (φ := .f32) .ogt ((1024 : ℝ) : EReal) ((0 : ℝ) : EReal) = 1#1 := by
    show BitVec.ofBool (decide (((0 : ℝ) : EReal) < ((1024 : ℝ) : EReal))) = 1#1
    rw [decide_eq_true (EReal.coe_lt_coe_iff.mpr (by norm_num))]
    rfl
  rw [hc, select_one, hostDivf_apply, vcol_apply, bcast0_apply, tdiv_apply,
    hostSumAxis1_apply _ _ reducesTo_S4096x1024_S4096_d1 (by decide) h_S_ i, constant_apply, ofBits_zero]
  simp only [mulf_apply, tcen_apply h hr hh, ← EReal.coe_mul]
  rw [← coe_sum, ← EReal.coe_add, zero_add]
  exact div_coe_coe _ (by norm_num)

/-- The row normalisation with scale and shift at an index. -/
theorem tln_apply (h : FVec Ideal S4096x1024 .f32) (g b : FVec Ideal S1024 .f32)
    (hr : Mat 4096 1024) (gr br : Fin 1024 → ℝ)
    (hh : ∀ (i : Fin 4096) (f : Fin 1024), h (ix2 i f) = ((hr i f : ℝ) : EReal))
    (hg : ∀ f : Fin 1024, g (ix1 f) = ((gr f : ℝ) : EReal)) (hb : ∀ f : Fin 1024, b (ix1 f) = ((br f : ℝ) : EReal))
    (i : Fin 4096) (f : Fin 1024) :
    tln (F := Ideal) h g b (ix2 i f) = ((lnorm hr gr br i f : ℝ) : EReal) := by
  unfold tln
  rw [addf_apply, mulf_apply, mulf_apply, trow_apply, trow_apply, bcol_apply, hostRsqrt_apply, addf_apply,
    bcast0_apply, constant_apply, ofBits_eps, tvar_apply h hr hh, tcen_apply h hr hh, hg, hb, ← EReal.coe_add,
    rsqrt_coe_pos (var_add_eps_pos hr i), ← EReal.coe_mul, ← EReal.coe_mul, ← EReal.coe_add]
  rfl

/-! ## The whole reference -/

/-- The reference's term at (i, f) is the coercion of the specification's first arrangement at (i, f). -/
theorem refTerm_apply
    (x : FVec Ideal S4096x1024 .f32) (wq wk wv fw : FVec Ideal S1024x1024 .f32) (fb g b : FVec Ideal S1024 .f32)
    (xr : Cert.Spec.Mat 4096 1024) (wqr wkr wvr fwr : Cert.Spec.Mat 1024 1024) (fbr gr br : Fin 1024 → ℝ)
    (hx : ∀ (i : Fin 4096) (d : Fin 1024), x (ix2 i d) = ((xr i d : ℝ) : EReal))
    (hwq : ∀ (e d : Fin 1024), wq (ix2 e d) = ((wqr e d : ℝ) : EReal)) (hwk : ∀ (e d : Fin 1024), wk (ix2 e d) = ((wkr e d : ℝ) : EReal))
    (hwv : ∀ (e d : Fin 1024), wv (ix2 e d) = ((wvr e d : ℝ) : EReal)) (hfw : ∀ (e d : Fin 1024), fw (ix2 e d) = ((fwr e d : ℝ) : EReal))
    (hfb : ∀ f : Fin 1024, fb (ix1 f) = ((fbr f : ℝ) : EReal)) (hg : ∀ f : Fin 1024, g (ix1 f) = ((gr f : ℝ) : EReal)) (hb : ∀ f : Fin 1024, b (ix1 f) = ((br f : ℝ) : EReal))
    (i : Fin 4096) (f : Fin 1024) :
    Cert.RefTerm.refTerm (F := Ideal) x wq wk wv fw fb g b (ix2 i f) = ((Cert.Spec.refOut xr wqr wkr wvr fwr fbr gr br i f : ℝ) : EReal) := by
  unfold Cert.RefTerm.refTerm
  have hs : ∀ (i j : Fin 4096), tscores (F := Ideal) (tproj x wk) (tproj x wq) (ix2 i j)
      = ((refScores xr wqr wkr i j : ℝ) : EReal) :=
    tscores_apply _ _ (proj xr wkr) (proj xr wqr) (tproj_apply x wk xr wkr hx hwk) (tproj_apply x wq xr wqr hx hwq)
  have ha : ∀ (i : Fin 4096) (e : Fin 1024),
      tavg (F := Ideal) (tattn (tscores (tproj x wk) (tproj x wq))) (tproj x wv) (ix2 i e)
        = ((refAttn xr wqr wkr wvr i e : ℝ) : EReal) :=
    tavg_apply _ _ (fun i j => pexp (refScores xr wqr wkr) i j / rowSum (pexp (refScores xr wqr wkr)) i) (proj xr wvr)
      (tattn_apply _ (refScores xr wqr wkr) hs) (tproj_apply x wv xr wvr hx hwv)
  have hh : ∀ (i : Fin 4096) (f : Fin 1024),
      th (F := Ideal) (tavg (tattn (tscores (tproj x wk) (tproj x wq))) (tproj x wv)) fw fb x (ix2 i f)
        = ((refH xr wqr wkr wvr fwr fbr i f : ℝ) : EReal) :=
    th_apply _ fw fb x (refAttn xr wqr wkr wvr) fwr fbr xr ha hfw hfb hx
  exact tln_apply _ g b (refH xr wqr wkr wvr fwr fbr) gr br hh hg hb i f

end Cert.RefRead

end
-- ==== Proof.Finite.lean ====
/-
  From the precondition to real arrays.

  The precondition says of each of the eight argument arrays that every entry a has |a| < +∞. An entry is an extended
  real; |a| = max a (-a) is +∞ at both infinities, so the entry is neither, that is, it is a real number. Hence each
  array is the coercion of a real array: the array of its entries' real parts.
-/
import proofs.«400652_j32040456029043_3_alg».proof.Defs
import proofs.«400652_j32040456029043_3_alg».proof.Proof.Gen.Pre_finite_inputs
import proofs.«400652_j32040456029043_3_alg».proof.Proof.Gen.KernelIdeal
import proofs.«400652_j32040456029043_3_alg».proof.Proof.Spec
import Idealize.ShloMosaic.Lib.ValueIdx
import Idealize.ShloMosaic.Lib.IdealHost
import Idealize.ShloMosaic.Lib.ReduceAll

noncomputable section

namespace Cert.Finite

open Idealize.ShloMosaic Idealize.ShloMosaic.ValueIdx Idealize.SL.Sem
open Cert.Pre_finite_inputs

/-- The scalar shape has one index. -/
instance : Subsingleton S_.Idx := ⟨fun a b => funext fun d => d.elim0⟩

/-- The pattern 0x7F800000 is +∞. -/
theorem ofBits_pos_inf : Ideal.ofBits .f32 0x7F800000#32 = (⊤ : EReal) := by
  simp [Ideal.ofBits, Ideal.ieee]

/-- An extended real whose absolute value is below +∞ is the real number it denotes. -/
theorem real_of_abs_lt_top (a : EReal)
    (h : Ideal.cmp .olt (max a (-a)) (Ideal.ofBits .f32 0x7F800000#32) = 1#1) : a = ((EReal.toReal a : ℝ) : EReal) := by
  rw [ofBits_pos_inf] at h
  induction a using EReal.rec with
  | bot => exact absurd h (by simp [Ideal.cmp])
  | top => exact absurd h (by simp [Ideal.cmp])
  | coe r => rw [EReal.toReal_coe]

/-- An array all of whose entries have absolute value below +∞ holds real numbers: each entry is the coercion of
    its real part. -/
theorem real_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi
          (cmpf .olt (Host.absf a) (broadcastInDim s ![] hb (constant (F := Ideal) S_ .f32 0x7F800000#32)))
          (constantI S_ 1 1#1) hr hu ix0 = 1#1) (i : s.Idx) :
    a i = ((EReal.toReal (a i) : ℝ) : EReal) := by
  have hi := Host.reduce_andi_all _ _ hr hu ix0 e i
  rw [cmpf_apply, broadcastInDim_scalar_apply, constant_apply] at hi
  exact real_of_abs_lt_top (a i) hi

/-- Under the precondition every argument array is the coercion of a real array. -/
theorem reals_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∃ (xr : Cert.Spec.Mat 4096 1024) (wqr wkr wvr fwr : Cert.Spec.Mat 1024 1024) (fbr gr br : Fin 1024 → ℝ),
      (∀ (i : Fin 4096) (d : Fin 1024), m ((c.tc : Thread Cert.KernelIdeal.nD Cert.KernelIdeal.τ).loc Cert.KernelIdeal.main_arg0) (ix2 i d) = ((xr i d : ℝ) : EReal))
      ∧ (∀ (e d : Fin 1024), m ((c.tc : Thread Cert.KernelIdeal.nD Cert.KernelIdeal.τ).loc Cert.KernelIdeal.main_arg1) (ix2 e d) = ((wqr e d : ℝ) : EReal))
      ∧ (∀ (e d : Fin 1024), m ((c.tc : Thread Cert.KernelIdeal.nD Cert.KernelIdeal.τ).loc Cert.KernelIdeal.main_arg2) (ix2 e d) = ((wkr e d : ℝ) : EReal))
      ∧ (∀ (e d : Fin 1024), m ((c.tc : Thread Cert.KernelIdeal.nD Cert.KernelIdeal.τ).loc Cert.KernelIdeal.main_arg3) (ix2 e d) = ((wvr e d : ℝ) : EReal))
      ∧ (∀ (e d : Fin 1024), m ((c.tc : Thread Cert.KernelIdeal.nD Cert.KernelIdeal.τ).loc Cert.KernelIdeal.main_arg4) (ix2 e d) = ((fwr e d : ℝ) : EReal))
      ∧ (∀ f : Fin 1024, m ((c.tc : Thread Cert.KernelIdeal.nD Cert.KernelIdeal.τ).loc Cert.KernelIdeal.main_arg5) (ix1 f) = ((fbr f : ℝ) : EReal))
      ∧ (∀ f : Fin 1024, m ((c.tc : Thread Cert.KernelIdeal.nD Cert.KernelIdeal.τ).loc Cert.KernelIdeal.main_arg6) (ix1 f) = ((gr f : ℝ) : EReal))
      ∧ (∀ f : Fin 1024, m ((c.tc : Thread Cert.KernelIdeal.nD Cert.KernelIdeal.τ).loc Cert.KernelIdeal.main_arg7) (ix1 f) = ((br f : ℝ) : EReal)) := by
  have e := congrFun (h c) ix0
  dsimp only [fn, fn_part1, fn_part2, andi] at e
  simp only [IntOp.andi_eq_one] at e
  obtain ⟨⟨⟨⟨⟨⟨⟨e0, e1⟩, e2⟩, e3⟩, e4⟩, e5⟩, e6⟩, e7⟩ := e
  exact ⟨fun i d => EReal.toReal (m ((c.tc : Thread Cert.KernelIdeal.nD Cert.KernelIdeal.τ).loc Cert.KernelIdeal.main_arg0) (ix2 i d)),
    fun i d => EReal.toReal (m ((c.tc : Thread Cert.KernelIdeal.nD Cert.KernelIdeal.τ).loc Cert.KernelIdeal.main_arg1) (ix2 i d)),
    fun i d => EReal.toReal (m ((c.tc : Thread Cert.KernelIdeal.nD Cert.KernelIdeal.τ).loc Cert.KernelIdeal.main_arg2) (ix2 i d)),
    fun i d => EReal.toReal (m ((c.tc : Thread Cert.KernelIdeal.nD Cert.KernelIdeal.τ).loc Cert.KernelIdeal.main_arg3) (ix2 i d)),
    fun i d => EReal.toReal (m ((c.tc : Thread Cert.KernelIdeal.nD Cert.KernelIdeal.τ).loc Cert.KernelIdeal.main_arg4) (ix2 i d)),
    fun f => EReal.toReal (m ((c.tc : Thread Cert.KernelIdeal.nD Cert.KernelIdeal.τ).loc Cert.KernelIdeal.main_arg5) (ix1 f)),
    fun f => EReal.toReal (m ((c.tc : Thread Cert.KernelIdeal.nD Cert.KernelIdeal.τ).loc Cert.KernelIdeal.main_arg6) (ix1 f)),
    fun f => EReal.toReal (m ((c.tc : Thread Cert.KernelIdeal.nD Cert.KernelIdeal.τ).loc Cert.KernelIdeal.main_arg7) (ix1 f)),
    fun i d => real_of_all _ _ _ _ e0 (ix2 i d),
    fun i d => real_of_all _ _ _ _ e1 (ix2 i d),
    fun i d => real_of_all _ _ _ _ e2 (ix2 i d),
    fun i d => real_of_all _ _ _ _ e3 (ix2 i d),
    fun i d => real_of_all _ _ _ _ e4 (ix2 i d),
    fun f => real_of_all _ _ _ _ e5 (ix1 f),
    fun f => real_of_all _ _ _ _ e6 (ix1 f),
    fun f => real_of_all _ _ _ _ e7 (ix1 f)⟩

end Cert.Finite

end
-- ==== Proof.Assemble.lean ====
/-
  The two programs agree at the ideal values.

  From memories that agree on the eight argument arrays, under the precondition that every argument entry is finite:
  each argument array is the coercion of a real array. The kernel's run ends with every buffer at the last boundary's
  contents; its result buffer there holds, entry by entry, the coercion of the second arrangement of the attention
  block at those real arrays, and its arguments are as launched. The reference's run ends with its result buffer at
  the stage-by-stage term of its arguments, which holds, entry by entry, the coercion of the first arrangement, and
  its arguments are as launched. Over the reals the two arrangements are one function, so the two results are equal.
-/
import proofs.«400652_j32040456029043_3_alg».proof.Defs
import proofs.«400652_j32040456029043_3_alg».proof.Proof.Gen.KernelIdeal
import proofs.«400652_j32040456029043_3_alg».proof.Proof.Gen.ReferenceIdeal
import proofs.«400652_j32040456029043_3_alg».proof.Proof.Gen.Pre_finite_inputs
import proofs.«400652_j32040456029043_3_alg».proof.Proof.KRun
import proofs.«400652_j32040456029043_3_alg».proof.Proof.KGlue
import proofs.«400652_j32040456029043_3_alg».proof.Proof.RefRun
import proofs.«400652_j32040456029043_3_alg».proof.Proof.RefRead
import proofs.«400652_j32040456029043_3_alg».proof.Proof.Finite
import proofs.«400652_j32040456029043_3_alg».proof.Proof.Spec

noncomputable section

namespace Cert.Assemble

open Idealize.ShloMosaic Idealize.ShloMosaic.TcCoe Idealize.SL.Sem Idealize.ShloMosaic.ValueIdx

/-- From memories that agree on the eight arguments, both programs run, leave their arguments as launched, and end
    with the same result on every device: the kernel's result buffer holds, entry by entry, the coercion of the
    second arrangement of the block at the arguments' real arrays, the reference's holds the coercion of the first,
    and over the reals the two arrangements are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W4 m c (Proc.devRef .tc Cert.KernelIdeal.main_v13), ?_, ?_⟩
  · refine (θ_run Cert.KernelIdeal.defs _ _).mono (fun _ h c => ⟨?_, ?_, ?_, ?_, ?_, ?_, ?_, ?_, ?_⟩)
      (Cert.KernelIdeal.Hand.run_main (F := Ideal) m ρ)
    · exact h c _ (Cert.KernelIdeal.Hand.mem_uc Cert.KernelIdeal.main_v13 (by decide))
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
    · exact (h c _ (Cert.KernelIdeal.Hand.mem_uc Cert.KernelIdeal.main_arg2 (by decide))).trans (Cert.KernelIdeal.Hand.W4_main_arg2 m c)
    · exact (h c _ (Cert.KernelIdeal.Hand.mem_uc Cert.KernelIdeal.main_arg3 (by decide))).trans (Cert.KernelIdeal.Hand.W4_main_arg3 m c)
    · exact (h c _ (Cert.KernelIdeal.Hand.mem_uc Cert.KernelIdeal.main_arg4 (by decide))).trans (Cert.KernelIdeal.Hand.W4_main_arg4 m c)
    · exact (h c _ (Cert.KernelIdeal.Hand.mem_uc Cert.KernelIdeal.main_arg5 (by decide))).trans (Cert.KernelIdeal.Hand.W4_main_arg5 m c)
    · exact (h c _ (Cert.KernelIdeal.Hand.mem_uc Cert.KernelIdeal.main_arg6 (by decide))).trans (Cert.KernelIdeal.Hand.W4_main_arg6 m c)
    · exact (h c _ (Cert.KernelIdeal.Hand.mem_uc Cert.KernelIdeal.main_arg7 (by decide))).trans (Cert.KernelIdeal.Hand.W4_main_arg7 m c)
  · refine (θ_run Cert.ReferenceIdeal.defs _ _).mono (fun _ h c => ⟨(h c).1.trans ?_, (h c).2⟩)
      (Cert.RefRun.run (F := Ideal) m' ρ')
    obtain ⟨xr, wqr, wkr, wvr, fwr, fbr, gr, br, hx, hwq, hwk, hwv, hfw, hfb, hg, hb⟩ := Cert.Finite.reals_of_pre m hpre c
    obtain ⟨e0, e1, e2, e3, e4, e5, e6, e7⟩ := hagree c
    rw [e0, e1, e2, e3, e4, e5, e6, e7]
    funext j
    obtain ⟨i, f, rfl⟩ : ∃ (i : Fin 4096) (f : Fin 1024), j = ix2 i f := ⟨j 0, j 1, eq_ix2 j⟩
    exact (Cert.RefRead.refTerm_apply _ _ _ _ _ _ _ _ xr wqr wkr wvr fwr fbr gr br hx hwq hwk hwv hfw hfb hg hb i f).trans
      ((congrArg (fun z : ℝ => (z : EReal))
          (congrFun (congrFun (Cert.Spec.kerOut_eq_refOut xr wqr wkr wvr fwr fbr gr br) i) f).symm).trans
        (Cert.KernelIdeal.Glue.kernel_value m c xr wqr wkr wvr fwr fbr gr br hx hwq hwk hwv hfw hfb hg hb i f).symm)

end Cert.Assemble

end
-- ==== Proof.lean ====
/-
  The certificate of the attention block: a two-launch kernel (a stacked projection that stores q, k and v, q and k
  each with a remainder; then scores, row softmax, the weighted average of v, the output projection with bias and
  residual, and a row normalisation) against the plain reference.

  Frames. The kernel's two launches each load whole staging buffers, compute, and store whole staging buffers, so a
  launch leaves its input arrays as they were and its output arrays at what its write-backs leave; with the host
  stretches between them the program runs to the end and every argument buffer reads back to the launch memory
  (word-level and idealized alike). The reference is a straight line of host operations.

  Ledger. The three rewrites of the idealization are widenings of a value just narrowed, the identity on extended
  reals.

  Values. Under the precondition every input is a real number. Over the reals the kernel's arrangement is the
  reference's: folding 1/32 into wq is dividing the scores by sqrt 1024 = 32; a remainder is a number less itself,
  0, so the extra products vanish; dividing the weighted sum by the softmax denominator is averaging with the
  normalised weights; mean, variance and normalisation are the same expressions.
-/
import proofs.«400652_j32040456029043_3_alg».proof.Defs
import proofs.«400652_j32040456029043_3_alg».proof.Proof.Gen.Kernel
import proofs.«400652_j32040456029043_3_alg».proof.Proof.Gen.KernelIdeal
import proofs.«400652_j32040456029043_3_alg».proof.Proof.Gen.ReferenceIdeal
import proofs.«400652_j32040456029043_3_alg».proof.Proof.Gen.Pre_finite_inputs
import proofs.«400652_j32040456029043_3_alg».proof.Proof.BRun
import proofs.«400652_j32040456029043_3_alg».proof.Proof.KRun
import proofs.«400652_j32040456029043_3_alg».proof.Proof.RefRun
import proofs.«400652_j32040456029043_3_alg».proof.Proof.Assemble

noncomputable section

namespace Cert.Proof

open Idealize.ShloMosaic Idealize.SL.Sem

/-- The word-level kernel runs to the end and each argument ends as launched: the run's last boundary, read at the
    argument's buffer. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W4_main_arg0 m c),
      (h c _ (Cert.Kernel.Hand.mem_uc Cert.Kernel.main_arg1 (by decide))).trans (Cert.Kernel.Hand.W4_main_arg1 m c),
      (h c _ (Cert.Kernel.Hand.mem_uc Cert.Kernel.main_arg2 (by decide))).trans (Cert.Kernel.Hand.W4_main_arg2 m c),
      (h c _ (Cert.Kernel.Hand.mem_uc Cert.Kernel.main_arg3 (by decide))).trans (Cert.Kernel.Hand.W4_main_arg3 m c),
      (h c _ (Cert.Kernel.Hand.mem_uc Cert.Kernel.main_arg4 (by decide))).trans (Cert.Kernel.Hand.W4_main_arg4 m c),
      (h c _ (Cert.Kernel.Hand.mem_uc Cert.Kernel.main_arg5 (by decide))).trans (Cert.Kernel.Hand.W4_main_arg5 m c),
      (h c _ (Cert.Kernel.Hand.mem_uc Cert.Kernel.main_arg6 (by decide))).trans (Cert.Kernel.Hand.W4_main_arg6 m c),
      (h c _ (Cert.Kernel.Hand.mem_uc Cert.Kernel.main_arg7 (by decide))).trans (Cert.Kernel.Hand.W4_main_arg7 m c)⟩)
    (Cert.Kernel.Hand.run_main (F := Bits) m ρ)

/-- The same of the idealized kernel. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c),
      (h c _ (Cert.KernelIdeal.Hand.mem_uc Cert.KernelIdeal.main_arg6 (by decide))).trans (Cert.KernelIdeal.Hand.W4_main_arg6 m c),
      (h c _ (Cert.KernelIdeal.Hand.mem_uc Cert.KernelIdeal.main_arg7 (by decide))).trans (Cert.KernelIdeal.Hand.W4_main_arg7 m c)⟩)
    (Cert.KernelIdeal.Hand.run_main (F := Ideal) m ρ)

/-- The reference's frame is its run with the result dropped. -/
theorem frame_ri : Cert.frame_ReferenceIdeal := fun m ρ _ =>
  (θ_run Cert.ReferenceIdeal.defs _ _).mono (fun _ h c => (h c).2) (Cert.RefRun.run (F := Ideal) m ρ)

/-- The ledger's three entries: a widening of a value just narrowed is the value, at the extended reals. -/
theorem preserves : Cert.preserves_Kernel_KernelIdeal :=
  ⟨IdealRules.truncf_extf.statement _ _ _, IdealRules.truncf_extf.statement _ _ _, IdealRules.truncf_extf.statement _ _ _⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Assemble.algebraic⟩

end Cert.Proof

end
